-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1024, 1024]⟩ ⟨2, ![2048, 2048]⟩ (Layout.meshBlock [2, 2] ![[0], [1]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![1024, 1024]⟩ ⟨2, ![2048, 2048]⟩ (Layout.meshBlock [2, 2] ![[0], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v23) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1024x1024 : Shape := ⟨2, ![1024, 1024]⟩
abbrev S_ : Shape := ⟨0, ![]⟩

class Facts : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel

variable [Facts]

def fn {F : FTy → Type} [FloatOps F] (main_arg0 : FVec F S1024x1024 .f32) : IVec S_ 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_c : IVec S_ 1 := constantI S_ 1 1#1
  let main_v3 : IVec S_ 1 := (fun x v => Host.reduce IntOp.andi x v reducesTo_S1024x1024_S_d0_1 h_S_) main_v2 main_c
  main_v3
-- ==== Pre_finite_inputs_ReferenceIdeal.lean ====
abbrev S2048x2048 : Shape := ⟨2, ![2048, 2048]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel

variable [Facts]

def fn {F : FTy → Type} [FloatOps F] (main_arg0 : FVec F S2048x2048 .f32) : IVec S_ 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  main_v3
-- ==== Kernel.lean ====
abbrev S1024x1024 : Shape := ⟨2, ![1024, 1024]⟩
abbrev S1x1024 : Shape := ⟨2, ![1, 1024]⟩
abbrev S2 : Shape := ⟨1, ![2]⟩
abbrev S_ : Shape := ⟨0, ![]⟩
abbrev S1024 : Shape := ⟨1, ![1024]⟩
abbrev S1024x1 : Shape := ⟨2, ![1024, 1]⟩
abbrev S1 : Shape := ⟨1, ![1]⟩
abbrev S1023x1024 : Shape := ⟨2, ![1023, 1024]⟩
abbrev S1024x1023 : Shape := ⟨2, ![1024, 1023]⟩
abbrev S2x1024 : Shape := ⟨2, ![2, 1024]⟩

abbrev nBuf : Space → Nat
  | .hbm => 2
  | .vmem => 7
  | .smem => 0
  | _ => 0

abbrev bufTy : (tb : Table) → Fin (tcTables nBuf tb) → BufTy
  | .hbm, ⟨0, _⟩ => ⟨S1024x1024, .f32⟩
  | .hbm, ⟨1, _⟩ => ⟨S1024x1024, .bf16⟩
  | .local _ .vmem, ⟨0, _⟩ => ⟨S1024x1024, .f32⟩
  | .local _ .vmem, ⟨1, _⟩ => ⟨S1024x1024, .bf16⟩
  | .local _ .vmem, ⟨2, _⟩ => ⟨S1024x1024, .bf16⟩
  | .local _ .vmem, ⟨3, _⟩ => ⟨S1x1024, .bf16⟩
  | .local _ .vmem, ⟨4, _⟩ => ⟨S1x1024, .bf16⟩
  | .local _ .vmem, ⟨5, _⟩ => ⟨S1x1024, .bf16⟩
  | .local _ .vmem, ⟨6, _⟩ => ⟨S1x1024, .bf16⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  (ofTc nBuf bufTy 1 6 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_2 v2
  let c2_i32_4 : BitVec 32 := 2#32
  let v8 : BitVec 32 := Scalar.muli v7 c2_i32_4
  let v9 : BitVec 32 := Scalar.addi c0_i32 v8
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_5 : BitVec 32 := 1#32
  let v10 : BitVec 32 := Scalar.muli v5 c1_i32_5
  let v11 : BitVec 32 := Scalar.addi v9 v10
  v11.toNat
def k0_dev2 (d0 : Dev nD) : Nat :=
  let c0_i32_9 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_8 : BitVec 32 := 2#32
  let v13 : BitVec 32 := Scalar.muli v2 c2_i32_8
  let v14 : BitVec 32 := Scalar.addi c0_i32_9 v13
  let c1_i32_6 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v12 : BitVec 32 := Scalar.subi c1_i32_6 v5
  let c1_i32_10 : BitVec 32 := 1#32
  let v15 : BitVec 32 := Scalar.muli v12 c1_i32_10
  let v16 : BitVec 32 := Scalar.addi v14 v15
  v16.toNat
def k0_dev3 (d0 : Dev nD) : Nat :=
  let c0_i32_33 : BitVec 32 := 0#32
  let c1_i32_28 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v43 : BitVec 32 := Scalar.subi c1_i32_28 v2
  let c2_i32_32 : BitVec 32 := 2#32
  let v45 : BitVec 32 := Scalar.muli v43 c2_i32_32
  let v46 : BitVec 32 := Scalar.addi c0_i32_33 v45
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_34 : BitVec 32 := 1#32
  let v47 : BitVec 32 := Scalar.muli v5 c1_i32_34
  let v48 : BitVec 32 := Scalar.addi v46 v47
  v48.toNat
def k0_dev4 (d0 : Dev nD) : Nat :=
  let c0_i32_38 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_37 : BitVec 32 := 2#32
  let v53 : BitVec 32 := Scalar.muli v2 c2_i32_37
  let v54 : BitVec 32 := Scalar.addi c0_i32_38 v53
  let c1_i32_29 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v44 : BitVec 32 := Scalar.subi c1_i32_29 v5
  let c1_i32_39 : BitVec 32 := 1#32
  let v55 : BitVec 32 := Scalar.muli v44 c1_i32_39
  let v56 : BitVec 32 := Scalar.addi v54 v55
  v56.toNat
abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  inb_S1024x1024_S1x1024_1023_0 : ∀ a, (![1023, 0] : Fin 2 → Nat) a + S1x1024.size a ≤ S1024x1024.size a
  h_S1x1024 : 0 < S1x1024.numel
  shapeCasts_S1x1024_S1024 : S1x1024.ShapeCasts S1024
  inb_S1024x1024_S1x1024_0_0 : ∀ a, (![0, 0] : Fin 2 → Nat) a + S1x1024.size a ≤ S1024x1024.size a
  bitsLt_bf16_f32 : FTy.bits .bf16 < FTy.bits .f32
  inb_S1x1024_S1x1024_0_0 : ∀ a, (![0, 0] : Fin 2 → Nat) a + S1x1024.size a ≤ S1x1024.size a
  shapeCasts_S1024_S1x1024 : S1024.ShapeCasts S1x1024
  packedbf16_S1x1024_S1x1024_0_0 : (Rect.unit (s := S1x1024) ![0, 0] S1x1024.size inb_S1x1024_S1x1024_0_0).PackedRows (EltTy.packing .bf16)
  inb_S1024x1024_S1024x1_0_1023 : ∀ a, (![0, 1023] : Fin 2 → Nat) a + S1024x1.size a ≤ S1024x1024.size a
  h_S1024x1 : 0 < S1024x1.numel
  shapeCasts_S1024x1_S1024 : S1024x1.ShapeCasts S1024
  inb_S1024x1024_S1024x1_0_0 : ∀ a, (![0, 0] : Fin 2 → Nat) a + S1024x1.size a ≤ S1024x1024.size a
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S1024x1024_S1024x1024_0_0 : (Rect.unit (s := S1024x1024) ![0, 0] S1024x1024.size inb_S1024x1024_S1024x1024_0_0).PackedRows (EltTy.packing .bf16)
  hamt_2 : (2#32 : BitVec 32).msb = false
  inb_S2_S1_0 : ∀ a, (![0] : Fin 1 → Nat) a + S1.size a ≤ S2.size a
  squeezes_S1_S_ : S1.Squeezes S_
  inb_S2_S1_1 : ∀ a, (![1] : Fin 1 → Nat) a + S1.size a ≤ S2.size a
  slices_S1024x1024_o0_0_S1023x1024 : S1024x1024.Slices ![0, 0] S1023x1024
  concatenates_S1x1024_S1023x1024_S1024x1024_d0 : Shape.Concatenates [S1x1024, S1023x1024] S1024x1024 0
  slices_S1024x1024_o1_0_S1023x1024 : S1024x1024.Slices ![1, 0] S1023x1024
  concatenates_S1023x1024_S1x1024_S1024x1024_d0 : Shape.Concatenates [S1023x1024, S1x1024] S1024x1024 0
  slices_S1024x1024_o0_0_S1024x1023 : S1024x1024.Slices ![0, 0] S1024x1023
  concatenates_S1024x1_S1024x1023_S1024x1024_d1 : Shape.Concatenates [S1024x1, S1024x1023] S1024x1024 1
  slices_S1024x1024_o0_1_S1024x1023 : S1024x1024.Slices ![0, 1] S1024x1023
  concatenates_S1024x1023_S1024x1_S1024x1024_d1 : Shape.Concatenates [S1024x1023, S1024x1] S1024x1024 1
  inb_S1024x1024_S2x1024_1022_0 : ∀ a, (![1022, 0] : Fin 2 → Nat) a + S2x1024.size a ≤ S1024x1024.size a
  h_S2x1024 : 0 < S2x1024.numel
  slices_S2x1024_S1x1024_1_0 : S2x1024.Slices ![1, 0] S1x1024
  packedbf16_S1024x1024_S2x1024_1022_0 : (Rect.unit (s := S1024x1024) ![1022, 0] S2x1024.size inb_S1024x1024_S2x1024_1022_0).PackedRows (EltTy.packing .bf16)
  inb_S1024x1024_S2x1024_0_0 : ∀ a, (![0, 0] : Fin 2 → Nat) a + S2x1024.size a ≤ S1024x1024.size a
  slices_S2x1024_S1x1024_0_0 : S2x1024.Slices ![0, 0] S1x1024
  packedbf16_S1024x1024_S2x1024_0_0 : (Rect.unit (s := S1024x1024) ![0, 0] S2x1024.size inb_S1024x1024_S2x1024_0_0).PackedRows (EltTy.packing .bf16)
  shapeCasts_S1024_S1024x1 : S1024.ShapeCasts S1024x1
  packedbf16_S1024x1024_S1024x1_0_1023 : (Rect.unit (s := S1024x1024) ![0, 1023] S1024x1.size inb_S1024x1024_S1024x1_0_1023).PackedRows (EltTy.packing .bf16)
  packedbf16_S1024x1024_S1024x1_0_0 : (Rect.unit (s := S1024x1024) ![0, 0] S1024x1.size inb_S1024x1024_S1024x1_0_0).PackedRows (EltTy.packing .bf16)
  hcc0_scratch5 : 2 + S2.numel ≤ 6
  hcc0_scratch6 : 4 + S2.numel ≤ 6
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  hstage0_0 : ∀ j, (stage0_0 j).IsWhole
  hstage0_1 : ∀ j, (stage0_1 j).IsWhole

variable [Facts₀]

abbrev cc0_scratch5 : DmaSems sig S2 := SemArray.consecutive 2 S2 hcc0_scratch5
abbrev cc0_scratch6 : DmaSems sig S2 := SemArray.consecutive 4 S2 hcc0_scratch6

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S2048x2048 : Shape := ⟨2, ![2048, 2048]⟩
abbrev S2046x2046 : Shape := ⟨2, ![2046, 2046]⟩
abbrev S_ : Shape := ⟨0, ![]⟩
abbrev S1 : Shape := ⟨1, ![1]⟩
abbrev S2 : Shape := ⟨1, ![2]⟩

abbrev nBuf : Space → Nat
  | .hbm => 32
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2046x2046, .f32⟩
  | .hbm, ⟨2, _⟩ => ⟨S_, .f32⟩
  | .hbm, ⟨3, _⟩ => ⟨S2046x2046, .f32⟩
  | .hbm, ⟨4, _⟩ => ⟨S2046x2046, .f32⟩
  | .hbm, ⟨5, _⟩ => ⟨S2046x2046, .f32⟩
  | .hbm, ⟨6, _⟩ => ⟨S_, .f32⟩
  | .hbm, ⟨7, _⟩ => ⟨S2046x2046, .f32⟩
  | .hbm, ⟨8, _⟩ => ⟨S2046x2046, .f32⟩
  | .hbm, ⟨9, _⟩ => ⟨S2046x2046, .f32⟩
  | .hbm, ⟨10, _⟩ => ⟨S2046x2046, .f32⟩
  | .hbm, ⟨11, _⟩ => ⟨S_, .f32⟩
  | .hbm, ⟨12, _⟩ => ⟨S2046x2046, .f32⟩
  | .hbm, ⟨13, _⟩ => ⟨S2046x2046, .f32⟩
  | .hbm, ⟨14, _⟩ => ⟨S2046x2046, .f32⟩
  | .hbm, ⟨15, _⟩ => ⟨S2046x2046, .f32⟩
  | .hbm, ⟨16, _⟩ => ⟨S_, .f32⟩
  | .hbm, ⟨17, _⟩ => ⟨S2046x2046, .f32⟩
  | .hbm, ⟨18, _⟩ => ⟨S2046x2046, .f32⟩
  | .hbm, ⟨19, _⟩ => ⟨S2046x2046, .f32⟩
  | .hbm, ⟨20, _⟩ => ⟨S2046x2046, .f32⟩
  | .hbm, ⟨21, _⟩ => ⟨S_, .f32⟩
  | .hbm, ⟨22, _⟩ => ⟨S2046x2046, .f32⟩
  | .hbm, ⟨23, _⟩ => ⟨S2046x2046, .f32⟩
  | .hbm, ⟨24, _⟩ => ⟨S2046x2046, .f32⟩
  | .hbm, ⟨25, _⟩ => ⟨S_, .i32⟩
  | .hbm, ⟨26, _⟩ => ⟨S1, .i32⟩
  | .hbm, ⟨27, _⟩ => ⟨S_, .i32⟩
  | .hbm, ⟨28, _⟩ => ⟨S1, .i32⟩
  | .hbm, ⟨29, _⟩ => ⟨S2, .i32⟩
  | .hbm, ⟨30, _⟩ => ⟨S2048x2048, .f32⟩
  | .hbm, ⟨31, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_1 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_2 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_3 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c : Ref sig .tc := ⟨.hbm, 25, rfl⟩
abbrev main_v19 : Ref sig .tc := ⟨.hbm, 26, rfl⟩
abbrev main_c_4 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]

class Facts₀ : Prop where
  slices_S2048x2048_S2046x2046_1_1 : S2048x2048.Slices ![1, 1] S2046x2046
  bcast_S_S2046x2046 : S_.BroadcastsInDim S2046x2046 (![] : Fin 0 → Fin S2046x2046.rank)
  slices_S2048x2048_S2046x2046_0_1 : S2048x2048.Slices ![0, 1] S2046x2046
  slices_S2048x2048_S2046x2046_2_1 : S2048x2048.Slices ![2, 1] S2046x2046
  slices_S2048x2048_S2046x2046_1_0 : S2048x2048.Slices ![1, 0] S2046x2046
  slices_S2048x2048_S2046x2046_1_2 : S2048x2048.Slices ![1, 2] S2046x2046
  bcast_S_S1 : S_.BroadcastsInDim S1 (![] : Fin 0 → Fin S1.rank)
  concatenates_S1_S1_S2_d0 : Shape.Concatenates [S1, S1] S2 0
  bitsLt_bf16_f32 : FTy.bits .bf16 < FTy.bits .f32
  scatter_S2048x2048_S2_S2046x2046_01_n_01_0_wf : ScatterDims.WF S2048x2048 S2 S2046x2046 [0, 1] [] [0, 1] 0

variable [Facts₀]

def scatter_S2048x2048_S2_S2046x2046_01_n_01_0 : ScatterDims S2048x2048 S2 S2046x2046 where
  updateWindowDims := [0, 1]
  insertedWindowDims := []
  scatterDimsToOperandDims := [0, 1]
  indexVectorDim := 0
  wf := scatter_S2048x2048_S2_S2046x2046_01_n_01_0_wf

class Facts : Prop extends Facts₀ where

variable [Facts]
-- ==== Proof.Spec.lean ====
/-
  The mathematics both programs compute, as pure functions over the extended reals.

  `stencil W` is the five-point stencil on the whole 2048 x 2048 array: on rows and columns 1..2046 the value
  is  1/2 * centre + 1/8 * north + 1/8 * south + 1/8 * west + 1/8 * east  (summed left to right), and on the
  outermost rows and columns it is the input itself.

  `localSt x0 y0 B R C` is what one device of the 2 x 2 mesh computes from its own 1024 x 1024 block `B`, the edge
  row `R` it receives from its vertical neighbour and the edge column `C` it receives from its horizontal
  neighbour; `x0` says the device holds the upper half of the rows, `y0` the left half of the columns.
  First  1/2 * centre + 1/8 * (((up + down) + left) + right)  with zero outside the block; then the block's inner
  edge row gains 1/8 of the received row, then its inner edge column 1/8 of the received column; last, the part of
  the whole array's outermost rows and columns that lies in the block is the input itself.
-/
import Idealize.ShloMosaic.PureOps.Ideal
import Idealize.ShloMosaic.Lib.ValueIdx
import Idealize.ShloMosaic.Lib.Layout

noncomputable section

namespace Cert.Stencil

open Idealize.ShloMosaic Idealize.ShloMosaic.ValueIdx

/-- The whole array's shape and one device's block's. -/
abbrev SW : Shape := ⟨2, ![2048, 2048]⟩
abbrev SB : Shape := ⟨2, ![1024, 1024]⟩

/-- The two weights, as extended reals. -/
def half : EReal := ((1 / 2 : ℝ) : EReal)
def eighth : EReal := ((1 / 8 : ℝ) : EReal)

/-- The five-point stencil on the whole array; the outermost rows and columns are kept. -/
def stencil (W : SW.Idx → EReal) : SW.Idx → EReal := fun i =>
  if h : 1 ≤ (i 0).val ∧ (i 0).val ≤ 2046 ∧ 1 ≤ (i 1).val ∧ (i 1).val ≤ 2046 then
    half * W i
      + eighth * W (ix2 (⟨(i 0).val - 1, by have := idx2_lt0 i; omega⟩ : Fin 2048) (i 1))
      + eighth * W (ix2 (⟨(i 0).val + 1, by omega⟩ : Fin 2048) (i 1))
      + eighth * W (ix2 (i 0) (⟨(i 1).val - 1, by have := idx2_lt1 i; omega⟩ : Fin 2048))
      + eighth * W (ix2 (i 0) (⟨(i 1).val + 1, by omega⟩ : Fin 2048))
  else W i

/-- A block's neighbour entries, zero outside the block. -/
def upOf (B : SB.Idx → EReal) (i : SB.Idx) : EReal :=
  if h : (i 0).val = 0 then 0 else B (ix2 (⟨(i 0).val - 1, by have := idx2_lt0 i; omega⟩ : Fin 1024) (i 1))
def downOf (B : SB.Idx → EReal) (i : SB.Idx) : EReal :=
  if h : (i 0).val = 1023 then 0 else B (ix2 (⟨(i 0).val + 1, by have := idx2_lt0 i; omega⟩ : Fin 1024) (i 1))
def leftOf (B : SB.Idx → EReal) (i : SB.Idx) : EReal :=
  if h : (i 1).val = 0 then 0 else B (ix2 (i 0) (⟨(i 1).val - 1, by have := idx2_lt1 i; omega⟩ : Fin 1024))
def rightOf (B : SB.Idx → EReal) (i : SB.Idx) : EReal :=
  if h : (i 1).val = 1023 then 0 else B (ix2 (i 0) (⟨(i 1).val + 1, by have := idx2_lt1 i; omega⟩ : Fin 1024))

/-- The stencil inside one block, its neighbours outside the block read as zero. -/
def base (B : SB.Idx → EReal) (i : SB.Idx) : EReal :=
  half * B i + eighth * (((upOf B i + downOf B i) + leftOf B i) + rightOf B i)

/-- The block's inner edge row: its last row for a device of the upper half, its first for one of the lower. -/
def innerRow (x0 : Bool) : ℕ := if x0 then 1023 else 0
/-- The block's inner edge column. -/
def innerCol (y0 : Bool) : ℕ := if y0 then 1023 else 0
/-- The block's row (column) on the whole array's border. -/
def outerRow (x0 : Bool) : ℕ := if x0 then 0 else 1023
def outerCol (y0 : Bool) : ℕ := if y0 then 0 else 1023

/-- After the received edge row has been added on the inner edge row. -/
def withRow (x0 : Bool) (B : SB.Idx → EReal) (R : Fin 1024 → EReal) (i : SB.Idx) : EReal :=
  if (i 0).val = innerRow x0 then base B i + eighth * R (i 1) else base B i
/-- After the received edge column has been added on the inner edge column. -/
def withCol (x0 y0 : Bool) (B : SB.Idx → EReal) (R C : Fin 1024 → EReal) (i : SB.Idx) : EReal :=
  if (i 1).val = innerCol y0 then withRow x0 B R i + eighth * C (i 0) else withRow x0 B R i

/-- One device's result: the whole array's border rows and columns kept, the rest the stencil completed by the
    two received edges. -/
def localSt (x0 y0 : Bool) (B : SB.Idx → EReal) (R C : Fin 1024 → EReal) : SB.Idx → EReal := fun i =>
  if (i 0).val = outerRow x0 ∨ (i 1).val = outerCol y0 then B i else withCol x0 y0 B R C i

/-- The edge row a device sends: its inner edge row. -/
def edgeRow (x0 : Bool) (B : SB.Idx → EReal) : Fin 1024 → EReal := fun q =>
  B (ix2 (⟨innerRow x0, by unfold innerRow; split <;> omega⟩ : Fin 1024) q)
/-- The edge column a device sends: its inner edge column. -/
def edgeCol (y0 : Bool) (B : SB.Idx → EReal) : Fin 1024 → EReal := fun r =>
  B (ix2 r (⟨innerCol y0, by unfold innerCol; split <;> omega⟩ : Fin 1024))

/-! ## The mesh: four devices, device `c` at row `c / 2`, column `c % 2` -/

/-- The vertical and the horizontal neighbour of a device. -/
def xnF (c : Fin 4) : Fin 4 := ⟨((c.val % 2) + 2) - 2 * (c.val / 2), by have h : c.val < 4 := c.isLt; omega⟩
def ynF (c : Fin 4) : Fin 4 := ⟨(2 * (c.val / 2) + 1) - (c.val % 2), by have h : c.val < 4 := c.isLt; omega⟩
/-- The device holds the upper half of the rows / the left half of the columns. -/
def x0F (c : Fin 4) : Bool := decide (c.val / 2 = 0)
def y0F (c : Fin 4) : Bool := decide (c.val % 2 = 0)

/-- Device `c`'s block of a whole array. -/
def blk (c : Fin 4) (W : SW.Idx → EReal) : SB.Idx → EReal :=
  Layout.blockN SB SW (Layout.meshBlock [2, 2] ![[0], [1]] c) W

end Cert.Stencil

end
-- ==== Proof.KernelProto.lean ====
/-
  The halo exchange of the 2 x 2 mesh, as data: the devices' neighbours, the semaphore cells, what every buffer of a
  device holds at each stage of the body, and (below) the schedule of signals and copies with what each landing
  hands its waiter.

  Device `c` sits at row `c / 2`, column `c % 2` of the mesh. Its vertical neighbour `xn c` holds the other half of
  the rows, its horizontal neighbour `yn c` the other half of the columns; both maps are involutions.
  A device first tells both neighbours (one unit each on their barrier semaphore) that it is inside the kernel, and
  hands them with that unit the buffer they will copy into; having received its own two units it copies its inner
  edge row into the vertical neighbour's row buffer and its inner edge column into the horizontal neighbour's column
  buffer; the stencil of its own block is completed by the row and the column it receives.
-/
import proofs.«900186_g7700000000000187_dist_halo2d_stencil_xy_m1024_n1024_v7x_xy2x2_bf16_1_alg».proof.Defs
import proofs.«900186_g7700000000000187_dist_halo2d_stencil_xy_m1024_n1024_v7x_xy2x2_bf16_1_alg».proof.Proof.Gen.Kernel
import proofs.«900186_g7700000000000187_dist_halo2d_stencil_xy_m1024_n1024_v7x_xy2x2_bf16_1_alg».proof.Proof.Gen.Kernel.Skeleton
import proofs.«900186_g7700000000000187_dist_halo2d_stencil_xy_m1024_n1024_v7x_xy2x2_bf16_1_alg».proof.Proof.Gen.Kernel.Launch
import proofs.«900186_g7700000000000187_dist_halo2d_stencil_xy_m1024_n1024_v7x_xy2x2_bf16_1_alg».proof.Proof.Gen.Kernel.Points
import Idealize.ShloMosaic.Lib.Pipeline.Launch
import Idealize.ShloMosaic.Lib.Pipeline.Kit
import Idealize.ShloMosaic.Lib.Tactic

noncomputable section

namespace Cert.Kernel.Halo

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the exchange's own (duties named by `Bool`) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The mesh -/

/-- The vertical neighbour: same column, the other row of the mesh. -/
def xn (c : Dev nD) : Dev nD := ⟨((c.val % 2) + 2) - 2 * (c.val / 2), by have h : c.val < 4 := c.isLt; show _ < 4; omega⟩
/-- The horizontal neighbour: same row, the other column. -/
def yn (c : Dev nD) : Dev nD := ⟨(2 * (c.val / 2) + 1) - (c.val % 2), by have h : c.val < 4 := c.isLt; show _ < 4; omega⟩

theorem xn_xn (c : Dev nD) : xn (xn c) = c := by revert c; decide
theorem yn_yn (c : Dev nD) : yn (yn c) = c := by revert c; decide
theorem xn_ne_yn (c : Dev nD) : xn c ≠ yn c := by revert c; decide
theorem xn_ne (c : Dev nD) : xn c ≠ c := by revert c; decide
theorem yn_ne (c : Dev nD) : yn c ≠ c := by revert c; decide

/-- The device holds the upper half of the rows / the left half of the columns. -/
def isX0 (c : Dev nD) : Bool := decide (c.val / 2 = 0)
def isY0 (c : Dev nD) : Bool := decide (c.val % 2 = 0)

theorem isX0_xn (c : Dev nD) : isX0 (xn c) = !isX0 c := by revert c; decide
theorem isY0_xn (c : Dev nD) : isY0 (xn c) = isY0 c := by revert c; decide
theorem isX0_yn (c : Dev nD) : isX0 (yn c) = isX0 c := by revert c; decide
theorem isY0_yn (c : Dev nD) : isY0 (yn c) = !isY0 c := by revert c; decide

/-- The kernel's device chains: both signals and both copies name the vertical, then the horizontal neighbour. -/
theorem dev1_eq (c : Dev nD) : (⟨k0_dev1 c, k0_dev1_lt c⟩ : Dev nD) = xn c := Fin.ext (k0_dev1_eq c)
theorem dev2_eq (c : Dev nD) : (⟨k0_dev2 c, k0_dev2_lt c⟩ : Dev nD) = yn c := Fin.ext (k0_dev2_eq c)
theorem dev3_eq (c : Dev nD) : (⟨k0_dev3 c, k0_dev3_lt c⟩ : Dev nD) = xn c := Fin.ext (k0_dev3_eq c)
theorem dev4_eq (c : Dev nD) : (⟨k0_dev4 c, k0_dev4_lt c⟩ : Dev nD) = yn c := Fin.ext (k0_dev4_eq c)

def xswap : Dev nD ≃ Dev nD := ⟨xn, xn, xn_xn, xn_xn⟩
def yswap : Dev nD ≃ Dev nD := ⟨yn, yn, yn_yn, yn_yn⟩

/-! ## The memrefs and the cells -/

/-- The input block's staging buffer, the result's, the bf16 copy of the block, the edge row and column to send,
    the row and column received. -/
abbrev xM : Memref sig .tc .vmem S1024x1024 .f32 := Memref.whole cc0_stg0_0
abbrev oM : Memref sig .tc .vmem S1024x1024 .bf16 := Memref.whole cc0_stg1_0
abbrev lbM : Memref sig .tc .vmem S1024x1024 .bf16 := Memref.whole cc0_scratch0
abbrev srM : Memref sig .tc .vmem S1x1024 .bf16 := Memref.whole cc0_scratch1
abbrev scM : Memref sig .tc .vmem S1x1024 .bf16 := Memref.whole cc0_scratch2
abbrev rrM : Memref sig .tc .vmem S1x1024 .bf16 := Memref.whole cc0_scratch3
abbrev rcM : Memref sig .tc .vmem S1x1024 .bf16 := Memref.whole cc0_scratch4

/-- The runtime's barrier semaphore (unscoped); the two send and the two receive DMA semaphores (scoped scratch). -/
abbrev barS : Sem sig := (SemArray.scalar (sig.barrier 0 rfl) : Sems sig S_).sem
abbrev sendRowA : DmaSems sig S_ := (cc0_scratch5.slice (Rect.unit (s := S2) ![0] S1.size inb_S2_S1_0)).squeeze S_ squeezes_S1_S_
abbrev sendColA : DmaSems sig S_ := (cc0_scratch5.slice (Rect.unit (s := S2) ![1] S1.size inb_S2_S1_1)).squeeze S_ squeezes_S1_S_
abbrev recvRowA : DmaSems sig S_ := (cc0_scratch6.slice (Rect.unit (s := S2) ![0] S1.size inb_S2_S1_0)).squeeze S_ squeezes_S1_S_
abbrev recvColA : DmaSems sig S_ := (cc0_scratch6.slice (Rect.unit (s := S2) ![1] S1.size inb_S2_S1_1)).squeeze S_ squeezes_S1_S_

abbrev barCell (c : Dev nD) : GSem nD τ sig := ((c : Thread nD τ), .reg barS)
abbrev sendRowCell (c : Dev nD) : GSem nD τ sig := ((c : Thread nD τ), .dma sendRowA.sem)
abbrev sendColCell (c : Dev nD) : GSem nD τ sig := ((c : Thread nD τ), .dma sendColA.sem)
abbrev recvRowCell (c : Dev nD) : GSem nD τ sig := ((c : Thread nD τ), .dma recvRowA.sem)
abbrev recvColCell (c : Dev nD) : GSem nD τ sig := ((c : Thread nD τ), .dma recvColA.sem)

/-- The kernel's own (scoped) semaphores, as the launch indexes them; -/
abbrev osem : Fin 4 → SemLoc sig := fun | 0 => .dma sendRowA.sem | 1 => .dma sendColA.sem | 2 => .dma recvRowA.sem | 3 => .dma recvColA.sem
/-- all five of the exchange's: barrier, send row, send column, receive row, receive column. -/
abbrev csem : Fin 5 → SemLoc sig := fun | 0 => .reg barS | 1 => .dma sendRowA.sem | 2 => .dma sendColA.sem | 3 => .dma recvRowA.sem | 4 => .dma recvColA.sem
abbrev kcell (ck : Dev nD × Fin 5) : GSem nD τ sig := ((ck.1 : Thread nD τ), csem ck.2)

/-- One edge buffer's DMA credit (row and column buffers have one shape). -/
abbrev N : ℕ := (rrM : Memref sig .tc .vmem S1x1024 .bf16).view.dmaCredit
theorem N_pos : 0 < N := View.dmaCredit_pos _ (by decide)

/-! ## The rectangles the body reads and writes -/

abbrev rRow0 : Rect S1024x1024 := Rect.unit (s := S1024x1024) ![0, 0] S1x1024.size inb_S1024x1024_S1x1024_0_0
abbrev rRowL : Rect S1024x1024 := Rect.unit (s := S1024x1024) ![1023, 0] S1x1024.size inb_S1024x1024_S1x1024_1023_0
abbrev rCol0 : Rect S1024x1024 := Rect.unit (s := S1024x1024) ![0, 0] S1024x1.size inb_S1024x1024_S1024x1_0_0
abbrev rColL : Rect S1024x1024 := Rect.unit (s := S1024x1024) ![0, 1023] S1024x1.size inb_S1024x1024_S1024x1_0_1023
abbrev rAll : Rect S1024x1024 := Rect.unit (s := S1024x1024) ![0, 0] S1024x1024.size inb_S1024x1024_S1024x1024_0_0
abbrev rTop2 : Rect S1024x1024 := Rect.unit (s := S1024x1024) ![0, 0] S2x1024.size inb_S1024x1024_S2x1024_0_0
abbrev rBot2 : Rect S1024x1024 := Rect.unit (s := S1024x1024) ![1022, 0] S2x1024.size inb_S1024x1024_S2x1024_1022_0
abbrev rV : Rect S1x1024 := Rect.unit (s := S1x1024) ![0, 0] S1x1024.size inb_S1x1024_S1x1024_0_0

/-! ## What each buffer holds -/

/-- The contents types. -/
abbrev XC : Type := (cc0_stg0_0 : Ref sig .tc).ty.Contents (Elt F)
abbrev OC : Type := (cc0_stg1_0 : Ref sig .tc).ty.Contents (Elt F)
abbrev VC : Type := (cc0_scratch1 : Ref sig .tc).ty.Contents (Elt F)

/-- Device `c`'s input block, as staged. -/
def xstg (c : Dev nD) : XC (F := F) :=
  (win0_0.blk t0_0).view.read (Elt F) (m ((c : Thread nD τ).loc main_arg0))

/-- Is the device in the left half of the columns, as the kernel computes the bit. -/
def yBit (c : Dev nD) : BitVec 1 := Scalar.cmpi .eq (Scalar.remsi (Scalar.divsi (Dev.word c) 1#32) 2#32) 0#32

/-- The edge row the device sends: its last row if it is in the upper half, else its first (as bf16). -/
def srowV (c : Dev nD) : VC (F := F) :=
  k0_pay8 c ((xM).view.readAt (Elt F) rRowL.toLoadRect (xstg m c)) ((xM).view.readAt (Elt F) rRow0.toLoadRect (xstg m c))
/-- The edge column it sends. -/
def scolV (c : Dev nD) : VC (F := F) :=
  k0_pay10 (yBit c) (k0_pay9 ((xM).view.readAt (Elt F) rColL.toLoadRect (xstg m c))) ((xM).view.readAt (Elt F) rCol0.toLoadRect (xstg m c))
/-- The bf16 copy of its block. -/
def lbV (c : Dev nD) : OC (F := F) := k0_pay11 ((xM).view.readAt (Elt F) rAll.toLoadRect (xstg m c))
/-- What it receives: the vertical neighbour's edge row, the horizontal neighbour's edge column. -/
def rrowV (c : Dev nD) : VC (F := F) := srowV m (xn c)
def rcolV (c : Dev nD) : VC (F := F) := scolV m (yn c)

/-- A load of the result buffer through rectangle `r`, a store into it. -/
abbrev rdO (f : OC (F := F)) (r : Rect S1024x1024) : r.shape.Idx → Elt F .bf16 := (oM).view.readAt (Elt F) r.toLoadRect f
abbrev stO (f : OC (F := F)) (r : Rect S1024x1024) (w : r.shape.Idx → Elt F .bf16) : OC (F := F) :=
  ((oM).access r : View sig .tc _ _ _).write (Elt F) f w Finset.univ
abbrev rdL (f : OC (F := F)) (r : Rect S1024x1024) : r.shape.Idx → Elt F .bf16 := (lbM).view.readAt (Elt F) r.toLoadRect f

/-! ## The result buffer, store by store

`o1` is the stencil of the device's own block (neighbours outside the block read as zero); `o2`/`o3` add an eighth of
the received row on the inner edge row (last row for the upper half, first for the lower), `o4`/`o5` an eighth of the
received column on the inner edge column; `o6`..`o9` put the input back on the whole array's outermost rows and
columns. A row is written through the two packed rows that hold it, the other row of the pair kept. -/

/-- The received row and column, as the body loads them. -/
abbrev rrLd (c : Dev nD) : rV.shape.Idx → Elt F .bf16 := (rrM).view.readAt (Elt F) rV.toLoadRect (rrowV m c)
abbrev rcLd (c : Dev nD) : rV.shape.Idx → Elt F .bf16 := (rcM).view.readAt (Elt F) rV.toLoadRect (rcolV m c)

def o1 (c : Dev nD) : OC (F := F) :=
  k0_pay12 ((lbM).view.readAt (Elt F) rAll.toLoadRect (lbV m c)) (Scalar.ofBits .bf16 0x0000#16)
def o2 (c : Dev nD) : OC (F := F) :=
  if isX0 c then stO (o1 m c) rBot2 (updateSlice (rdO (o1 m c) rBot2) (k0_pay13 (rdO (o1 m c) rRowL) (rrLd m c)) ![1, 0] slices_S2x1024_S1x1024_1_0)
  else o1 m c
def o3 (c : Dev nD) : OC (F := F) :=
  if isX0 c then o2 m c
  else stO (o2 m c) rTop2 (updateSlice (rdO (o2 m c) rTop2) (k0_pay1 (rdO (o2 m c) rRow0) (rrLd m c)) ![0, 0] slices_S2x1024_S1x1024_0_0)
def o4 (c : Dev nD) : OC (F := F) :=
  if isY0 c then stO (o3 m c) rColL (k0_pay2 (rdO (o3 m c) rColL) (rcLd m c)) else o3 m c
def o5 (c : Dev nD) : OC (F := F) :=
  if isY0 c then o4 m c else stO (o4 m c) rCol0 (k0_pay3 (rdO (o4 m c) rCol0) (rcLd m c))
def o6 (c : Dev nD) : OC (F := F) :=
  if isX0 c then stO (o5 m c) rTop2 (updateSlice (rdO (o5 m c) rTop2) (k0_pay4 (rdL (lbV m c) rRow0)) ![0, 0] slices_S2x1024_S1x1024_0_0)
  else o5 m c
def o7 (c : Dev nD) : OC (F := F) :=
  if isX0 c then o6 m c
  else stO (o6 m c) rBot2 (updateSlice (rdO (o6 m c) rBot2) (k0_pay5 (rdL (lbV m c) rRowL)) ![1, 0] slices_S2x1024_S1x1024_1_0)
def o8 (c : Dev nD) : OC (F := F) :=
  if isY0 c then stO (o7 m c) rCol0 (k0_pay6 (rdL (lbV m c) rCol0)) else o7 m c
def o9 (c : Dev nD) : OC (F := F) :=
  if isY0 c then o8 m c else stO (o8 m c) rColL (k0_pay7 (rdL (lbV m c) rColL))

/-- The kernel's result on device `c`. -/
def outAt (c : Dev nD) : OC (F := F) := o9 m c

/-! ## Points-to assertions -/

/-- A buffer held whole through a memref's view, at contents `f`. -/
def vPts {s : Shape} {e : EltTy} (M : Memref sig .tc .vmem s e) (c : Dev nD) (f : Buf (Elt F) (M.view.loc (c : Thread nD τ))) : sProp 𝕄 :=
  M.view.loc (c : Thread nD τ) ↦[M.view.set]{fullShare} f

omit [FloatOps F] in
instance vPts_storable {s : Shape} {e : EltTy} (M : Memref sig .tc .vmem s e) (c : Dev nD) (f) :
    BI.Storable (upEmb : UEmb _ 𝕄) (vPts (F := F) M c f) := by unfold vPts; infer_instance

omit [FloatOps F] in
/-- A landing writes the whole destination with the whole source: the destination then holds the source's contents. -/
theorem landedRow_eq (c : Dev nD) (fd : Buf (Elt F) ((rrM : Memref sig .tc .vmem S1x1024 .bf16).view.loc (c : Thread nD τ))) (fs : VC (F := F)) :
    (rrM : Memref sig .tc .vmem S1x1024 .bf16).view.write (Elt F) fd ((srM : Memref sig .tc .vmem S1x1024 .bf16).view.read (Elt F) fs) Finset.univ = fs := by
  show (View.whole cc0_scratch3).write (Elt F) fd ((View.whole cc0_scratch1).read (Elt F) fs) Finset.univ = fs
  rw [View.read_whole]
  exact View.write_whole_univ _ _ _
omit [FloatOps F] in
theorem landedCol_eq (c : Dev nD) (fd : Buf (Elt F) ((rcM : Memref sig .tc .vmem S1x1024 .bf16).view.loc (c : Thread nD τ))) (fs : VC (F := F)) :
    (rcM : Memref sig .tc .vmem S1x1024 .bf16).view.write (Elt F) fd ((scM : Memref sig .tc .vmem S1x1024 .bf16).view.read (Elt F) fs) Finset.univ = fs := by
  show (View.whole cc0_scratch4).write (Elt F) fd ((View.whole cc0_scratch2).read (Elt F) fs) Finset.univ = fs
  rw [View.read_whole]
  exact View.write_whole_univ _ _ _

/-! ## The schedule -/

/-- What the vertical neighbour's unit on `c`'s barrier hands `c`: that neighbour's row buffer, and that it is at round 0
    of its row-receive cell (what the copy into it needs); the horizontal neighbour's likewise for the column. -/
def barPayX (c : Dev nD) : sProp 𝕄 := iprop((∃ f, vPts rrM (xn c) f) ∗ reached ER (recvRowCell (xn c)) 0)
def barPayY (c : Dev nD) : sProp 𝕄 := iprop((∃ f, vPts rcM (yn c) f) ∗ reached ER (recvColCell (yn c)) 0)
def recvRowPay (c : Dev nD) : sProp 𝕄 := vPts rrM c (rrowV m c)
def recvColPay (c : Dev nD) : sProp 𝕄 := vPts rcM c (rcolV m c)
def sendRowPay (c : Dev nD) : sProp 𝕄 := vPts srM c (srowV m c)
def sendColPay (c : Dev nD) : sProp 𝕄 := vPts scM c (scolV m c)

abbrev IsBar (g : GSem nD τ sig) : Prop := g.1.2 = .tc ∧ g.2 = .reg barS
abbrev IsXfer (g : GSem nD τ sig) : Prop :=
  g.1.2 = .tc ∧ (g.2 = .dma sendRowA.sem ∨ g.2 = .dma sendColA.sem ∨ g.2 = .dma recvRowA.sem ∨ g.2 = .dma recvColA.sem)

/-- One round, round 0: a barrier cell has the duties `false` (from the vertical neighbour) and `true` (from the horizontal
    one) of one unit each; each send or receive cell the duty `false` of one edge buffer's credit. -/
def sched : Rounds.Schedule (GSem nD τ sig) Bool 𝕄 where
  duties g r := if r = 0 ∧ IsBar g then Finset.univ else if r = 0 ∧ IsXfer g then {false} else ∅
  unitless _ := False
  amount g _ _ := if g.2 = .reg barS then 1 else N
  payload g _ d :=
    if g.2 = .reg barS then (if d then barPayY g.1.1 else barPayX g.1.1)
    else if g.2 = .dma recvRowA.sem then recvRowPay m g.1.1
    else if g.2 = .dma recvColA.sem then recvColPay m g.1.1
    else if g.2 = .dma sendRowA.sem then sendRowPay m g.1.1
    else if g.2 = .dma sendColA.sem then sendColPay m g.1.1
    else iprop(emp)
  amount_pos g _ _ _ := by
    by_cases h : g.2 = .reg barS
    · rw [if_pos h]; exact Nat.one_pos
    · rw [if_neg h]; exact N_pos

instance sched_payload_storable (g : GSem nD τ sig) (r : ℕ) (d : Bool) :
    BI.Storable (upEmb : UEmb _ 𝕄) ((sched (F := F) m).payload g r d) := by
  show BI.Storable upEmb (if g.2 = .reg barS then (if d then barPayY g.1.1 else barPayX g.1.1)
    else if g.2 = .dma recvRowA.sem then recvRowPay m g.1.1
    else if g.2 = .dma recvColA.sem then recvColPay m g.1.1
    else if g.2 = .dma sendRowA.sem then sendRowPay m g.1.1
    else if g.2 = .dma sendColA.sem then sendColPay m g.1.1
    else iprop(emp))
  unfold barPayX barPayY recvRowPay recvColPay sendRowPay sendColPay
  (repeat' split) <;> infer_instance

section Sched
variable (c : Dev nD)

theorem sr_ne_bar : (SemLoc.dma sendRowA.sem : SemLoc sig) ≠ .reg barS := fun h => by cases h
theorem sc_ne_bar : (SemLoc.dma sendColA.sem : SemLoc sig) ≠ .reg barS := fun h => by cases h
theorem rr_ne_bar : (SemLoc.dma recvRowA.sem : SemLoc sig) ≠ .reg barS := fun h => by cases h
theorem rc_ne_bar : (SemLoc.dma recvColA.sem : SemLoc sig) ≠ .reg barS := fun h => by cases h
theorem rc_ne_rr : (SemLoc.dma recvColA.sem : SemLoc sig) ≠ .dma recvRowA.sem := by decide
theorem sr_ne_rr : (SemLoc.dma sendRowA.sem : SemLoc sig) ≠ .dma recvRowA.sem := by decide
theorem sr_ne_rc : (SemLoc.dma sendRowA.sem : SemLoc sig) ≠ .dma recvColA.sem := by decide
theorem sc_ne_rr : (SemLoc.dma sendColA.sem : SemLoc sig) ≠ .dma recvRowA.sem := by decide
theorem sc_ne_rc : (SemLoc.dma sendColA.sem : SemLoc sig) ≠ .dma recvColA.sem := by decide
theorem sc_ne_sr : (SemLoc.dma sendColA.sem : SemLoc sig) ≠ .dma sendRowA.sem := by decide

theorem duties_bar : (sched (F := F) m).duties (barCell c) 0 = Finset.univ := by dsimp only [sched]; exact if_pos ⟨rfl, rfl, rfl⟩
theorem duties_sendRow : (sched (F := F) m).duties (sendRowCell c) 0 = {false} := by
  dsimp only [sched]; rw [if_neg (fun h => sr_ne_bar h.2.2)]; exact if_pos ⟨rfl, rfl, .inl rfl⟩
theorem duties_sendCol : (sched (F := F) m).duties (sendColCell c) 0 = {false} := by
  dsimp only [sched]; rw [if_neg (fun h => sc_ne_bar h.2.2)]; exact if_pos ⟨rfl, rfl, .inr (.inl rfl)⟩
theorem duties_recvRow : (sched (F := F) m).duties (recvRowCell c) 0 = {false} := by
  dsimp only [sched]; rw [if_neg (fun h => rr_ne_bar h.2.2)]; exact if_pos ⟨rfl, rfl, .inr (.inr (.inl rfl))⟩
theorem duties_recvCol : (sched (F := F) m).duties (recvColCell c) 0 = {false} := by
  dsimp only [sched]; rw [if_neg (fun h => rc_ne_bar h.2.2)]; exact if_pos ⟨rfl, rfl, .inr (.inr (.inr rfl))⟩
theorem duties_later (g : GSem nD τ sig) : ∀ r, 1 ≤ r → (sched (F := F) m).duties g r = ∅ :=
  fun r hr => by dsimp only [sched]; rw [if_neg fun h => by omega, if_neg fun h => by omega]

theorem amount_bar (d : Bool) : (sched (F := F) m).amount (barCell c) 0 d = 1 := by dsimp only [sched]; exact if_pos rfl
theorem amount_sendRow (d : Bool) : (sched (F := F) m).amount (sendRowCell c) 0 d = N := by dsimp only [sched]; exact if_neg sr_ne_bar
theorem amount_sendCol (d : Bool) : (sched (F := F) m).amount (sendColCell c) 0 d = N := by dsimp only [sched]; exact if_neg sc_ne_bar
theorem amount_recvRow (d : Bool) : (sched (F := F) m).amount (recvRowCell c) 0 d = N := by dsimp only [sched]; exact if_neg rr_ne_bar
theorem amount_recvCol (d : Bool) : (sched (F := F) m).amount (recvColCell c) 0 d = N := by dsimp only [sched]; exact if_neg rc_ne_bar

theorem expect_bar : (sched (F := F) m).expect (barCell c) 0 = 2 := by
  unfold Schedule.expect Schedule.amountOf
  rw [duties_bar, Finset.sum_congr rfl fun d _ => amount_bar m c d, Finset.sum_const, Finset.card_univ, Fintype.card_bool, smul_eq_mul]
theorem expect_sendRow : (sched (F := F) m).expect (sendRowCell c) 0 = N := by
  unfold Schedule.expect Schedule.amountOf; rw [duties_sendRow, Finset.sum_singleton, amount_sendRow]
theorem expect_sendCol : (sched (F := F) m).expect (sendColCell c) 0 = N := by
  unfold Schedule.expect Schedule.amountOf; rw [duties_sendCol, Finset.sum_singleton, amount_sendCol]
theorem expect_recvRow : (sched (F := F) m).expect (recvRowCell c) 0 = N := by
  unfold Schedule.expect Schedule.amountOf; rw [duties_recvRow, Finset.sum_singleton, amount_recvRow]
theorem expect_recvCol : (sched (F := F) m).expect (recvColCell c) 0 = N := by
  unfold Schedule.expect Schedule.amountOf; rw [duties_recvCol, Finset.sum_singleton, amount_recvCol]

theorem payload_bar_false : (sched (F := F) m).payload (barCell c) 0 false = barPayX c := by
  dsimp only [sched]; rw [if_pos rfl]; exact if_neg Bool.false_ne_true
theorem payload_bar_true : (sched (F := F) m).payload (barCell c) 0 true = barPayY c := by dsimp only [sched]; rw [if_pos rfl, if_pos rfl]
theorem payload_recvRow (d : Bool) : (sched (F := F) m).payload (recvRowCell c) 0 d = recvRowPay m c := by
  dsimp only [sched]; rw [if_neg rr_ne_bar, if_pos rfl]
theorem payload_recvCol (d : Bool) : (sched (F := F) m).payload (recvColCell c) 0 d = recvColPay m c := by
  dsimp only [sched]; rw [if_neg rc_ne_bar, if_neg rc_ne_rr, if_pos rfl]
theorem payload_sendRow (d : Bool) : (sched (F := F) m).payload (sendRowCell c) 0 d = sendRowPay m c := by
  dsimp only [sched]; rw [if_neg sr_ne_bar, if_neg sr_ne_rr, if_neg sr_ne_rc, if_pos rfl]
theorem payload_sendCol (d : Bool) : (sched (F := F) m).payload (sendColCell c) 0 d = sendColPay m c := by
  dsimp only [sched]; rw [if_neg sc_ne_bar, if_neg sc_ne_rr, if_neg sc_ne_rc, if_neg sc_ne_sr, if_pos rfl]

/-- The rest of the barrier cell's round, no duty taken: both neighbours' payloads. -/
theorem rest_bar : bigSep ((sched (F := F) m).duties (barCell c) 0 \ ∅) (fun d => (sched (F := F) m).payload (barCell c) 0 d) = iprop(barPayX c ∗ barPayY c) := by
  rw [Finset.sdiff_empty, duties_bar, bigSep_univ_eq_bigSepL [false, true] (by decide) (by decide), bigSepL_cons_cons, bigSepL_singleton,
    payload_bar_false, payload_bar_true]
  rfl
theorem rest_sendRow : bigSep ((sched (F := F) m).duties (sendRowCell c) 0 \ ∅) (fun d => (sched (F := F) m).payload (sendRowCell c) 0 d) = sendRowPay m c := by
  rw [Finset.sdiff_empty, duties_sendRow, bigSep_singleton, payload_sendRow]
theorem rest_sendCol : bigSep ((sched (F := F) m).duties (sendColCell c) 0 \ ∅) (fun d => (sched (F := F) m).payload (sendColCell c) 0 d) = sendColPay m c := by
  rw [Finset.sdiff_empty, duties_sendCol, bigSep_singleton, payload_sendCol]
theorem rest_recvRow : bigSep ((sched (F := F) m).duties (recvRowCell c) 0 \ ∅) (fun d => (sched (F := F) m).payload (recvRowCell c) 0 d) = recvRowPay m c := by
  rw [Finset.sdiff_empty, duties_recvRow, bigSep_singleton, payload_recvRow]
theorem rest_recvCol : bigSep ((sched (F := F) m).duties (recvColCell c) 0 \ ∅) (fun d => (sched (F := F) m).payload (recvColCell c) 0 d) = recvColPay m c := by
  rw [Finset.sdiff_empty, duties_recvCol, bigSep_singleton, payload_recvCol]

end Sched

/-! ## What each device owes at launch; the levels

Summed so that each step of the body peels the last summand: first the unit for the vertical neighbour's barrier,
then the unit for the horizontal neighbour's, then the row copy's credit, then the column copy's. -/

def O₂ (c : Dev nD) : CellTallies nD τ sig Unit := tallyAt (recvColCell (yn c)) () N + tallyAt (recvRowCell (xn c)) () N
def O₁ (c : Dev nD) : CellTallies nD τ sig Unit := O₂ c + tallyAt (barCell (yn c)) () 1
def O₀ (c : Dev nD) : CellTallies nD τ sig Unit := O₁ c + tallyAt (barCell (xn c)) () 1

def L (g : GSem nD τ sig) : Finset Unit := if g.1.2 = .tc then {()} else ∅
/-- Barrier cells at 1, receive cells at 2, everything else (staging, send) at 0: a device waits on its barrier while it
    still owes the two copies, so the receive cells lie above the barrier cells. -/
def lv (g : GSem nD τ sig) (_ : Unit) : ℕ :=
  if g.2 = .reg barS then 1 else if g.2 = .dma recvRowA.sem ∨ g.2 = .dma recvColA.sem then 2 else 0

theorem L_of_ne (g : GSem nD τ sig) (h : g.1.2 ≠ .tc) : L g = ∅ := if_neg h
theorem L_tc (c : Dev nD) (sm : SemLoc sig) : L ((c : Thread nD τ), sm) = {()} := if_pos rfl

theorem O₂_pos {c : Dev nD} {g : GSem nD τ sig} {u : Unit} (h : 0 < O₂ c g u) :
    g = recvColCell (yn c) ∨ g = recvRowCell (xn c) := by
  unfold O₂ at h
  rw [Pi.add_apply, Finsupp.add_apply, tallyAt_apply, tallyAt_apply] at h
  by_contra hn
  rw [not_or] at hn
  rw [if_neg (fun h' => hn.1 h'.1), if_neg (fun h' => hn.2 h'.1)] at h
  exact Nat.lt_irrefl 0 h

theorem O₀_pos {c : Dev nD} {g : GSem nD τ sig} {u : Unit} (h : 0 < O₀ c g u) :
    g = recvColCell (yn c) ∨ g = recvRowCell (xn c) ∨ g = barCell (yn c) ∨ g = barCell (xn c) := by
  unfold O₀ O₁ O₂ at h
  rw [Pi.add_apply, Finsupp.add_apply, Pi.add_apply, Finsupp.add_apply, Pi.add_apply, Finsupp.add_apply,
    tallyAt_apply, tallyAt_apply, tallyAt_apply, tallyAt_apply] at h
  by_contra hn
  rw [not_or, not_or, not_or] at hn
  rw [if_neg (fun h' => hn.1 h'.1), if_neg (fun h' => hn.2.1 h'.1), if_neg (fun h' => hn.2.2.1 h'.1), if_neg (fun h' => hn.2.2.2 h'.1)] at h
  exact Nat.lt_irrefl 0 h

omit [FloatOps F] in
/-- A wait on a staging or send cell is below everything a device may still owe. -/
theorem mayWait_stage (c : Dev nD) (q : DmaSem sig) (hq : ¬ ((SemLoc.dma q : SemLoc sig) = .dma recvRowA.sem ∨ (SemLoc.dma q : SemLoc sig) = .dma recvColA.sem))
    (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl | rfl | rfl <;> exact Finset.mem_singleton_self _)
      (fun p hp => by rw [Finset.mem_singleton.mp hp]; dsimp only [lv]; rw [if_neg (fun h => by cases h), if_neg hq])
      (fun g u hg => by
        rcases O₀_pos hg with rfl | rfl | rfl | rfl
        · dsimp only [lv]; rw [if_neg rc_ne_bar, if_pos (.inr rfl)]; decide
        · dsimp only [lv]; rw [if_neg rr_ne_bar, if_pos (.inl rfl)]; decide
        · dsimp only [lv]; rw [if_pos rfl]; decide
        · dsimp only [lv]; rw [if_pos rfl]; decide)
  · rw [MayWait_zero]; iintro -; iempintro

omit [FloatOps F] in
/-- At its barrier wait a device owes the two copies only: receive cells, above its barrier cell. -/
theorem mayWait_bar (c : Dev nD) :
    (levAts L lv : sProp 𝕄) ⊢ MayWait (c : Thread nD τ) (.reg barS) () (O₂ c) :=
  MayOwe.of_cut (L := L) (lev := lv) 1 (fun p hp => by rw [Finset.mem_singleton.mp hp, L_tc]; exact Finset.mem_singleton_self _)
    (fun g u hg => by rcases O₂_pos hg with rfl | rfl <;> exact Finset.mem_singleton_self _)
    (fun p hp => by rw [Finset.mem_singleton.mp hp]; dsimp only [lv]; rw [if_pos rfl])
    (fun g u hg => by
      rcases O₂_pos hg with rfl | rfl
      · dsimp only [lv]; rw [if_neg rc_ne_bar, if_pos (.inr rfl)]; decide
      · dsimp only [lv]; rw [if_neg rr_ne_bar, if_pos (.inl rfl)]; decide)

/-! ## The ghost state a device starts from, and the pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The cells' invariants device `c`'s body opens, under the names `K` the launch allocated them at: its own five, both
    neighbours' barrier cells (its signals), the vertical neighbour's row-receive cell and the horizontal neighbour's
    column-receive cell (its copies). -/
def invs (K : Dev nD × Fin 5 → ℕ) (c : Dev nD) : sProp 𝕄 :=
  iprop(cellInv ER (sched m) (K (c, 0)) (barCell c) ∗ cellInv ER (sched m) (K (c, 1)) (sendRowCell c) ∗ cellInv ER (sched m) (K (c, 2)) (sendColCell c)
    ∗ cellInv ER (sched m) (K (c, 3)) (recvRowCell c) ∗ cellInv ER (sched m) (K (c, 4)) (recvColCell c)
    ∗ cellInv ER (sched m) (K (xn c, 0)) (barCell (xn c)) ∗ cellInv ER (sched m) (K (yn c, 0)) (barCell (yn c))
    ∗ cellInv ER (sched m) (K (xn c, 3)) (recvRowCell (xn c)) ∗ cellInv ER (sched m) (K (yn c, 4)) (recvColCell (yn c)))

instance invs_persistent (K : Dev nD × Fin 5 → ℕ) (c : Dev nD) : BI.Persistent (invs m K c) := by unfold invs; infer_instance

/-- The exchange's ghost state device `c` starts from: the invariants; its positions at round 0 of its five cells; the
    reached-marks of the cells it pays and of its own four transfer cells; the six duty tokens it pays with. -/
def ghost (K : Dev nD × Fin 5 → ℕ) (c : Dev nD) : sProp 𝕄 :=
  iprop(invs m K c
    ∗ atPos ER (barCell c) 0 ∅ 0 ∗ atPos ER (sendRowCell c) 0 ∅ 0 ∗ atPos ER (sendColCell c) 0 ∅ 0 ∗ atPos ER (recvRowCell c) 0 ∅ 0 ∗ atPos ER (recvColCell c) 0 ∅ 0
    ∗ reached ER (barCell (xn c)) 0 ∗ reached ER (barCell (yn c)) 0 ∗ reached ER (recvRowCell (xn c)) 0 ∗ reached ER (recvColCell (yn c)) 0
    ∗ reached ER (sendRowCell c) 0 ∗ reached ER (sendColCell c) 0 ∗ reached ER (recvRowCell c) 0 ∗ reached ER (recvColCell c) 0
    ∗ dutyTok ER (barCell (xn c)) 0 false ∗ dutyTok ER (barCell (yn c)) 0 true
    ∗ dutyTok ER (recvRowCell (xn c)) 0 false ∗ dutyTok ER (recvColCell (yn c)) 0 false
    ∗ dutyTok ER (sendRowCell c) 0 false ∗ dutyTok ER (sendColCell c) 0 false)

/-- What device `c`'s body starts from: that at some names, its credit tokens (its barrier's two units, its two receive
    cells' credits) and the level facts. -/
def start (c : Dev nD) : sProp 𝕄 :=
  iprop((∃ K, ghost m K c) ∗ cred (tallyAt (barCell c) () 2) ∗ cred (tallyAt (recvRowCell c) () N) ∗ cred (tallyAt (recvColCell c) () N) ∗ levAts L lv)

/-- A scratch buffer held whole at some contents. -/
abbrev scr (c : Dev nD) (b : Ref sig .tc) : sProp 𝕄 :=
  iprop(∃ f : Buf (Elt F) ((c : Thread nD τ).loc b), ((c : Thread nD τ).loc b) ↦{fullShare} f)

def Φ₀ (c : Dev nD) : sProp 𝕄 :=
  iprop(start m c ∗ scr c cc0_scratch0 ∗ scr c cc0_scratch1 ∗ scr c cc0_scratch2 ∗ scr c cc0_scratch3 ∗ scr c cc0_scratch4)
/-- After the point: the scratch buffers back, the four own cells at zero, closed. -/
def Φ₁ (c : Dev nD) : sProp 𝕄 :=
  iprop((scr c cc0_scratch0 ∗ scr c cc0_scratch1 ∗ scr c cc0_scratch2 ∗ scr c cc0_scratch3 ∗ scr c cc0_scratch4)
    ∗ semVal (sendRowCell c) 0 ∗ semVal (sendColCell c) 0 ∗ semVal (recvRowCell c) 0 ∗ semVal (recvColCell c) 0)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

omit [FloatOps F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer held whole at exactly the contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body is entered with at the one grid point, and what it leaves. -/
def bodyPre' (c : Dev nD) : sProp 𝕄 :=
  iprop(Φ₀ m c ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

def bodyPost (c : Dev nD) : sProp 𝕄 :=
  iprop(Φ₁ c ∗ (dats m 0 c).owesAt () t₀.succ ∗ stg c cc0_stg0_0 (xstg m c) ∗ stg c cc0_stg1_0 (outAt m c))

end Cert.Kernel.Halo

end
-- ==== Proof.KernelSend.lean ====
/-
  The two remote copies of the halo exchange, as instances of the library's rule for an addressed copy whose
  destination the issuer holds: the edge row goes to the vertical neighbour's row buffer, the edge column to the
  horizontal neighbour's column buffer. What lands is the whole source written over the whole destination, so the
  destination then holds the source's contents: the payload of the neighbour's receive cell.
-/
import proofs.«900186_g7700000000000187_dist_halo2d_stencil_xy_m1024_n1024_v7x_xy2x2_bf16_1_alg».proof.Defs
import proofs.«900186_g7700000000000187_dist_halo2d_stencil_xy_m1024_n1024_v7x_xy2x2_bf16_1_alg».proof.Proof.Gen.Kernel
import proofs.«900186_g7700000000000187_dist_halo2d_stencil_xy_m1024_n1024_v7x_xy2x2_bf16_1_alg».proof.Proof.Gen.Kernel.Skeleton
import proofs.«900186_g7700000000000187_dist_halo2d_stencil_xy_m1024_n1024_v7x_xy2x2_bf16_1_alg».proof.Proof.Gen.Kernel.Launch
import proofs.«900186_g7700000000000187_dist_halo2d_stencil_xy_m1024_n1024_v7x_xy2x2_bf16_1_alg».proof.Proof.Gen.Kernel.Points
import proofs.«900186_g7700000000000187_dist_halo2d_stencil_xy_m1024_n1024_v7x_xy2x2_bf16_1_alg».proof.Proof.KernelProto
import Idealize.ShloMosaic.Lib.Pipeline.Launch
import Idealize.ShloMosaic.Lib.Pipeline.Kit
import Idealize.ShloMosaic.Lib.Tactic

noncomputable section

namespace Cert.Kernel.Halo

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The row copy: the device's edge row into its vertical neighbour's receive buffer. Holding both cells' invariants, the source
    at its contents, the neighbour's buffer at any contents, the two duty tokens and reached-marks, and owing the
    neighbour's receive cell the buffer's credit last: the copy is fired, the send cell's credit is gained and that debt
    is paid; the neighbour's cell will hand its owner the buffer holding exactly the source's contents. -/
theorem wp_send_row (K : Dev nD × Fin 5 → ℕ) (c n : Dev nD) (hn : n = xn c)
    {hsc : (rrM : Memref sig (Dev.tc n : Thread nD τ).2.kind .vmem S1x1024 .bf16).view.ref.isScScratch = false}
    {hsrc : (srM : Memref sig .tc .vmem S1x1024 .bf16).view.WordExact} {hdst : (rrM : Memref sig .tc .vmem S1x1024 .bf16).view.WordExact}
    {hsem : DmaTarget.Typed .vmem (.dma recvRowA.sem) (.remote (Dev.tc n : Thread nD τ) (rrM : Memref sig .tc .vmem S1x1024 .bf16) (.dma sendRowA.sem) hsc)}
    {α : Type} {Q : α → sProp 𝕄} {k : PUnit → Prog (TpuEff nD τ sig (Elt F) Λ₀ .tc) α}
    (fn : Buf (Elt F) ((rrM : Memref sig .tc .vmem S1x1024 .bf16).view.loc (xn c : Thread nD τ)))
    (O : CellTallies nD τ sig Unit) (W : Waits sig Unit) :
    iprop(cellInv ER (sched m) (K (c, 1)) (sendRowCell c) ∗ cellInv ER (sched m) (K (xn c, 3)) (recvRowCell (xn c))
        ∗ vPts srM c (srowV m c) ∗ vPts rrM (xn c) fn
        ∗ owes (c : Thread nD τ) (O + tallyAt (recvRowCell (xn c)) () N) W
        ∗ dutyTok ER (sendRowCell c) 0 false ∗ reached ER (sendRowCell c) 0
        ∗ dutyTok ER (recvRowCell (xn c)) 0 false ∗ reached ER (recvRowCell (xn c)) 0)
      ⊢ iprop(((cred (tallyAt (sendRowCell c) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma srM (.remote (Dev.tc n : Thread nD τ) rrM (.dma sendRowA.sem) hsc) (.dma recvRowA.sem) hsrc hdst hsem) k) Q) := by
  subst hn
  unfold vPts
  exact Rounds.wp_send_pointsTo 𝒱₀ ER (sched m) (c : Thread nD τ) none (κ₁ := K (c, 1)) (κ₂ := K (xn c, 3))
    (r₁ := 0) (r₂ := 0) (d₁ := false) (d₂ := false) (fd := fn)
    (by rw [duties_sendRow]; exact Finset.mem_singleton_self _) (by rw [duties_recvRow]; exact Finset.mem_singleton_self _)
    () () N rfl (amount_sendRow m c false) (amount_recvRow m (xn c) false) O rfl (W := W)
    (by rw [payload_sendRow]; exact BI.Entails.refl _)
    (by rw [payload_recvRow]; unfold recvRowPay vPts; rw [landedRow_eq, rrowV, xn_xn])

/-- The col copy: the device's edge col into its horizontal neighbour's receive buffer. Holding both cells' invariants, the source
    at its contents, the neighbour's buffer at any contents, the two duty tokens and reached-marks, and owing the
    neighbour's receive cell the buffer's credit last: the copy is fired, the send cell's credit is gained and that debt
    is paid; the neighbour's cell will hand its owner the buffer holding exactly the source's contents. -/
theorem wp_send_col (K : Dev nD × Fin 5 → ℕ) (c n : Dev nD) (hn : n = yn c)
    {hsc : (rcM : Memref sig (Dev.tc n : Thread nD τ).2.kind .vmem S1x1024 .bf16).view.ref.isScScratch = false}
    {hsrc : (scM : Memref sig .tc .vmem S1x1024 .bf16).view.WordExact} {hdst : (rcM : Memref sig .tc .vmem S1x1024 .bf16).view.WordExact}
    {hsem : DmaTarget.Typed .vmem (.dma recvColA.sem) (.remote (Dev.tc n : Thread nD τ) (rcM : Memref sig .tc .vmem S1x1024 .bf16) (.dma sendColA.sem) hsc)}
    {α : Type} {Q : α → sProp 𝕄} {k : PUnit → Prog (TpuEff nD τ sig (Elt F) Λ₀ .tc) α}
    (fn : Buf (Elt F) ((rcM : Memref sig .tc .vmem S1x1024 .bf16).view.loc (yn c : Thread nD τ)))
    (O : CellTallies nD τ sig Unit) (W : Waits sig Unit) :
    iprop(cellInv ER (sched m) (K (c, 2)) (sendColCell c) ∗ cellInv ER (sched m) (K (yn c, 4)) (recvColCell (yn c))
        ∗ vPts scM c (scolV m c) ∗ vPts rcM (yn c) fn
        ∗ owes (c : Thread nD τ) (O + tallyAt (recvColCell (yn c)) () N) W
        ∗ dutyTok ER (sendColCell c) 0 false ∗ reached ER (sendColCell c) 0
        ∗ dutyTok ER (recvColCell (yn c)) 0 false ∗ reached ER (recvColCell (yn c)) 0)
      ⊢ iprop(((cred (tallyAt (sendColCell c) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma scM (.remote (Dev.tc n : Thread nD τ) rcM (.dma sendColA.sem) hsc) (.dma recvColA.sem) hsrc hdst hsem) k) Q) := by
  subst hn
  unfold vPts
  exact Rounds.wp_send_pointsTo 𝒱₀ ER (sched m) (c : Thread nD τ) none (κ₁ := K (c, 2)) (κ₂ := K (yn c, 4))
    (r₁ := 0) (r₂ := 0) (d₁ := false) (d₂ := false) (fd := fn)
    (by rw [duties_sendCol]; exact Finset.mem_singleton_self _) (by rw [duties_recvCol]; exact Finset.mem_singleton_self _)
    () () N rfl (amount_sendCol m c false) (amount_recvCol m (yn c) false) O rfl (W := W)
    (by rw [payload_sendCol]; exact BI.Entails.refl _)
    (by rw [payload_recvCol]; unfold recvColPay vPts; rw [landedCol_eq, rcolV, yn_yn])

end Cert.Kernel.Halo

end
-- ==== Proof.KernelBody.lean ====
/-
  One device's body, stepped once at a symbolic device: from the state the launch hands it to the state it leaves,
  the result buffer at `outAt`.

  The schedule's tables are restated at the cells a device pays and waits on, each payload as the buffer it hands
  over; the eight branches on the device's half of the mesh are taken both ways and joined, and which way each goes
  is decided, over the four devices, only where the joined result is compared with `outAt`.
-/
import proofs.«900186_g7700000000000187_dist_halo2d_stencil_xy_m1024_n1024_v7x_xy2x2_bf16_1_alg».proof.Defs
import proofs.«900186_g7700000000000187_dist_halo2d_stencil_xy_m1024_n1024_v7x_xy2x2_bf16_1_alg».proof.Proof.Gen.Kernel
import proofs.«900186_g7700000000000187_dist_halo2d_stencil_xy_m1024_n1024_v7x_xy2x2_bf16_1_alg».proof.Proof.Gen.Kernel.Skeleton
import proofs.«900186_g7700000000000187_dist_halo2d_stencil_xy_m1024_n1024_v7x_xy2x2_bf16_1_alg».proof.Proof.Gen.Kernel.Launch
import proofs.«900186_g7700000000000187_dist_halo2d_stencil_xy_m1024_n1024_v7x_xy2x2_bf16_1_alg».proof.Proof.Gen.Kernel.Points
import proofs.«900186_g7700000000000187_dist_halo2d_stencil_xy_m1024_n1024_v7x_xy2x2_bf16_1_alg».proof.Proof.KernelProto
import proofs.«900186_g7700000000000187_dist_halo2d_stencil_xy_m1024_n1024_v7x_xy2x2_bf16_1_alg».proof.Proof.KernelSend
import Idealize.ShloMosaic.Lib.Pipeline.Launch
import Idealize.ShloMosaic.Lib.Pipeline.Kit
import Idealize.ShloMosaic.Lib.Tactic

noncomputable section

namespace Cert.Kernel.Halo

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

attribute [local sl_canon] dev1_eq dev2_eq dev3_eq dev4_eq

/-! ## The schedule's tables at the cells a device pays and waits on, each payload spelt as the buffer it hands over -/

theorem pay_barX_peer (c : Dev nD) : (sched (F := F) m).payload (barCell (xn c)) 0 false
    = iprop((∃ f, (rrM : Memref sig .tc .vmem S1x1024 .bf16).view.loc (c : Thread nD τ) ↦[(rrM : Memref sig .tc .vmem S1x1024 .bf16).view.set]{fullShare} f) ∗ reached ER (recvRowCell c) 0) := by
  rw [payload_bar_false]; unfold barPayX vPts; rw [xn_xn]
theorem pay_barY_peer (c : Dev nD) : (sched (F := F) m).payload (barCell (yn c)) 0 true
    = iprop((∃ f, (rcM : Memref sig .tc .vmem S1x1024 .bf16).view.loc (c : Thread nD τ) ↦[(rcM : Memref sig .tc .vmem S1x1024 .bf16).view.set]{fullShare} f) ∗ reached ER (recvColCell c) 0) := by
  rw [payload_bar_true]; unfold barPayY vPts; rw [yn_yn]

/-- What a device's own barrier round hands it: both neighbours' receive buffers, each with its cell's round reached. -/
theorem pay_bar_own (c : Dev nD) : bigSep (Finset.univ : Finset Bool) (fun d => (sched (F := F) m).payload (barCell c) 0 d)
    = iprop((∃ f, (rrM : Memref sig .tc .vmem S1x1024 .bf16).view.loc (xn c : Thread nD τ) ↦[(rrM : Memref sig .tc .vmem S1x1024 .bf16).view.set]{fullShare} f) ∗ reached ER (recvRowCell (xn c)) 0
        ∗ (∃ f, (rcM : Memref sig .tc .vmem S1x1024 .bf16).view.loc (yn c : Thread nD τ) ↦[(rcM : Memref sig .tc .vmem S1x1024 .bf16).view.set]{fullShare} f) ∗ reached ER (recvColCell (yn c)) 0) := by
  have h := rest_bar (F := F) m c
  rw [Finset.sdiff_empty, duties_bar] at h
  rw [h]; unfold barPayX barPayY vPts
  exact equiv_iff.mp ⟨Idealize.SL.BI.sep_assoc, Idealize.SL.BI.sep_assoc'⟩

theorem pay_sendRow_own (c : Dev nD) (d : Bool) : (sched (F := F) m).payload (sendRowCell c) 0 d
    = ((srM : Memref sig .tc .vmem S1x1024 .bf16).view.loc (c : Thread nD τ) ↦[(srM : Memref sig .tc .vmem S1x1024 .bf16).view.set]{fullShare} srowV m c) := by
  rw [payload_sendRow]; rfl
theorem pay_sendCol_own (c : Dev nD) (d : Bool) : (sched (F := F) m).payload (sendColCell c) 0 d
    = ((scM : Memref sig .tc .vmem S1x1024 .bf16).view.loc (c : Thread nD τ) ↦[(scM : Memref sig .tc .vmem S1x1024 .bf16).view.set]{fullShare} scolV m c) := by
  rw [payload_sendCol]; rfl
theorem pay_recvRow_own (c : Dev nD) (d : Bool) : (sched (F := F) m).payload (recvRowCell c) 0 d
    = ((rrM : Memref sig .tc .vmem S1x1024 .bf16).view.loc (c : Thread nD τ) ↦[(rrM : Memref sig .tc .vmem S1x1024 .bf16).view.set]{fullShare} rrowV m c) := by
  rw [payload_recvRow]; rfl
theorem pay_recvCol_own (c : Dev nD) (d : Bool) : (sched (F := F) m).payload (recvColCell c) 0 d
    = ((rcM : Memref sig .tc .vmem S1x1024 .bf16).view.loc (c : Thread nD τ) ↦[(rcM : Memref sig .tc .vmem S1x1024 .bf16).view.set]{fullShare} rcolV m c) := by
  rw [payload_recvCol]; rfl
/-- What the neighbours receive is what this device sends. -/
theorem rrowV_xn (c : Dev nD) : rrowV (F := F) m (xn c) = srowV m c := by unfold rrowV; rw [xn_xn]
theorem rcolV_yn (c : Dev nD) : rcolV (F := F) m (yn c) = scolV m c := by unfold rcolV; rw [yn_yn]

omit [FloatOps F] in
theorem hz2 : (![0, 0] : Fin 2 → Nat) = fun _ => 0 := funext fun a => by fin_cases a <;> rfl

omit [FloatOps F] in
/-- A store through the whole of an edge buffer leaves the stored row. -/
theorem store_sr (f w : VC (F := F)) : (srM : Memref sig .tc .vmem S1x1024 .bf16).view.writes (Elt F) f [⟨rV, w⟩] = w :=
  Memref.write_access_unit_zero_univ (Elt F) cc0_scratch1 (off := ![0, 0]) hz2 inb_S1x1024_S1x1024_0_0 f w
omit [FloatOps F] in
theorem store_sc (f w : VC (F := F)) : (scM : Memref sig .tc .vmem S1x1024 .bf16).view.writes (Elt F) f [⟨rV, w⟩] = w :=
  Memref.write_access_unit_zero_univ (Elt F) cc0_scratch2 (off := ![0, 0]) hz2 inb_S1x1024_S1x1024_0_0 f w

attribute [local sl_rounds] duties_bar duties_sendRow duties_sendCol duties_recvRow duties_recvCol
  amount_bar amount_sendRow amount_sendCol amount_recvRow amount_recvCol
  expect_bar expect_sendRow expect_sendCol expect_recvRow expect_recvCol
  pay_barX_peer pay_barY_peer pay_bar_own pay_sendRow_own pay_sendCol_own pay_recvRow_own pay_recvCol_own rrowV_xn rcolV_yn
  store_sr store_sc landedRow_eq landedCol_eq

omit [FloatOps F] in
/-- A returned unit bound to a continuation is the continuation. -/
theorem ret_bind_unit {E : Type → Type} {β : Type} (k : PUnit → Prog E β) : (Prog.ret PUnit.unit).bind k = k PUnit.unit := rfl

/-! ## The branch conditions, decided over the mesh -/

theorem condX0_iff : ∀ c : Dev nD, Scalar.cmpi .ne (Scalar.extui (Scalar.cmpi .eq (Scalar.remsi (Scalar.divsi (Dev.word c) 2#32) 2#32) 0#32)) 0#32 = 1#1 ↔ isX0 c = true := by decide +kernel
theorem condX1_iff : ∀ c : Dev nD, Scalar.cmpi .ne (Scalar.extui (Scalar.cmpi .eq (Scalar.remsi (Scalar.divsi (Dev.word c) 2#32) 2#32) 1#32)) 0#32 = 1#1 ↔ isX0 c = false := by decide +kernel
theorem condY0_iff : ∀ c : Dev nD, Scalar.cmpi .ne (Scalar.extui (Scalar.cmpi .eq (Scalar.remsi (Scalar.divsi (Dev.word c) 1#32) 2#32) 0#32)) 0#32 = 1#1 ↔ isY0 c = true := by decide +kernel
theorem condY1_iff : ∀ c : Dev nD, Scalar.cmpi .ne (Scalar.extui (Scalar.cmpi .eq (Scalar.remsi (Scalar.divsi (Dev.word c) 1#32) 2#32) 1#32)) 0#32 = 1#1 ↔ isY0 c = false := by decide +kernel

omit [FloatOps F] in
/-- A store through the whole of the result buffer, or of the block's copy, leaves what was stored. -/
theorem store_o (f w : OC (F := F)) : (oM : Memref sig .tc .vmem S1024x1024 .bf16).view.writes (Elt F) f [⟨rAll, w⟩] = w :=
  Memref.write_access_unit_zero_univ (Elt F) cc0_stg1_0 (off := ![0, 0]) hz2 inb_S1024x1024_S1024x1024_0_0 f w
omit [FloatOps F] in
theorem store_lb (f w : OC (F := F)) : (lbM : Memref sig .tc .vmem S1024x1024 .bf16).view.writes (Elt F) f [⟨rAll, w⟩] = w :=
  Memref.write_access_unit_zero_univ (Elt F) cc0_scratch0 (off := ![0, 0]) hz2 inb_S1024x1024_S1024x1024_0_0 f w

omit [FloatOps F] in
theorem sr_set : (srM : Memref sig .tc .vmem S1x1024 .bf16).view.set = Finset.univ := View.set_whole _
omit [FloatOps F] in
theorem sc_set : (scM : Memref sig .tc .vmem S1x1024 .bf16).view.set = Finset.univ := View.set_whole _
omit [FloatOps F] in
theorem rr_set : (rrM : Memref sig .tc .vmem S1x1024 .bf16).view.set = Finset.univ := View.set_whole _
omit [FloatOps F] in
theorem rc_set : (rcM : Memref sig .tc .vmem S1x1024 .bf16).view.set = Finset.univ := View.set_whole _

set_option maxRecDepth 8000 in
set_option maxHeartbeats 4000000 in
/-- One device's body from the state the launch hands it: every cell's invariant, the device's positions, tokens and
    credits, its seven buffers, and what it owes (the two copies, then its two units on the neighbours' barriers). It
    tells both neighbours it has entered, handing each the buffer that neighbour will copy into; stores its inner edge
    row, its inner edge column and the copy of its block; takes its own two units, which hand it the neighbours'
    buffers; copies the edge row and the edge column there; computes the stencil of its block; receives the
    neighbours' row and column; adds an eighth of them on its inner edge row and column and puts the input back on the
    whole array's outermost rows and columns, whichever half of the mesh it is in; takes both copies' sources back and
    closes its four transfer cells. -/
theorem sound_body (K : Dev nD × Fin 5 → ℕ) (c : Dev nD) (W : Waits sig Unit)
    (fo : Buf (Elt F) ((oM : Memref sig .tc .vmem S1024x1024 .bf16).view.loc (c : Thread nD τ)))
    (f0 : Buf (Elt F) ((lbM : Memref sig .tc .vmem S1024x1024 .bf16).view.loc (c : Thread nD τ)))
    (f1 : Buf (Elt F) ((srM : Memref sig .tc .vmem S1x1024 .bf16).view.loc (c : Thread nD τ)))
    (f2 : Buf (Elt F) ((scM : Memref sig .tc .vmem S1x1024 .bf16).view.loc (c : Thread nD τ)))
    (f3 : Buf (Elt F) ((rrM : Memref sig .tc .vmem S1x1024 .bf16).view.loc (c : Thread nD τ)))
    (f4 : Buf (Elt F) ((rcM : Memref sig .tc .vmem S1x1024 .bf16).view.loc (c : Thread nD τ))) :
    iprop(cellInv ER (sched m) (K (c, 0)) (barCell c) ∗ cellInv ER (sched m) (K (c, 1)) (sendRowCell c) ∗ cellInv ER (sched m) (K (c, 2)) (sendColCell c)
        ∗ cellInv ER (sched m) (K (c, 3)) (recvRowCell c) ∗ cellInv ER (sched m) (K (c, 4)) (recvColCell c)
        ∗ cellInv ER (sched m) (K (xn c, 0)) (barCell (xn c)) ∗ cellInv ER (sched m) (K (yn c, 0)) (barCell (yn c))
        ∗ cellInv ER (sched m) (K (xn c, 3)) (recvRowCell (xn c)) ∗ cellInv ER (sched m) (K (yn c, 4)) (recvColCell (yn c))
        ∗ atPos ER (barCell c) 0 ∅ 0 ∗ atPos ER (sendRowCell c) 0 ∅ 0 ∗ atPos ER (sendColCell c) 0 ∅ 0 ∗ atPos ER (recvRowCell c) 0 ∅ 0 ∗ atPos ER (recvColCell c) 0 ∅ 0
        ∗ reached ER (barCell (xn c)) 0 ∗ reached ER (barCell (yn c)) 0 ∗ reached ER (recvRowCell (xn c)) 0 ∗ reached ER (recvColCell (yn c)) 0
        ∗ reached ER (sendRowCell c) 0 ∗ reached ER (sendColCell c) 0 ∗ reached ER (recvRowCell c) 0 ∗ reached ER (recvColCell c) 0
        ∗ dutyTok ER (barCell (xn c)) 0 false ∗ dutyTok ER (barCell (yn c)) 0 true
        ∗ dutyTok ER (recvRowCell (xn c)) 0 false ∗ dutyTok ER (recvColCell (yn c)) 0 false
        ∗ dutyTok ER (sendRowCell c) 0 false ∗ dutyTok ER (sendColCell c) 0 false
        ∗ cred (tallyAt (barCell c) () 2) ∗ cred (tallyAt (recvRowCell c) () N) ∗ cred (tallyAt (recvColCell c) () N) ∗ levAts L lv
        ∗ ((lbM : Memref sig .tc .vmem S1024x1024 .bf16).view.loc (c : Thread nD τ) ↦{fullShare} f0)
        ∗ ((srM : Memref sig .tc .vmem S1x1024 .bf16).view.loc (c : Thread nD τ) ↦[(srM : Memref sig .tc .vmem S1x1024 .bf16).view.set]{fullShare} f1)
        ∗ ((scM : Memref sig .tc .vmem S1x1024 .bf16).view.loc (c : Thread nD τ) ↦[(scM : Memref sig .tc .vmem S1x1024 .bf16).view.set]{fullShare} f2)
        ∗ ((rrM : Memref sig .tc .vmem S1x1024 .bf16).view.loc (c : Thread nD τ) ↦[(rrM : Memref sig .tc .vmem S1x1024 .bf16).view.set]{fullShare} f3)
        ∗ ((rcM : Memref sig .tc .vmem S1x1024 .bf16).view.loc (c : Thread nD τ) ↦[(rcM : Memref sig .tc .vmem S1x1024 .bf16).view.set]{fullShare} f4)
        ∗ ((xM : Memref sig .tc .vmem S1024x1024 .f32).view.loc (c : Thread nD τ) ↦{fullShare} xstg m c)
        ∗ ((oM : Memref sig .tc .vmem S1024x1024 .bf16).view.loc (c : Thread nD τ) ↦{fullShare} fo)
        ∗ owes (c : Thread nD τ) (tallyAt (recvColCell (yn c)) () N + tallyAt (recvRowCell (xn c)) () N + tallyAt (barCell (yn c)) () 1 + tallyAt (barCell (xn c)) () 1) W)
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) cc0_scratch5 cc0_scratch6) (fun _ => bodyPost m c) := by
  iintro ⟨#HIb, #HIsr, #HIsc, #HIrr, #HIrc, #HIbx, #HIby, #HIrrx, #HIrcy, Hab, Hasr, Hasc, Harr, Harc, #Rbx, #Rby, #Rrrx, #Rrcy, #Rsr, #Rsc, #Rrr, #Rrc, Tbx, Tby, Trrx, Trcy, Tsr, Tsc, Hcb, Hcrr, Hcrc, #Hlev, Hs0, Hs1, Hs2, Hs3, Hs4, Hx, Hout, HO⟩
  sl_unfold [cc0_body]
  have hmw : (levAts L lv : sProp 𝕄) ⊢ MayWait (c : Thread nD τ) (.reg barS) () (tallyAt (recvColCell (yn c)) () N + tallyAt (recvRowCell (xn c)) () N) := mayWait_bar c
  set_option sl_exec.maxSteps 26 in sl_exec (disch := simp only [dev3_eq, dev4_eq])
  rw [store_sr, store_sc, store_lb]
  rw [show k0_pay8 c ((xM : Memref sig .tc .vmem S1024x1024 .f32).view.readAt (Elt F) rRowL.toLoadRect (xstg m c))
        ((xM : Memref sig .tc .vmem S1024x1024 .f32).view.readAt (Elt F) rRow0.toLoadRect (xstg m c)) = srowV m c from rfl]
  rw (config := { transparency := .default }) [show k0_pay10 (yBit c) (k0_pay9 ((xM : Memref sig .tc .vmem S1024x1024 .f32).view.readAt (Elt F) rColL.toLoadRect (xstg m c)))
        ((xM : Memref sig .tc .vmem S1024x1024 .f32).view.readAt (Elt F) rCol0.toLoadRect (xstg m c)) = scolV m c from rfl]
  iapply (wp_send_row m K c _ (dev3_eq c) Hab_pay1_v (tallyAt (recvColCell (yn c)) () N) _) $$ [Hs1 Hab_pay1 HO Tsr Trrx]
  · isplitr; · iexact HIsr
    isplitr; · iexact HIrrx
    isplitl [Hs1]; · unfold vPts; iexact Hs1
    isplitl [Hab_pay1]; · unfold vPts; iexact Hab_pay1
    isplitl [HO]; · iexact HO
    isplitl [Tsr]; · iexact Tsr
    isplitr; · iexact Rsr
    isplitl [Trrx]; · iexact Trrx
    iexact Rrrx
  iintro ⟨Hcsr, HO⟩
  iapply (wp_send_col m K c _ (dev4_eq c) Hab_pay3_v 0 _) $$ [Hs2 Hab_pay3 HO Tsc Trcy]
  · isplitr; · iexact HIsc
    isplitr; · iexact HIrcy
    isplitl [Hs2]; · unfold vPts; iexact Hs2
    isplitl [Hab_pay3]; · unfold vPts; iexact Hab_pay3
    isplitl [HO]; · rw [zero_add]; iexact HO
    isplitl [Tsc]; · iexact Tsc
    isplitr; · iexact Rsc
    isplitl [Trcy]; · iexact Trcy
    iexact Rrcy
  iintro ⟨Hcsc, HO⟩
  rw [ret_bind_unit]
  set_option sl_exec.stopBefore "v95" in sl_exec
  rw [store_o]
  sl_exec
  imod (cell_close ER (sched m) (g := sendRowCell c) (Set.mem_univ (K (c, 1))) (fun h => h) (R := 1) (fun r hr => duties_later m (sendRowCell c) r hr)) $$ [Hasr] with Hvsr
  · isplitr; · iexact HIsr
    iexact Hasr
  imod (cell_close ER (sched m) (g := sendColCell c) (Set.mem_univ (K (c, 2))) (fun h => h) (R := 1) (fun r hr => duties_later m (sendColCell c) r hr)) $$ [Hasc] with Hvsc
  · isplitr; · iexact HIsc
    iexact Hasc
  imod (cell_close ER (sched m) (g := recvRowCell c) (Set.mem_univ (K (c, 3))) (fun h => h) (R := 1) (fun r hr => duties_later m (recvRowCell c) r hr)) $$ [Harr] with Hvrr
  · isplitr; · iexact HIrr
    iexact Harr
  imod (cell_close ER (sched m) (g := recvColCell c) (Set.mem_univ (K (c, 4))) (fun h => h) (R := 1) (fun r hr => duties_later m (recvColCell c) r hr)) $$ [Harc] with Hvrc
  · isplitr; · iexact HIrc
    iexact Harc
  sl_step
  unfold bodyPost Φ₁
  rw [sr_set, sc_set, rr_set, rc_set]
  isplitl [Hs0 Hasr_pay1 Hasc_pay1 Harr_pay1 Harc_pay1 Hvsr Hvsc Hvrr Hvrc]
  · isplitl [Hs0 Hasr_pay1 Hasc_pay1 Harr_pay1 Harc_pay1]
    · isplitl [Hs0]; · iexists _; iexact Hs0
      isplitl [Hasr_pay1]; · iexists _; iexact Hasr_pay1
      isplitl [Hasc_pay1]; · iexists _; iexact Hasc_pay1
      isplitl [Harr_pay1]; · iexists _; iexact Harr_pay1
      iexists _; iexact Harc_pay1
    isplitl [Hvsr]; · iexact Hvsr
    isplitl [Hvsc]; · iexact Hvsc
    isplitl [Hvrr]; · iexact Hvrr
    iexact Hvrc
  isplitl [HO]
  · rw [show (dats (F := F) m 0 c).owesAt () t₀.succ
        = iprop(∃ W' : Waits sig Unit, ⌜(↑W' : Set (SemLoc sig × Unit)) ⊆ (dats (F := F) m 0 c).bound () t₀.succ⌝ ∗ owes (c : Thread nD τ) 0 W') from rfl]
    iexists _; isplitr
    swap; · iexact HO
    ipureintro; exact fun _ _ => Or.inl trivial
  isplitl [Hx]
  · iexists _; isplitr; · ipureintro; rfl
    iexact Hx
  iexists _
  isplitr
  swap; · iexact Hout
  ipureintro
  have a0 := condX0_iff c; have a1 := condX1_iff c; have b0 := condY0_iff c; have b1 := condY1_iff c
  rcases Bool.eq_false_or_eq_true (isX0 c) with hX | hX <;> rcases Bool.eq_false_or_eq_true (isY0 c) with hY | hY <;>
    rw [hX] at a0 a1 <;> rw [hY] at b0 b1
  all_goals
    first | (have h95 : sound_body.sl.v95 c = 1#1 := a0.mpr rfl) | (have h95 : ¬ sound_body.sl.v95 c = 1#1 := fun h => nomatch a0.mp h)
    first | (have h98 : sound_body.sl.v98 c = 1#1 := a1.mpr rfl) | (have h98 : ¬ sound_body.sl.v98 c = 1#1 := fun h => nomatch a1.mp h)
    first | (have h101 : sound_body.sl.v101 c = 1#1 := b0.mpr rfl) | (have h101 : ¬ sound_body.sl.v101 c = 1#1 := fun h => nomatch b0.mp h)
    first | (have h104 : sound_body.sl.v104 c = 1#1 := b1.mpr rfl) | (have h104 : ¬ sound_body.sl.v104 c = 1#1 := fun h => nomatch b1.mp h)
    simp only [h95, h98, h101, h104, ↓reduceDIte]
    revert h95 h98 h101 h104
    sl_unfold_run_names
    intro h95 h98 h101 h104
    simp only [h95, h98, h101, h104, ↓reduceDIte, View.readCov, View.writes_cons, View.writes_nil, Memref.view_whole]
    simp only [outAt, o9, o8, o7, o6, o5, o4, o3, o2, o1, lbV, hX, hY, ↓reduceIte, Bool.false_eq_true, Memref.view_whole]

set_option maxRecDepth 4000 in
/-- The library's body obligation on device `c`. -/
theorem body_obligation (c : Dev nD) : BodyObligation (dats (F := F) m 0 c) (defs₀ (F := F)) 𝒱₀ () Set.univ := fun t => by
  rw [fin_N t]
  rw [bigSep_W, bigSep_W]
  simp only [owns_whole_eq]
  show bodyPre' m c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      (Memref.whole cc0_scratch4) (Memref.isWhole_whole _) cc0_scratch5 cc0_scratch6) (fun _ => bodyPost m c)
  unfold bodyPre' Φ₀ start ghost invs
  iintro ⟨⟨⟨⟨%K, ⟨#HIb, #HIsr, #HIsc, #HIrr, #HIrc, #HIbx, #HIby, #HIrrx, #HIrcy⟩, Hab, Hasr, Hasc, Harr, Harc, #Rbx, #Rby, #Rrrx, #Rrcy, #Rsr, #Rsc, #Rrr, #Rrc, Tbx, Tby, Trrx, Trcy, Tsr, Tsc⟩, Hcb, Hcrr, Hcrc, #Hlev⟩, ⟨%f0, Hs0⟩, ⟨%f1, Hs1⟩, ⟨%f2, Hs2⟩, ⟨%f3, Hs3⟩, ⟨%f4, Hs4⟩⟩, ⟨%W, %hW, HO⟩, ⟨%dx, %fx, %hfx, Hx⟩, ⟨%dout, %fo, %hfo, Hout⟩⟩
  have hx : fx = xstg m c := by rw [hfx]; unfold Dat.before; rw [if_pos (fetch_0 t₀)]; rfl
  subst hx
  iapply (sound_body m K c W fo f0 f1 f2 f3 f4)
  isplitr; · iexact HIb
  isplitr; · iexact HIsr
  isplitr; · iexact HIsc
  isplitr; · iexact HIrr
  isplitr; · iexact HIrc
  isplitr; · iexact HIbx
  isplitr; · iexact HIby
  isplitr; · iexact HIrrx
  isplitr; · iexact HIrcy
  isplitl [Hab]; · iexact Hab
  isplitl [Hasr]; · iexact Hasr
  isplitl [Hasc]; · iexact Hasc
  isplitl [Harr]; · iexact Harr
  isplitl [Harc]; · iexact Harc
  isplitr; · iexact Rbx
  isplitr; · iexact Rby
  isplitr; · iexact Rrrx
  isplitr; · iexact Rrcy
  isplitr; · iexact Rsr
  isplitr; · iexact Rsc
  isplitr; · iexact Rrr
  isplitr; · iexact Rrc
  isplitl [Tbx]; · iexact Tbx
  isplitl [Tby]; · iexact Tby
  isplitl [Trrx]; · iexact Trrx
  isplitl [Trcy]; · iexact Trcy
  isplitl [Tsr]; · iexact Tsr
  isplitl [Tsc]; · iexact Tsc
  isplitl [Hcb]; · iexact Hcb
  isplitl [Hcrr]; · iexact Hcrr
  isplitl [Hcrc]; · iexact Hcrc
  isplitr; · iexact Hlev
  isplitl [Hs0]; · iexact Hs0
  isplitl [Hs1]; · rw [sr_set]; iexact Hs1
  isplitl [Hs2]; · rw [sc_set]; iexact Hs2
  isplitl [Hs3]; · rw [rr_set]; iexact Hs3
  isplitl [Hs4]; · rw [rc_set]; iexact Hs4
  isplitl [Hx]; · iexact Hx
  isplitl [Hout]; · iexact Hout
  iexact HO

/-- info: 'Cert.Kernel.Halo.body_obligation' depends on axioms: [propext, Classical.choice, Quot.sound] -/
#guard_msgs in #print axioms body_obligation

end Cert.Kernel.Halo

end
-- ==== Proof.KernelLaunch.lean ====
/-
  The launch: every fair interleaving of the four devices' threads terminates, each device's result array ends at
  `outAt` and its argument array as it was.

  The exchange's ghost state is funded for all twenty cells (five per device) with six duty tokens per device; the
  tokens of a device's barrier and receive cells are dealt to the neighbours that pay them (the vertical neighbour pays
  the barrier's `false` duty and the row receive, the horizontal one the barrier's `true` duty and the column receive;
  both neighbour maps are involutions, so each dealing is a reindexing of the devices), the send tokens stay. What the
  devices owe at launch sums, cell by cell, to the credit each device waits with: two units on its barrier, one edge
  buffer's credit on each receive cell.
-/
import proofs.«900186_g7700000000000187_dist_halo2d_stencil_xy_m1024_n1024_v7x_xy2x2_bf16_1_alg».proof.Defs
import proofs.«900186_g7700000000000187_dist_halo2d_stencil_xy_m1024_n1024_v7x_xy2x2_bf16_1_alg».proof.Proof.Gen.Kernel
import proofs.«900186_g7700000000000187_dist_halo2d_stencil_xy_m1024_n1024_v7x_xy2x2_bf16_1_alg».proof.Proof.Gen.Kernel.Skeleton
import proofs.«900186_g7700000000000187_dist_halo2d_stencil_xy_m1024_n1024_v7x_xy2x2_bf16_1_alg».proof.Proof.Gen.Kernel.Launch
import proofs.«900186_g7700000000000187_dist_halo2d_stencil_xy_m1024_n1024_v7x_xy2x2_bf16_1_alg».proof.Proof.Gen.Kernel.Points
import proofs.«900186_g7700000000000187_dist_halo2d_stencil_xy_m1024_n1024_v7x_xy2x2_bf16_1_alg».proof.Proof.KernelProto
import proofs.«900186_g7700000000000187_dist_halo2d_stencil_xy_m1024_n1024_v7x_xy2x2_bf16_1_alg».proof.Proof.KernelBody
import Idealize.ShloMosaic.Lib.Pipeline.Launch
import Idealize.ShloMosaic.Lib.Pipeline.Kit
import Idealize.ShloMosaic.Lib.Tactic

noncomputable section

namespace Cert.Kernel.Halo

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The cells and the duty tokens, as finite sets -/

theorem ownSemFacts : Pipeline.OwnSemFacts cfg0.spec osem := by decide

theorem share_eq (c : Dev nD) (w : Fin cfg0.W) : (dats (F := F) m 0 c).share w = fullShare := by unfold Dat.share; split <;> rfl

theorem kcell_injective : Function.Injective (kcell : Dev nD × Fin 5 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
def haloCells : Finset (GSem nD τ sig) := Finset.univ.map ⟨kcell, kcell_injective⟩

/-- The six duties minted per device, by cell and duty: its barrier's `false` and `true`, its two send cells' and its
    two receive cells' `false`. -/
abbrev tokKind : Fin 6 → SemLoc sig × Bool := fun
  | 0 => (.reg barS, false) | 1 => (.reg barS, true) | 2 => (.dma sendRowA.sem, false)
  | 3 => (.dma sendColA.sem, false) | 4 => (.dma recvRowA.sem, false) | 5 => (.dma recvColA.sem, false)
theorem tokKind_injective : Function.Injective tokKind := by decide
/-- A device's own cells' duty tokens as minted: (device, which duty), all of round 0. -/
abbrev tokOf (cj : Dev nD × Fin 6) : GSem nD τ sig × ℕ × Bool := (((cj.1 : Thread nD τ), (tokKind cj.2).1), 0, (tokKind cj.2).2)
theorem tokOf_injective : Function.Injective (tokOf : Dev nD × Fin 6 → GSem nD τ sig × ℕ × Bool) := by
  rintro ⟨c, j⟩ ⟨c', j'⟩ h
  have h1 : c = c' := congrArg (fun x : GSem nD τ sig × ℕ × Bool => x.1.1.1) h
  have h2 : tokKind j = tokKind j' :=
    Prod.ext (congrArg (fun x : GSem nD τ sig × ℕ × Bool => x.1.2) h) (congrArg (fun x : GSem nD τ sig × ℕ × Bool => x.2.2) h)
  rw [h1, tokKind_injective h2]
def haloToks : Finset (GSem nD τ sig × ℕ × Bool) := Finset.univ.map ⟨tokOf, tokOf_injective⟩

def u₀ : UU :=
  (initOf (Pipeline.cells cfgs cellOf_inj) (Pipeline.launchToks cfgs cellOf_inj), initOf haloCells haloToks)

/-- The duty tokens of device `c`'s own cells. -/
def toks (c : Dev nD) : sProp 𝕄 :=
  iprop(dutyTok ER (barCell c) 0 false ∗ dutyTok ER (barCell c) 0 true ∗ dutyTok ER (sendRowCell c) 0 false ∗ dutyTok ER (sendColCell c) 0 false
    ∗ dutyTok ER (recvRowCell c) 0 false ∗ dutyTok ER (recvColCell c) 0 false)

/-- What the launch element deals device `c`: its five cells' round states at counter zero, its positions and the
    reached-marks at round 0, its six tokens. -/
def G (c : Dev nD) : sProp 𝕄 :=
  iprop((bigSep Finset.univ fun k : Fin 5 => roundState ER (sched m) (kcell (c, k)) 0)
    ∗ (bigSep Finset.univ fun k : Fin 5 => iprop(atPos ER (kcell (c, k)) 0 ∅ 0 ∗ reached ER (kcell (c, k)) 0)) ∗ toks c)

/-- What the global step makes of it: the ghost state the body starts from, at some names. -/
def G' (c : Dev nD) : sProp 𝕄 := iprop(∃ K, ghost m K c)

omit [FloatOps F] in
theorem bigSep_fin5 (Φ : Fin 5 → sProp 𝕄) : bigSep Finset.univ Φ = iprop(Φ 0 ∗ Φ 1 ∗ Φ 2 ∗ Φ 3 ∗ Φ 4) := bigSep_univ_eq_bigSepL [0, 1, 2, 3, 4] (by decide) (by decide) Φ
omit [FloatOps F] in
theorem bigSep_fin6 (Φ : Fin 6 → sProp 𝕄) : bigSep Finset.univ Φ = iprop(Φ 0 ∗ Φ 1 ∗ Φ 2 ∗ Φ 3 ∗ Φ 4 ∗ Φ 5) := bigSep_univ_eq_bigSepL [0, 1, 2, 3, 4, 5] (by decide) (by decide) Φ

/-- Funding: the exchange's launch element is every device's `G`. -/
theorem fund_halo : BI.own (ER (initOf haloCells haloToks)) ⊢ (|==> bigSep Finset.univ (G m) : sProp 𝕄) := by
  have hX (Φ : GSem nD τ sig → sProp 𝕄) : bigSep haloCells Φ = bigSep Finset.univ fun c : Dev nD => bigSep Finset.univ fun k : Fin 5 => Φ (kcell (c, k)) := by
    unfold haloCells; rw [bigSep_map, bigSep_univ_prod]; rfl
  have hT : bigSep haloToks (fun x => (dutyTok ER x.1 x.2.1 x.2.2 : sProp 𝕄)) = bigSep Finset.univ fun c : Dev nD => toks c := by
    unfold haloToks; rw [bigSep_map, bigSep_univ_prod]
    exact bigSep_congr fun c _ => by unfold toks; rw [bigSep_fin6]; rfl
  iintro HX
  imod (Rounds.fund ER (sched m) haloCells haloToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The global step: every cell's invariant allocated, the tokens dealt to their payers -/

omit [FloatOps F] in
/-- The two send and the two receive semaphores are the kernel's own four; -/
theorem ownSems0_eq (c : Dev nD) : (Pipeline.ownSems0 (Ix := Unit) (Name := ℕ) (U := UU) (Lvl := ℕ) (Val := Elt F) (τ := τ) osem c : sProp 𝕄)
    = iprop(semVal (sendRowCell c) 0 ∗ semVal (sendColCell c) 0 ∗ semVal (recvRowCell c) 0 ∗ semVal (recvColCell c) 0) := by
  rw [Pipeline.ownSems0_eq_of_list c osem [0, 1, 2, 3] (by decide) (by decide)]; rfl
omit [FloatOps F] in
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 5 => semVal (kcell (c, k)) 0 : sProp 𝕄) := by
  rw [ownSems0_eq, unscopedSems0_eq, bigSep_fin5]
  iintro ⟨⟨H1, H2, H3, H4⟩, HB⟩
  isplitl [HB]; · iexact HB
  isplitl [H1]; · iexact H1
  isplitl [H2]; · iexact H2
  isplitl [H3]; · iexact H3
  iexact H4

/-- One device's five counters at zero and its five round states make its five cells' invariants. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 5 => semVal (kcell (c, k)) 0) ∗ bigSep Finset.univ fun k : Fin 5 => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The persistent part, shared by all devices: every cell's invariant at its name, every cell at round 0. -/
def records (K : Dev nD × Fin 5 → ℕ) : sProp 𝕄 :=
  iprop((bigSep Finset.univ fun ck : Dev nD × Fin 5 => cellInv ER (sched m) (K ck) (kcell ck))
    ∗ bigSep Finset.univ fun ck : Dev nD × Fin 5 => reached ER (kcell ck) 0)

instance records_persistent (K : Dev nD × Fin 5 → ℕ) : BI.Persistent (records m K) := by unfold records; infer_instance

theorem inv_at (K : Dev nD × Fin 5 → ℕ) (ck : Dev nD × Fin 5) :
    (bigSep Finset.univ fun ck : Dev nD × Fin 5 => (cellInv ER (sched m) (K ck) (kcell ck) : sProp 𝕄)) ⊢ cellInv ER (sched m) (K ck) (kcell ck) :=
  bigSep_elim (Finset.mem_univ ck)
omit [FloatOps F] in
theorem reached_at (ck : Dev nD × Fin 5) :
    (bigSep Finset.univ fun ck : Dev nD × Fin 5 => (reached ER (kcell ck) 0 : sProp 𝕄)) ⊢ reached ER (kcell ck) 0 :=
  bigSep_elim (Finset.mem_univ ck)

/-- What stays with device `c`: its positions, and the tokens of the duties IT pays. -/
def payToks (c : Dev nD) : sProp 𝕄 :=
  iprop(dutyTok ER (barCell (xn c)) 0 false ∗ dutyTok ER (barCell (yn c)) 0 true ∗ dutyTok ER (recvRowCell (xn c)) 0 false ∗ dutyTok ER (recvColCell (yn c)) 0 false
    ∗ dutyTok ER (sendRowCell c) 0 false ∗ dutyTok ER (sendColCell c) 0 false)
def linear (c : Dev nD) : sProp 𝕄 :=
  iprop((atPos ER (barCell c) 0 ∅ 0 ∗ atPos ER (sendRowCell c) 0 ∅ 0 ∗ atPos ER (sendColCell c) 0 ∅ 0 ∗ atPos ER (recvRowCell c) 0 ∅ 0 ∗ atPos ER (recvColCell c) 0 ∅ 0) ∗ payToks c)

theorem ghost_intro (K : Dev nD × Fin 5 → ℕ) (c : Dev nD) : iprop(records m K ∗ linear c) ⊢ G' m c := by
  unfold records linear payToks G' ghost invs
  iintro ⟨⟨#HI, #HR⟩, ⟨HaB, HaSR, HaSC, HaRR, HaRC⟩, HtBX, HtBY, HtRX, HtCY, HtSR, HtSC⟩
  iexists K
  isplitr
  · isplitr; · iapply (inv_at m K (c, 0)); iexact HI
    isplitr; · iapply (inv_at m K (c, 1)); iexact HI
    isplitr; · iapply (inv_at m K (c, 2)); iexact HI
    isplitr; · iapply (inv_at m K (c, 3)); iexact HI
    isplitr; · iapply (inv_at m K (c, 4)); iexact HI
    isplitr; · iapply (inv_at m K (xn c, 0)); iexact HI
    isplitr; · iapply (inv_at m K (yn c, 0)); iexact HI
    isplitr; · iapply (inv_at m K (xn c, 3)); iexact HI
    iapply (inv_at m K (yn c, 4)); iexact HI
  isplitl [HaB]; · iexact HaB
  isplitl [HaSR]; · iexact HaSR
  isplitl [HaSC]; · iexact HaSC
  isplitl [HaRR]; · iexact HaRR
  isplitl [HaRC]; · iexact HaRC
  isplitr; · iapply (reached_at (F := F) (xn c, 0)); iexact HR
  isplitr; · iapply (reached_at (F := F) (yn c, 0)); iexact HR
  isplitr; · iapply (reached_at (F := F) (xn c, 3)); iexact HR
  isplitr; · iapply (reached_at (F := F) (yn c, 4)); iexact HR
  isplitr; · iapply (reached_at (F := F) (c, 1)); iexact HR
  isplitr; · iapply (reached_at (F := F) (c, 2)); iexact HR
  isplitr; · iapply (reached_at (F := F) (c, 3)); iexact HR
  isplitr; · iapply (reached_at (F := F) (c, 4)); iexact HR
  isplitl [HtBX]; · iexact HtBX
  isplitl [HtBY]; · iexact HtBY
  isplitl [HtRX]; · iexact HtRX
  isplitl [HtCY]; · iexact HtCY
  isplitl [HtSR]; · iexact HtSR
  iexact HtSC

omit [FloatOps F] in
/-- The tokens dealt across the mesh: a barrier's `false` token and the row-receive token go to the vertical neighbour,
    the barrier's `true` token and the column-receive token to the horizontal one; each neighbour map is its own inverse,
    so summed over the devices this is a reindexing. The send tokens stay. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep', bigSep_sep', bigSep_sep', bigSep_sep', bigSep_sep',
    bigSep_univ_equiv xswap (fun c : Dev nD => (dutyTok ER (barCell c) 0 false : sProp 𝕄)),
    bigSep_univ_equiv yswap (fun c : Dev nD => (dutyTok ER (barCell c) 0 true : sProp 𝕄)),
    bigSep_univ_equiv xswap (fun c : Dev nD => (dutyTok ER (recvRowCell c) 0 false : sProp 𝕄)),
    bigSep_univ_equiv yswap (fun c : Dev nD => (dutyTok ER (recvColCell c) 0 false : sProp 𝕄))]
  iintro ⟨H1, H2, H3, H4, H5, H6⟩
  isplitl [H1]; · iexact H1
  isplitl [H2]; · iexact H2
  isplitl [H5]; · iexact H5
  isplitl [H6]; · iexact H6
  isplitl [H3]; · iexact H3
  iexact H4

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 5 => iprop(∃ κ : ℕ, cellInv ER (sched m) κ (kcell ck))),
    bigSep_congr (s := Finset.univ) (fun (c : Dev nD) _ => bigSep_sep' Finset.univ (fun k : Fin 5 => (atPos ER (kcell (c, k)) 0 ∅ 0 : sProp 𝕄)) (fun k => reached ER (kcell (c, k)) 0)),
    bigSep_sep', ← bigSep_univ_prod (fun ck : Dev nD × Fin 5 => (reached ER (kcell ck) 0 : sProp 𝕄))]
  iintro ⟨HI, ⟨Hat, #HR⟩, Htok⟩
  ihave HK := (BI.bigSep_exists_pi Finset.univ (fun (ck : Dev nD × Fin 5) (κ : ℕ) => (cellInv ER (sched m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 5 => (atPos ER (kcell (c, k)) 0 ∅ 0 : sProp 𝕄)) payToks).symm).trans
      (bigSep_mono fun c _ => show _ ⊢ linear c from Entails.of_eq (by unfold linear; rw [bigSep_fin5])))
    isplitl [Hat]; · iexact Hat
    iexact Htk

/-- The global step: own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit

Device `d` owes the column-receive cell of `yn d` and the row-receive cell of `xn d` one edge buffer's credit each, and the
barrier cells of `yn d` and of `xn d` one unit each. Both neighbour maps are involutions, so each of the four dues,
summed over the devices, is one credit token on every device's own cell; the two barrier units make the two the
barrier wait takes. -/

omit [FloatOps F] in
theorem creds (c : Dev nD) :
    (Pipeline.launchCred O₀ c : sProp 𝕄)
      ⊢ iprop(cred (tallyAt (barCell c) () 2) ∗ cred (tallyAt (recvRowCell c) () N) ∗ cred (tallyAt (recvColCell c) () N)) := by
  have hO : (O₀ : Dev nD → CellTallies nD τ sig Unit)
      = fun d => ((tallyAt (recvColCell (yn d)) () N + tallyAt (recvRowCell (xn d)) () N) + tallyAt (barCell (yn d)) () 1) + tallyAt (barCell (xn d)) () 1 := rfl
  rw [hO, Pipeline.launchCred_add, Pipeline.launchCred_add, Pipeline.launchCred_add]
  iintro ⟨⟨⟨HC, HR⟩, HY⟩, HX⟩
  ihave HC' := (Pipeline.launchCred_tallyAt (SemLoc.dma recvColA.sem) yn yn yn_yn yn_yn () N c) $$ HC
  ihave HR' := (Pipeline.launchCred_tallyAt (SemLoc.dma recvRowA.sem) xn xn xn_xn xn_xn () N c) $$ HR
  ihave HY' := (Pipeline.launchCred_tallyAt (SemLoc.reg barS) yn yn yn_yn yn_yn () 1 c) $$ HY
  ihave HX' := (Pipeline.launchCred_tallyAt (SemLoc.reg barS) xn xn xn_xn xn_xn () 1 c) $$ HX
  isplitl [HY' HX']
  · iapply (show iprop(cred (tallyAt (barCell c) () 1) ∗ cred (tallyAt (barCell c) () 1)) ⊢ (cred (tallyAt (barCell c) () 2) : sProp 𝕄) from
      (cred_add _ _).2.trans (Entails.of_eq (congrArg cred (tallyAt_add (barCell c) () 1 1))))
    isplitl [HY'] <;> iassumption
  isplitl [HR']; · iexact HR'
  iexact HC'

/-! ## The theorem's side conditions -/

theorem start_intro (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H2, HR, HC⟩
  imodintro
  unfold start G'
  isplitl
  · isplitl [HG]; · iexact HG
    isplitl [H2]; · iexact H2
    isplitl [HR]; · iexact HR
    isplitl [HC]; · iexact HC
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, H0, H1, H2, H3, H4⟩
  isplitl [Hs]; · iexact Hs
  isplitl [H0]; · iexact H0
  isplitl [H1]; · iexact H1
  isplitl [H2]; · iexact H2
  isplitl [H3]; · iexact H3
  iexact H4

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ c from rfl, scopedRest0_eq, ownSems0_eq]
  unfold Φ₁
  iintro ⟨Hr, Hz⟩
  isplitr; · iempintro
  isplitl [Hz]; · iexact Hz
  iexact Hr

/-- The staging cells are neither receive cell: a wait on one is below everything a device may still owe. -/
theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The arrays at exit -/

/-- The argument array is an input window's: never written back. -/
theorem final_in (c : Dev nD) : (dats (F := F) m 0 c).arrAt (0 : Fin 2) cfg0.N = m ((c : Thread nD τ).loc main_arg0) :=
  (dats (F := F) m 0 c).arrAt_in (0 : Fin 2) rfl _

/-- The result array is written back once, at the one grid point, whole: the block is the array (offsets zero, the
    array's own sizes), so what the write-back leaves is what the body left in the staging buffer. -/
theorem final_out (c : Dev nD) : (dats (F := F) m 0 c).arrAt (1 : Fin 2) cfg0.N = outAt m c := by
  have hz : (fun a => win0_1.index t₀ a * main_v1.ty.shape.size a) = fun _ => 0 := funext fun a => by fin_cases a <;> decide
  have hread (X : main_v1.ty.Contents (Elt F)) : ((cfg0.win (1 : Fin 2)).blk t₀).view.read (Elt F) X = X :=
    Memref.read_access_unit_zero (Elt F) main_v1 hz (fun a => by rw [congrFun hz a]; simp) X
  have h := (dats (F := F) m 0 c).arrAt_succ (1 : Fin 2) t₀
  rw [flush0_1 t₀, if_pos rfl] at h
  calc (dats (F := F) m 0 c).arrAt (1 : Fin 2) cfg0.N
      = ((cfg0.win (1 : Fin 2)).blk t₀).view.write (Elt F) ((dats (F := F) m 0 c).arrAt (1 : Fin 2) t₀) ((dats (F := F) m 0 c).flushed (1 : Fin 2) t₀) Finset.univ := h
    _ = ((cfg0.win (1 : Fin 2)).blk t₀).view.read (Elt F)
          (((cfg0.win (1 : Fin 2)).blk t₀).view.write (Elt F) ((dats (F := F) m 0 c).arrAt (1 : Fin 2) t₀) ((dats (F := F) m 0 c).flushed (1 : Fin 2) t₀) Finset.univ) := (hread _).symm
    _ = (dats (F := F) m 0 c).flushed (1 : Fin 2) t₀ := View.read_write_univ _ _
    _ = outAt m c := rfl

/-! ## The run -/

set_option maxRecDepth 8000 in
/-- At the compiled mesh, from any memory with zero counters: @main terminates on every fair schedule, nothing
    faults, each device's result array ends at `outAt m c` and its argument array unchanged. -/
theorem run_main (ρ : Dev nD → PrngReg) :
    θ_run defs (onTc (τ := τ) (main (F := F))) ⟨m, fun _ => 0, ρ⟩ (fun r => ∀ c : Dev nD,
      r.2.mem ((c.tc : Thread nD τ).loc main_v1) = outAt m c
      ∧ r.2.mem ((c.tc : Thread nD τ).loc main_arg0) = m ((c.tc : Thread nD τ).loc main_arg0)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_halo m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun s h c => ⟨((h c).1 (1 : Fin 2)).trans (final_out m c), ((h c).1 (0 : Fin 2)).trans (final_in m c)⟩)

/-- info: 'Cert.Kernel.Halo.run_main' depends on axioms: [propext, Classical.choice, Quot.sound] -/
#guard_msgs in #print axioms run_main

end Cert.Kernel.Halo

end
-- ==== Proof.KernelIdealProto.lean ====
/-
  The halo exchange of the 2 x 2 mesh, as data: the devices' neighbours, the semaphore cells, what every buffer of a
  device holds at each stage of the body, and (below) the schedule of signals and copies with what each landing
  hands its waiter.

  Device `c` sits at row `c / 2`, column `c % 2` of the mesh. Its vertical neighbour `xn c` holds the other half of
  the rows, its horizontal neighbour `yn c` the other half of the columns; both maps are involutions.
  A device first tells both neighbours (one unit each on their barrier semaphore) that it is inside the kernel, and
  hands them with that unit the buffer they will copy into; having received its own two units it copies its inner
  edge row into the vertical neighbour's row buffer and its inner edge column into the horizontal neighbour's column
  buffer; the stencil of its own block is completed by the row and the column it receives.
-/
import proofs.«900186_g7700000000000187_dist_halo2d_stencil_xy_m1024_n1024_v7x_xy2x2_bf16_1_alg».proof.Defs
import proofs.«900186_g7700000000000187_dist_halo2d_stencil_xy_m1024_n1024_v7x_xy2x2_bf16_1_alg».proof.Proof.Gen.KernelIdeal
import proofs.«900186_g7700000000000187_dist_halo2d_stencil_xy_m1024_n1024_v7x_xy2x2_bf16_1_alg».proof.Proof.Gen.KernelIdeal.Skeleton
import proofs.«900186_g7700000000000187_dist_halo2d_stencil_xy_m1024_n1024_v7x_xy2x2_bf16_1_alg».proof.Proof.Gen.KernelIdeal.Launch
import proofs.«900186_g7700000000000187_dist_halo2d_stencil_xy_m1024_n1024_v7x_xy2x2_bf16_1_alg».proof.Proof.Gen.KernelIdeal.Points
import Idealize.ShloMosaic.Lib.Pipeline.Launch
import Idealize.ShloMosaic.Lib.Pipeline.Kit
import Idealize.ShloMosaic.Lib.Tactic

noncomputable section

namespace Cert.KernelIdeal.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the exchange's own (duties named by `Bool`) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The mesh -/

/-- The vertical neighbour: same column, the other row of the mesh. -/
def xn (c : Dev nD) : Dev nD := ⟨((c.val % 2) + 2) - 2 * (c.val / 2), by have h : c.val < 4 := c.isLt; show _ < 4; omega⟩
/-- The horizontal neighbour: same row, the other column. -/
def yn (c : Dev nD) : Dev nD := ⟨(2 * (c.val / 2) + 1) - (c.val % 2), by have h : c.val < 4 := c.isLt; show _ < 4; omega⟩

theorem xn_xn (c : Dev nD) : xn (xn c) = c := by revert c; decide
theorem yn_yn (c : Dev nD) : yn (yn c) = c := by revert c; decide
theorem xn_ne_yn (c : Dev nD) : xn c ≠ yn c := by revert c; decide
theorem xn_ne (c : Dev nD) : xn c ≠ c := by revert c; decide
theorem yn_ne (c : Dev nD) : yn c ≠ c := by revert c; decide

/-- The device holds the upper half of the rows / the left half of the columns. -/
def isX0 (c : Dev nD) : Bool := decide (c.val / 2 = 0)
def isY0 (c : Dev nD) : Bool := decide (c.val % 2 = 0)

theorem isX0_xn (c : Dev nD) : isX0 (xn c) = !isX0 c := by revert c; decide
theorem isY0_xn (c : Dev nD) : isY0 (xn c) = isY0 c := by revert c; decide
theorem isX0_yn (c : Dev nD) : isX0 (yn c) = isX0 c := by revert c; decide
theorem isY0_yn (c : Dev nD) : isY0 (yn c) = !isY0 c := by revert c; decide

/-- The kernel's device chains: both signals and both copies name the vertical, then the horizontal neighbour. -/
theorem dev1_eq (c : Dev nD) : (⟨k0_dev1 c, k0_dev1_lt c⟩ : Dev nD) = xn c := Fin.ext (k0_dev1_eq c)
theorem dev2_eq (c : Dev nD) : (⟨k0_dev2 c, k0_dev2_lt c⟩ : Dev nD) = yn c := Fin.ext (k0_dev2_eq c)
theorem dev3_eq (c : Dev nD) : (⟨k0_dev3 c, k0_dev3_lt c⟩ : Dev nD) = xn c := Fin.ext (k0_dev3_eq c)
theorem dev4_eq (c : Dev nD) : (⟨k0_dev4 c, k0_dev4_lt c⟩ : Dev nD) = yn c := Fin.ext (k0_dev4_eq c)

def xswap : Dev nD ≃ Dev nD := ⟨xn, xn, xn_xn, xn_xn⟩
def yswap : Dev nD ≃ Dev nD := ⟨yn, yn, yn_yn, yn_yn⟩

/-! ## The memrefs and the cells -/

/-- The input block's staging buffer, the result's, the bf16 copy of the block, the edge row and column to send,
    the row and column received. -/
abbrev xM : Memref sig .tc .vmem S1024x1024 .f32 := Memref.whole cc0_stg0_0
abbrev oM : Memref sig .tc .vmem S1024x1024 .bf16 := Memref.whole cc0_stg1_0
abbrev lbM : Memref sig .tc .vmem S1024x1024 .bf16 := Memref.whole cc0_scratch0
abbrev srM : Memref sig .tc .vmem S1x1024 .bf16 := Memref.whole cc0_scratch1
abbrev scM : Memref sig .tc .vmem S1x1024 .bf16 := Memref.whole cc0_scratch2
abbrev rrM : Memref sig .tc .vmem S1x1024 .bf16 := Memref.whole cc0_scratch3
abbrev rcM : Memref sig .tc .vmem S1x1024 .bf16 := Memref.whole cc0_scratch4

/-- The runtime's barrier semaphore (unscoped); the two send and the two receive DMA semaphores (scoped scratch). -/
abbrev barS : Sem sig := (SemArray.scalar (sig.barrier 0 rfl) : Sems sig S_).sem
abbrev sendRowA : DmaSems sig S_ := (cc0_scratch5.slice (Rect.unit (s := S2) ![0] S1.size inb_S2_S1_0)).squeeze S_ squeezes_S1_S_
abbrev sendColA : DmaSems sig S_ := (cc0_scratch5.slice (Rect.unit (s := S2) ![1] S1.size inb_S2_S1_1)).squeeze S_ squeezes_S1_S_
abbrev recvRowA : DmaSems sig S_ := (cc0_scratch6.slice (Rect.unit (s := S2) ![0] S1.size inb_S2_S1_0)).squeeze S_ squeezes_S1_S_
abbrev recvColA : DmaSems sig S_ := (cc0_scratch6.slice (Rect.unit (s := S2) ![1] S1.size inb_S2_S1_1)).squeeze S_ squeezes_S1_S_

abbrev barCell (c : Dev nD) : GSem nD τ sig := ((c : Thread nD τ), .reg barS)
abbrev sendRowCell (c : Dev nD) : GSem nD τ sig := ((c : Thread nD τ), .dma sendRowA.sem)
abbrev sendColCell (c : Dev nD) : GSem nD τ sig := ((c : Thread nD τ), .dma sendColA.sem)
abbrev recvRowCell (c : Dev nD) : GSem nD τ sig := ((c : Thread nD τ), .dma recvRowA.sem)
abbrev recvColCell (c : Dev nD) : GSem nD τ sig := ((c : Thread nD τ), .dma recvColA.sem)

/-- The kernel's own (scoped) semaphores, as the launch indexes them; -/
abbrev osem : Fin 4 → SemLoc sig := fun | 0 => .dma sendRowA.sem | 1 => .dma sendColA.sem | 2 => .dma recvRowA.sem | 3 => .dma recvColA.sem
/-- all five of the exchange's: barrier, send row, send column, receive row, receive column. -/
abbrev csem : Fin 5 → SemLoc sig := fun | 0 => .reg barS | 1 => .dma sendRowA.sem | 2 => .dma sendColA.sem | 3 => .dma recvRowA.sem | 4 => .dma recvColA.sem
abbrev kcell (ck : Dev nD × Fin 5) : GSem nD τ sig := ((ck.1 : Thread nD τ), csem ck.2)

/-- One edge buffer's DMA credit (row and column buffers have one shape). -/
abbrev N : ℕ := (rrM : Memref sig .tc .vmem S1x1024 .bf16).view.dmaCredit
theorem N_pos : 0 < N := View.dmaCredit_pos _ (by decide)

/-! ## The rectangles the body reads and writes -/

abbrev rRow0 : Rect S1024x1024 := Rect.unit (s := S1024x1024) ![0, 0] S1x1024.size inb_S1024x1024_S1x1024_0_0
abbrev rRowL : Rect S1024x1024 := Rect.unit (s := S1024x1024) ![1023, 0] S1x1024.size inb_S1024x1024_S1x1024_1023_0
abbrev rCol0 : Rect S1024x1024 := Rect.unit (s := S1024x1024) ![0, 0] S1024x1.size inb_S1024x1024_S1024x1_0_0
abbrev rColL : Rect S1024x1024 := Rect.unit (s := S1024x1024) ![0, 1023] S1024x1.size inb_S1024x1024_S1024x1_0_1023
abbrev rAll : Rect S1024x1024 := Rect.unit (s := S1024x1024) ![0, 0] S1024x1024.size inb_S1024x1024_S1024x1024_0_0
abbrev rTop2 : Rect S1024x1024 := Rect.unit (s := S1024x1024) ![0, 0] S2x1024.size inb_S1024x1024_S2x1024_0_0
abbrev rBot2 : Rect S1024x1024 := Rect.unit (s := S1024x1024) ![1022, 0] S2x1024.size inb_S1024x1024_S2x1024_1022_0
abbrev rV : Rect S1x1024 := Rect.unit (s := S1x1024) ![0, 0] S1x1024.size inb_S1x1024_S1x1024_0_0

/-! ## What each buffer holds -/

/-- The contents types. -/
abbrev XC : Type := (cc0_stg0_0 : Ref sig .tc).ty.Contents (Elt F)
abbrev OC : Type := (cc0_stg1_0 : Ref sig .tc).ty.Contents (Elt F)
abbrev VC : Type := (cc0_scratch1 : Ref sig .tc).ty.Contents (Elt F)

/-- Device `c`'s input block, as staged. -/
def xstg (c : Dev nD) : XC (F := F) :=
  (win0_0.blk t0_0).view.read (Elt F) (m ((c : Thread nD τ).loc main_arg0))

/-- Is the device in the left half of the columns, as the kernel computes the bit. -/
def yBit (c : Dev nD) : BitVec 1 := Scalar.cmpi .eq (Scalar.remsi (Scalar.divsi (Dev.word c) 1#32) 2#32) 0#32

/-- The edge row the device sends: its last row if it is in the upper half, else its first (as bf16). -/
def srowV (c : Dev nD) : VC (F := F) :=
  k0_pay8 c ((xM).view.readAt (Elt F) rRowL.toLoadRect (xstg m c)) ((xM).view.readAt (Elt F) rRow0.toLoadRect (xstg m c))
/-- The edge column it sends. -/
def scolV (c : Dev nD) : VC (F := F) :=
  k0_pay10 (yBit c) (k0_pay9 ((xM).view.readAt (Elt F) rColL.toLoadRect (xstg m c))) ((xM).view.readAt (Elt F) rCol0.toLoadRect (xstg m c))
/-- The bf16 copy of its block. -/
def lbV (c : Dev nD) : OC (F := F) := k0_pay11 ((xM).view.readAt (Elt F) rAll.toLoadRect (xstg m c))
/-- What it receives: the vertical neighbour's edge row, the horizontal neighbour's edge column. -/
def rrowV (c : Dev nD) : VC (F := F) := srowV m (xn c)
def rcolV (c : Dev nD) : VC (F := F) := scolV m (yn c)

/-- A load of the result buffer through rectangle `r`, a store into it. -/
abbrev rdO (f : OC (F := F)) (r : Rect S1024x1024) : r.shape.Idx → Elt F .bf16 := (oM).view.readAt (Elt F) r.toLoadRect f
abbrev stO (f : OC (F := F)) (r : Rect S1024x1024) (w : r.shape.Idx → Elt F .bf16) : OC (F := F) :=
  ((oM).access r : View sig .tc _ _ _).write (Elt F) f w Finset.univ
abbrev rdL (f : OC (F := F)) (r : Rect S1024x1024) : r.shape.Idx → Elt F .bf16 := (lbM).view.readAt (Elt F) r.toLoadRect f

/-! ## The result buffer, store by store

`o1` is the stencil of the device's own block (neighbours outside the block read as zero); `o2`/`o3` add an eighth of
the received row on the inner edge row (last row for the upper half, first for the lower), `o4`/`o5` an eighth of the
received column on the inner edge column; `o6`..`o9` put the input back on the whole array's outermost rows and
columns. A row is written through the two packed rows that hold it, the other row of the pair kept. -/

/-- The received row and column, as the body loads them. -/
abbrev rrLd (c : Dev nD) : rV.shape.Idx → Elt F .bf16 := (rrM).view.readAt (Elt F) rV.toLoadRect (rrowV m c)
abbrev rcLd (c : Dev nD) : rV.shape.Idx → Elt F .bf16 := (rcM).view.readAt (Elt F) rV.toLoadRect (rcolV m c)

def o1 (c : Dev nD) : OC (F := F) :=
  k0_pay12 ((lbM).view.readAt (Elt F) rAll.toLoadRect (lbV m c)) (Scalar.ofBits .bf16 0x0000#16)
def o2 (c : Dev nD) : OC (F := F) :=
  if isX0 c then stO (o1 m c) rBot2 (updateSlice (rdO (o1 m c) rBot2) (k0_pay13 (rdO (o1 m c) rRowL) (rrLd m c)) ![1, 0] slices_S2x1024_S1x1024_1_0)
  else o1 m c
def o3 (c : Dev nD) : OC (F := F) :=
  if isX0 c then o2 m c
  else stO (o2 m c) rTop2 (updateSlice (rdO (o2 m c) rTop2) (k0_pay1 (rdO (o2 m c) rRow0) (rrLd m c)) ![0, 0] slices_S2x1024_S1x1024_0_0)
def o4 (c : Dev nD) : OC (F := F) :=
  if isY0 c then stO (o3 m c) rColL (k0_pay2 (rdO (o3 m c) rColL) (rcLd m c)) else o3 m c
def o5 (c : Dev nD) : OC (F := F) :=
  if isY0 c then o4 m c else stO (o4 m c) rCol0 (k0_pay3 (rdO (o4 m c) rCol0) (rcLd m c))
def o6 (c : Dev nD) : OC (F := F) :=
  if isX0 c then stO (o5 m c) rTop2 (updateSlice (rdO (o5 m c) rTop2) (k0_pay4 (rdL (lbV m c) rRow0)) ![0, 0] slices_S2x1024_S1x1024_0_0)
  else o5 m c
def o7 (c : Dev nD) : OC (F := F) :=
  if isX0 c then o6 m c
  else stO (o6 m c) rBot2 (updateSlice (rdO (o6 m c) rBot2) (k0_pay5 (rdL (lbV m c) rRowL)) ![1, 0] slices_S2x1024_S1x1024_1_0)
def o8 (c : Dev nD) : OC (F := F) :=
  if isY0 c then stO (o7 m c) rCol0 (k0_pay6 (rdL (lbV m c) rCol0)) else o7 m c
def o9 (c : Dev nD) : OC (F := F) :=
  if isY0 c then o8 m c else stO (o8 m c) rColL (k0_pay7 (rdL (lbV m c) rColL))

/-- The kernel's result on device `c`. -/
def outAt (c : Dev nD) : OC (F := F) := o9 m c

/-! ## Points-to assertions -/

/-- A buffer held whole through a memref's view, at contents `f`. -/
def vPts {s : Shape} {e : EltTy} (M : Memref sig .tc .vmem s e) (c : Dev nD) (f : Buf (Elt F) (M.view.loc (c : Thread nD τ))) : sProp 𝕄 :=
  M.view.loc (c : Thread nD τ) ↦[M.view.set]{fullShare} f

omit [FloatOps F] in
instance vPts_storable {s : Shape} {e : EltTy} (M : Memref sig .tc .vmem s e) (c : Dev nD) (f) :
    BI.Storable (upEmb : UEmb _ 𝕄) (vPts (F := F) M c f) := by unfold vPts; infer_instance

omit [FloatOps F] in
/-- A landing writes the whole destination with the whole source: the destination then holds the source's contents. -/
theorem landedRow_eq (c : Dev nD) (fd : Buf (Elt F) ((rrM : Memref sig .tc .vmem S1x1024 .bf16).view.loc (c : Thread nD τ))) (fs : VC (F := F)) :
    (rrM : Memref sig .tc .vmem S1x1024 .bf16).view.write (Elt F) fd ((srM : Memref sig .tc .vmem S1x1024 .bf16).view.read (Elt F) fs) Finset.univ = fs := by
  show (View.whole cc0_scratch3).write (Elt F) fd ((View.whole cc0_scratch1).read (Elt F) fs) Finset.univ = fs
  rw [View.read_whole]
  exact View.write_whole_univ _ _ _
omit [FloatOps F] in
theorem landedCol_eq (c : Dev nD) (fd : Buf (Elt F) ((rcM : Memref sig .tc .vmem S1x1024 .bf16).view.loc (c : Thread nD τ))) (fs : VC (F := F)) :
    (rcM : Memref sig .tc .vmem S1x1024 .bf16).view.write (Elt F) fd ((scM : Memref sig .tc .vmem S1x1024 .bf16).view.read (Elt F) fs) Finset.univ = fs := by
  show (View.whole cc0_scratch4).write (Elt F) fd ((View.whole cc0_scratch2).read (Elt F) fs) Finset.univ = fs
  rw [View.read_whole]
  exact View.write_whole_univ _ _ _

/-! ## The schedule -/

/-- What the vertical neighbour's unit on `c`'s barrier hands `c`: that neighbour's row buffer, and that it is at round 0
    of its row-receive cell (what the copy into it needs); the horizontal neighbour's likewise for the column. -/
def barPayX (c : Dev nD) : sProp 𝕄 := iprop((∃ f, vPts rrM (xn c) f) ∗ reached ER (recvRowCell (xn c)) 0)
def barPayY (c : Dev nD) : sProp 𝕄 := iprop((∃ f, vPts rcM (yn c) f) ∗ reached ER (recvColCell (yn c)) 0)
def recvRowPay (c : Dev nD) : sProp 𝕄 := vPts rrM c (rrowV m c)
def recvColPay (c : Dev nD) : sProp 𝕄 := vPts rcM c (rcolV m c)
def sendRowPay (c : Dev nD) : sProp 𝕄 := vPts srM c (srowV m c)
def sendColPay (c : Dev nD) : sProp 𝕄 := vPts scM c (scolV m c)

abbrev IsBar (g : GSem nD τ sig) : Prop := g.1.2 = .tc ∧ g.2 = .reg barS
abbrev IsXfer (g : GSem nD τ sig) : Prop :=
  g.1.2 = .tc ∧ (g.2 = .dma sendRowA.sem ∨ g.2 = .dma sendColA.sem ∨ g.2 = .dma recvRowA.sem ∨ g.2 = .dma recvColA.sem)

/-- One round, round 0: a barrier cell has the duties `false` (from the vertical neighbour) and `true` (from the horizontal
    one) of one unit each; each send or receive cell the duty `false` of one edge buffer's credit. -/
def sched : Rounds.Schedule (GSem nD τ sig) Bool 𝕄 where
  duties g r := if r = 0 ∧ IsBar g then Finset.univ else if r = 0 ∧ IsXfer g then {false} else ∅
  unitless _ := False
  amount g _ _ := if g.2 = .reg barS then 1 else N
  payload g _ d :=
    if g.2 = .reg barS then (if d then barPayY g.1.1 else barPayX g.1.1)
    else if g.2 = .dma recvRowA.sem then recvRowPay m g.1.1
    else if g.2 = .dma recvColA.sem then recvColPay m g.1.1
    else if g.2 = .dma sendRowA.sem then sendRowPay m g.1.1
    else if g.2 = .dma sendColA.sem then sendColPay m g.1.1
    else iprop(emp)
  amount_pos g _ _ _ := by
    by_cases h : g.2 = .reg barS
    · rw [if_pos h]; exact Nat.one_pos
    · rw [if_neg h]; exact N_pos

instance sched_payload_storable (g : GSem nD τ sig) (r : ℕ) (d : Bool) :
    BI.Storable (upEmb : UEmb _ 𝕄) ((sched (F := F) m).payload g r d) := by
  show BI.Storable upEmb (if g.2 = .reg barS then (if d then barPayY g.1.1 else barPayX g.1.1)
    else if g.2 = .dma recvRowA.sem then recvRowPay m g.1.1
    else if g.2 = .dma recvColA.sem then recvColPay m g.1.1
    else if g.2 = .dma sendRowA.sem then sendRowPay m g.1.1
    else if g.2 = .dma sendColA.sem then sendColPay m g.1.1
    else iprop(emp))
  unfold barPayX barPayY recvRowPay recvColPay sendRowPay sendColPay
  (repeat' split) <;> infer_instance

section Sched
variable (c : Dev nD)

theorem sr_ne_bar : (SemLoc.dma sendRowA.sem : SemLoc sig) ≠ .reg barS := fun h => by cases h
theorem sc_ne_bar : (SemLoc.dma sendColA.sem : SemLoc sig) ≠ .reg barS := fun h => by cases h
theorem rr_ne_bar : (SemLoc.dma recvRowA.sem : SemLoc sig) ≠ .reg barS := fun h => by cases h
theorem rc_ne_bar : (SemLoc.dma recvColA.sem : SemLoc sig) ≠ .reg barS := fun h => by cases h
theorem rc_ne_rr : (SemLoc.dma recvColA.sem : SemLoc sig) ≠ .dma recvRowA.sem := by decide
theorem sr_ne_rr : (SemLoc.dma sendRowA.sem : SemLoc sig) ≠ .dma recvRowA.sem := by decide
theorem sr_ne_rc : (SemLoc.dma sendRowA.sem : SemLoc sig) ≠ .dma recvColA.sem := by decide
theorem sc_ne_rr : (SemLoc.dma sendColA.sem : SemLoc sig) ≠ .dma recvRowA.sem := by decide
theorem sc_ne_rc : (SemLoc.dma sendColA.sem : SemLoc sig) ≠ .dma recvColA.sem := by decide
theorem sc_ne_sr : (SemLoc.dma sendColA.sem : SemLoc sig) ≠ .dma sendRowA.sem := by decide

theorem duties_bar : (sched (F := F) m).duties (barCell c) 0 = Finset.univ := by dsimp only [sched]; exact if_pos ⟨rfl, rfl, rfl⟩
theorem duties_sendRow : (sched (F := F) m).duties (sendRowCell c) 0 = {false} := by
  dsimp only [sched]; rw [if_neg (fun h => sr_ne_bar h.2.2)]; exact if_pos ⟨rfl, rfl, .inl rfl⟩
theorem duties_sendCol : (sched (F := F) m).duties (sendColCell c) 0 = {false} := by
  dsimp only [sched]; rw [if_neg (fun h => sc_ne_bar h.2.2)]; exact if_pos ⟨rfl, rfl, .inr (.inl rfl)⟩
theorem duties_recvRow : (sched (F := F) m).duties (recvRowCell c) 0 = {false} := by
  dsimp only [sched]; rw [if_neg (fun h => rr_ne_bar h.2.2)]; exact if_pos ⟨rfl, rfl, .inr (.inr (.inl rfl))⟩
theorem duties_recvCol : (sched (F := F) m).duties (recvColCell c) 0 = {false} := by
  dsimp only [sched]; rw [if_neg (fun h => rc_ne_bar h.2.2)]; exact if_pos ⟨rfl, rfl, .inr (.inr (.inr rfl))⟩
theorem duties_later (g : GSem nD τ sig) : ∀ r, 1 ≤ r → (sched (F := F) m).duties g r = ∅ :=
  fun r hr => by dsimp only [sched]; rw [if_neg fun h => by omega, if_neg fun h => by omega]

theorem amount_bar (d : Bool) : (sched (F := F) m).amount (barCell c) 0 d = 1 := by dsimp only [sched]; exact if_pos rfl
theorem amount_sendRow (d : Bool) : (sched (F := F) m).amount (sendRowCell c) 0 d = N := by dsimp only [sched]; exact if_neg sr_ne_bar
theorem amount_sendCol (d : Bool) : (sched (F := F) m).amount (sendColCell c) 0 d = N := by dsimp only [sched]; exact if_neg sc_ne_bar
theorem amount_recvRow (d : Bool) : (sched (F := F) m).amount (recvRowCell c) 0 d = N := by dsimp only [sched]; exact if_neg rr_ne_bar
theorem amount_recvCol (d : Bool) : (sched (F := F) m).amount (recvColCell c) 0 d = N := by dsimp only [sched]; exact if_neg rc_ne_bar

theorem expect_bar : (sched (F := F) m).expect (barCell c) 0 = 2 := by
  unfold Schedule.expect Schedule.amountOf
  rw [duties_bar, Finset.sum_congr rfl fun d _ => amount_bar m c d, Finset.sum_const, Finset.card_univ, Fintype.card_bool, smul_eq_mul]
theorem expect_sendRow : (sched (F := F) m).expect (sendRowCell c) 0 = N := by
  unfold Schedule.expect Schedule.amountOf; rw [duties_sendRow, Finset.sum_singleton, amount_sendRow]
theorem expect_sendCol : (sched (F := F) m).expect (sendColCell c) 0 = N := by
  unfold Schedule.expect Schedule.amountOf; rw [duties_sendCol, Finset.sum_singleton, amount_sendCol]
theorem expect_recvRow : (sched (F := F) m).expect (recvRowCell c) 0 = N := by
  unfold Schedule.expect Schedule.amountOf; rw [duties_recvRow, Finset.sum_singleton, amount_recvRow]
theorem expect_recvCol : (sched (F := F) m).expect (recvColCell c) 0 = N := by
  unfold Schedule.expect Schedule.amountOf; rw [duties_recvCol, Finset.sum_singleton, amount_recvCol]

theorem payload_bar_false : (sched (F := F) m).payload (barCell c) 0 false = barPayX c := by
  dsimp only [sched]; rw [if_pos rfl]; exact if_neg Bool.false_ne_true
theorem payload_bar_true : (sched (F := F) m).payload (barCell c) 0 true = barPayY c := by dsimp only [sched]; rw [if_pos rfl, if_pos rfl]
theorem payload_recvRow (d : Bool) : (sched (F := F) m).payload (recvRowCell c) 0 d = recvRowPay m c := by
  dsimp only [sched]; rw [if_neg rr_ne_bar, if_pos rfl]
theorem payload_recvCol (d : Bool) : (sched (F := F) m).payload (recvColCell c) 0 d = recvColPay m c := by
  dsimp only [sched]; rw [if_neg rc_ne_bar, if_neg rc_ne_rr, if_pos rfl]
theorem payload_sendRow (d : Bool) : (sched (F := F) m).payload (sendRowCell c) 0 d = sendRowPay m c := by
  dsimp only [sched]; rw [if_neg sr_ne_bar, if_neg sr_ne_rr, if_neg sr_ne_rc, if_pos rfl]
theorem payload_sendCol (d : Bool) : (sched (F := F) m).payload (sendColCell c) 0 d = sendColPay m c := by
  dsimp only [sched]; rw [if_neg sc_ne_bar, if_neg sc_ne_rr, if_neg sc_ne_rc, if_neg sc_ne_sr, if_pos rfl]

/-- The rest of the barrier cell's round, no duty taken: both neighbours' payloads. -/
theorem rest_bar : bigSep ((sched (F := F) m).duties (barCell c) 0 \ ∅) (fun d => (sched (F := F) m).payload (barCell c) 0 d) = iprop(barPayX c ∗ barPayY c) := by
  rw [Finset.sdiff_empty, duties_bar, bigSep_univ_eq_bigSepL [false, true] (by decide) (by decide), bigSepL_cons_cons, bigSepL_singleton,
    payload_bar_false, payload_bar_true]
  rfl
theorem rest_sendRow : bigSep ((sched (F := F) m).duties (sendRowCell c) 0 \ ∅) (fun d => (sched (F := F) m).payload (sendRowCell c) 0 d) = sendRowPay m c := by
  rw [Finset.sdiff_empty, duties_sendRow, bigSep_singleton, payload_sendRow]
theorem rest_sendCol : bigSep ((sched (F := F) m).duties (sendColCell c) 0 \ ∅) (fun d => (sched (F := F) m).payload (sendColCell c) 0 d) = sendColPay m c := by
  rw [Finset.sdiff_empty, duties_sendCol, bigSep_singleton, payload_sendCol]
theorem rest_recvRow : bigSep ((sched (F := F) m).duties (recvRowCell c) 0 \ ∅) (fun d => (sched (F := F) m).payload (recvRowCell c) 0 d) = recvRowPay m c := by
  rw [Finset.sdiff_empty, duties_recvRow, bigSep_singleton, payload_recvRow]
theorem rest_recvCol : bigSep ((sched (F := F) m).duties (recvColCell c) 0 \ ∅) (fun d => (sched (F := F) m).payload (recvColCell c) 0 d) = recvColPay m c := by
  rw [Finset.sdiff_empty, duties_recvCol, bigSep_singleton, payload_recvCol]

end Sched

/-! ## What each device owes at launch; the levels

Summed so that each step of the body peels the last summand: first the unit for the vertical neighbour's barrier,
then the unit for the horizontal neighbour's, then the row copy's credit, then the column copy's. -/

def O₂ (c : Dev nD) : CellTallies nD τ sig Unit := tallyAt (recvColCell (yn c)) () N + tallyAt (recvRowCell (xn c)) () N
def O₁ (c : Dev nD) : CellTallies nD τ sig Unit := O₂ c + tallyAt (barCell (yn c)) () 1
def O₀ (c : Dev nD) : CellTallies nD τ sig Unit := O₁ c + tallyAt (barCell (xn c)) () 1

def L (g : GSem nD τ sig) : Finset Unit := if g.1.2 = .tc then {()} else ∅
/-- Barrier cells at 1, receive cells at 2, everything else (staging, send) at 0: a device waits on its barrier while it
    still owes the two copies, so the receive cells lie above the barrier cells. -/
def lv (g : GSem nD τ sig) (_ : Unit) : ℕ :=
  if g.2 = .reg barS then 1 else if g.2 = .dma recvRowA.sem ∨ g.2 = .dma recvColA.sem then 2 else 0

theorem L_of_ne (g : GSem nD τ sig) (h : g.1.2 ≠ .tc) : L g = ∅ := if_neg h
theorem L_tc (c : Dev nD) (sm : SemLoc sig) : L ((c : Thread nD τ), sm) = {()} := if_pos rfl

theorem O₂_pos {c : Dev nD} {g : GSem nD τ sig} {u : Unit} (h : 0 < O₂ c g u) :
    g = recvColCell (yn c) ∨ g = recvRowCell (xn c) := by
  unfold O₂ at h
  rw [Pi.add_apply, Finsupp.add_apply, tallyAt_apply, tallyAt_apply] at h
  by_contra hn
  rw [not_or] at hn
  rw [if_neg (fun h' => hn.1 h'.1), if_neg (fun h' => hn.2 h'.1)] at h
  exact Nat.lt_irrefl 0 h

theorem O₀_pos {c : Dev nD} {g : GSem nD τ sig} {u : Unit} (h : 0 < O₀ c g u) :
    g = recvColCell (yn c) ∨ g = recvRowCell (xn c) ∨ g = barCell (yn c) ∨ g = barCell (xn c) := by
  unfold O₀ O₁ O₂ at h
  rw [Pi.add_apply, Finsupp.add_apply, Pi.add_apply, Finsupp.add_apply, Pi.add_apply, Finsupp.add_apply,
    tallyAt_apply, tallyAt_apply, tallyAt_apply, tallyAt_apply] at h
  by_contra hn
  rw [not_or, not_or, not_or] at hn
  rw [if_neg (fun h' => hn.1 h'.1), if_neg (fun h' => hn.2.1 h'.1), if_neg (fun h' => hn.2.2.1 h'.1), if_neg (fun h' => hn.2.2.2 h'.1)] at h
  exact Nat.lt_irrefl 0 h

omit [FloatOps F] in
/-- A wait on a staging or send cell is below everything a device may still owe. -/
theorem mayWait_stage (c : Dev nD) (q : DmaSem sig) (hq : ¬ ((SemLoc.dma q : SemLoc sig) = .dma recvRowA.sem ∨ (SemLoc.dma q : SemLoc sig) = .dma recvColA.sem))
    (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl | rfl | rfl <;> exact Finset.mem_singleton_self _)
      (fun p hp => by rw [Finset.mem_singleton.mp hp]; dsimp only [lv]; rw [if_neg (fun h => by cases h), if_neg hq])
      (fun g u hg => by
        rcases O₀_pos hg with rfl | rfl | rfl | rfl
        · dsimp only [lv]; rw [if_neg rc_ne_bar, if_pos (.inr rfl)]; decide
        · dsimp only [lv]; rw [if_neg rr_ne_bar, if_pos (.inl rfl)]; decide
        · dsimp only [lv]; rw [if_pos rfl]; decide
        · dsimp only [lv]; rw [if_pos rfl]; decide)
  · rw [MayWait_zero]; iintro -; iempintro

omit [FloatOps F] in
/-- At its barrier wait a device owes the two copies only: receive cells, above its barrier cell. -/
theorem mayWait_bar (c : Dev nD) :
    (levAts L lv : sProp 𝕄) ⊢ MayWait (c : Thread nD τ) (.reg barS) () (O₂ c) :=
  MayOwe.of_cut (L := L) (lev := lv) 1 (fun p hp => by rw [Finset.mem_singleton.mp hp, L_tc]; exact Finset.mem_singleton_self _)
    (fun g u hg => by rcases O₂_pos hg with rfl | rfl <;> exact Finset.mem_singleton_self _)
    (fun p hp => by rw [Finset.mem_singleton.mp hp]; dsimp only [lv]; rw [if_pos rfl])
    (fun g u hg => by
      rcases O₂_pos hg with rfl | rfl
      · dsimp only [lv]; rw [if_neg rc_ne_bar, if_pos (.inr rfl)]; decide
      · dsimp only [lv]; rw [if_neg rr_ne_bar, if_pos (.inl rfl)]; decide)

/-! ## The ghost state a device starts from, and the pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The cells' invariants device `c`'s body opens, under the names `K` the launch allocated them at: its own five, both
    neighbours' barrier cells (its signals), the vertical neighbour's row-receive cell and the horizontal neighbour's
    column-receive cell (its copies). -/
def invs (K : Dev nD × Fin 5 → ℕ) (c : Dev nD) : sProp 𝕄 :=
  iprop(cellInv ER (sched m) (K (c, 0)) (barCell c) ∗ cellInv ER (sched m) (K (c, 1)) (sendRowCell c) ∗ cellInv ER (sched m) (K (c, 2)) (sendColCell c)
    ∗ cellInv ER (sched m) (K (c, 3)) (recvRowCell c) ∗ cellInv ER (sched m) (K (c, 4)) (recvColCell c)
    ∗ cellInv ER (sched m) (K (xn c, 0)) (barCell (xn c)) ∗ cellInv ER (sched m) (K (yn c, 0)) (barCell (yn c))
    ∗ cellInv ER (sched m) (K (xn c, 3)) (recvRowCell (xn c)) ∗ cellInv ER (sched m) (K (yn c, 4)) (recvColCell (yn c)))

instance invs_persistent (K : Dev nD × Fin 5 → ℕ) (c : Dev nD) : BI.Persistent (invs m K c) := by unfold invs; infer_instance

/-- The exchange's ghost state device `c` starts from: the invariants; its positions at round 0 of its five cells; the
    reached-marks of the cells it pays and of its own four transfer cells; the six duty tokens it pays with. -/
def ghost (K : Dev nD × Fin 5 → ℕ) (c : Dev nD) : sProp 𝕄 :=
  iprop(invs m K c
    ∗ atPos ER (barCell c) 0 ∅ 0 ∗ atPos ER (sendRowCell c) 0 ∅ 0 ∗ atPos ER (sendColCell c) 0 ∅ 0 ∗ atPos ER (recvRowCell c) 0 ∅ 0 ∗ atPos ER (recvColCell c) 0 ∅ 0
    ∗ reached ER (barCell (xn c)) 0 ∗ reached ER (barCell (yn c)) 0 ∗ reached ER (recvRowCell (xn c)) 0 ∗ reached ER (recvColCell (yn c)) 0
    ∗ reached ER (sendRowCell c) 0 ∗ reached ER (sendColCell c) 0 ∗ reached ER (recvRowCell c) 0 ∗ reached ER (recvColCell c) 0
    ∗ dutyTok ER (barCell (xn c)) 0 false ∗ dutyTok ER (barCell (yn c)) 0 true
    ∗ dutyTok ER (recvRowCell (xn c)) 0 false ∗ dutyTok ER (recvColCell (yn c)) 0 false
    ∗ dutyTok ER (sendRowCell c) 0 false ∗ dutyTok ER (sendColCell c) 0 false)

/-- What device `c`'s body starts from: that at some names, its credit tokens (its barrier's two units, its two receive
    cells' credits) and the level facts. -/
def start (c : Dev nD) : sProp 𝕄 :=
  iprop((∃ K, ghost m K c) ∗ cred (tallyAt (barCell c) () 2) ∗ cred (tallyAt (recvRowCell c) () N) ∗ cred (tallyAt (recvColCell c) () N) ∗ levAts L lv)

/-- A scratch buffer held whole at some contents. -/
abbrev scr (c : Dev nD) (b : Ref sig .tc) : sProp 𝕄 :=
  iprop(∃ f : Buf (Elt F) ((c : Thread nD τ).loc b), ((c : Thread nD τ).loc b) ↦{fullShare} f)

def Φ₀ (c : Dev nD) : sProp 𝕄 :=
  iprop(start m c ∗ scr c cc0_scratch0 ∗ scr c cc0_scratch1 ∗ scr c cc0_scratch2 ∗ scr c cc0_scratch3 ∗ scr c cc0_scratch4)
/-- After the point: the scratch buffers back, the four own cells at zero, closed. -/
def Φ₁ (c : Dev nD) : sProp 𝕄 :=
  iprop((scr c cc0_scratch0 ∗ scr c cc0_scratch1 ∗ scr c cc0_scratch2 ∗ scr c cc0_scratch3 ∗ scr c cc0_scratch4)
    ∗ semVal (sendRowCell c) 0 ∗ semVal (sendColCell c) 0 ∗ semVal (recvRowCell c) 0 ∗ semVal (recvColCell c) 0)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

omit [FloatOps F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer held whole at exactly the contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body is entered with at the one grid point, and what it leaves. -/
def bodyPre' (c : Dev nD) : sProp 𝕄 :=
  iprop(Φ₀ m c ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

def bodyPost (c : Dev nD) : sProp 𝕄 :=
  iprop(Φ₁ c ∗ (dats m 0 c).owesAt () t₀.succ ∗ stg c cc0_stg0_0 (xstg m c) ∗ stg c cc0_stg1_0 (outAt m c))

end Cert.KernelIdeal.Halo

end
-- ==== Proof.KernelIdealSend.lean ====
/-
  The two remote copies of the halo exchange, as instances of the library's rule for an addressed copy whose
  destination the issuer holds: the edge row goes to the vertical neighbour's row buffer, the edge column to the
  horizontal neighbour's column buffer. What lands is the whole source written over the whole destination, so the
  destination then holds the source's contents: the payload of the neighbour's receive cell.
-/
import proofs.«900186_g7700000000000187_dist_halo2d_stencil_xy_m1024_n1024_v7x_xy2x2_bf16_1_alg».proof.Defs
import proofs.«900186_g7700000000000187_dist_halo2d_stencil_xy_m1024_n1024_v7x_xy2x2_bf16_1_alg».proof.Proof.Gen.KernelIdeal
import proofs.«900186_g7700000000000187_dist_halo2d_stencil_xy_m1024_n1024_v7x_xy2x2_bf16_1_alg».proof.Proof.Gen.KernelIdeal.Skeleton
import proofs.«900186_g7700000000000187_dist_halo2d_stencil_xy_m1024_n1024_v7x_xy2x2_bf16_1_alg».proof.Proof.Gen.KernelIdeal.Launch
import proofs.«900186_g7700000000000187_dist_halo2d_stencil_xy_m1024_n1024_v7x_xy2x2_bf16_1_alg».proof.Proof.Gen.KernelIdeal.Points
import proofs.«900186_g7700000000000187_dist_halo2d_stencil_xy_m1024_n1024_v7x_xy2x2_bf16_1_alg».proof.Proof.KernelIdealProto
import Idealize.ShloMosaic.Lib.Pipeline.Launch
import Idealize.ShloMosaic.Lib.Pipeline.Kit
import Idealize.ShloMosaic.Lib.Tactic

noncomputable section

namespace Cert.KernelIdeal.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The row copy: the device's edge row into its vertical neighbour's receive buffer. Holding both cells' invariants, the source
    at its contents, the neighbour's buffer at any contents, the two duty tokens and reached-marks, and owing the
    neighbour's receive cell the buffer's credit last: the copy is fired, the send cell's credit is gained and that debt
    is paid; the neighbour's cell will hand its owner the buffer holding exactly the source's contents. -/
theorem wp_send_row (K : Dev nD × Fin 5 → ℕ) (c n : Dev nD) (hn : n = xn c)
    {hsc : (rrM : Memref sig (Dev.tc n : Thread nD τ).2.kind .vmem S1x1024 .bf16).view.ref.isScScratch = false}
    {hsrc : (srM : Memref sig .tc .vmem S1x1024 .bf16).view.WordExact} {hdst : (rrM : Memref sig .tc .vmem S1x1024 .bf16).view.WordExact}
    {hsem : DmaTarget.Typed .vmem (.dma recvRowA.sem) (.remote (Dev.tc n : Thread nD τ) (rrM : Memref sig .tc .vmem S1x1024 .bf16) (.dma sendRowA.sem) hsc)}
    {α : Type} {Q : α → sProp 𝕄} {k : PUnit → Prog (TpuEff nD τ sig (Elt F) Λ₀ .tc) α}
    (fn : Buf (Elt F) ((rrM : Memref sig .tc .vmem S1x1024 .bf16).view.loc (xn c : Thread nD τ)))
    (O : CellTallies nD τ sig Unit) (W : Waits sig Unit) :
    iprop(cellInv ER (sched m) (K (c, 1)) (sendRowCell c) ∗ cellInv ER (sched m) (K (xn c, 3)) (recvRowCell (xn c))
        ∗ vPts srM c (srowV m c) ∗ vPts rrM (xn c) fn
        ∗ owes (c : Thread nD τ) (O + tallyAt (recvRowCell (xn c)) () N) W
        ∗ dutyTok ER (sendRowCell c) 0 false ∗ reached ER (sendRowCell c) 0
        ∗ dutyTok ER (recvRowCell (xn c)) 0 false ∗ reached ER (recvRowCell (xn c)) 0)
      ⊢ iprop(((cred (tallyAt (sendRowCell c) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma srM (.remote (Dev.tc n : Thread nD τ) rrM (.dma sendRowA.sem) hsc) (.dma recvRowA.sem) hsrc hdst hsem) k) Q) := by
  subst hn
  unfold vPts
  exact Rounds.wp_send_pointsTo 𝒱₀ ER (sched m) (c : Thread nD τ) none (κ₁ := K (c, 1)) (κ₂ := K (xn c, 3))
    (r₁ := 0) (r₂ := 0) (d₁ := false) (d₂ := false) (fd := fn)
    (by rw [duties_sendRow]; exact Finset.mem_singleton_self _) (by rw [duties_recvRow]; exact Finset.mem_singleton_self _)
    () () N rfl (amount_sendRow m c false) (amount_recvRow m (xn c) false) O rfl (W := W)
    (by rw [payload_sendRow]; exact BI.Entails.refl _)
    (by rw [payload_recvRow]; unfold recvRowPay vPts; rw [landedRow_eq, rrowV, xn_xn])

/-- The col copy: the device's edge col into its horizontal neighbour's receive buffer. Holding both cells' invariants, the source
    at its contents, the neighbour's buffer at any contents, the two duty tokens and reached-marks, and owing the
    neighbour's receive cell the buffer's credit last: the copy is fired, the send cell's credit is gained and that debt
    is paid; the neighbour's cell will hand its owner the buffer holding exactly the source's contents. -/
theorem wp_send_col (K : Dev nD × Fin 5 → ℕ) (c n : Dev nD) (hn : n = yn c)
    {hsc : (rcM : Memref sig (Dev.tc n : Thread nD τ).2.kind .vmem S1x1024 .bf16).view.ref.isScScratch = false}
    {hsrc : (scM : Memref sig .tc .vmem S1x1024 .bf16).view.WordExact} {hdst : (rcM : Memref sig .tc .vmem S1x1024 .bf16).view.WordExact}
    {hsem : DmaTarget.Typed .vmem (.dma recvColA.sem) (.remote (Dev.tc n : Thread nD τ) (rcM : Memref sig .tc .vmem S1x1024 .bf16) (.dma sendColA.sem) hsc)}
    {α : Type} {Q : α → sProp 𝕄} {k : PUnit → Prog (TpuEff nD τ sig (Elt F) Λ₀ .tc) α}
    (fn : Buf (Elt F) ((rcM : Memref sig .tc .vmem S1x1024 .bf16).view.loc (yn c : Thread nD τ)))
    (O : CellTallies nD τ sig Unit) (W : Waits sig Unit) :
    iprop(cellInv ER (sched m) (K (c, 2)) (sendColCell c) ∗ cellInv ER (sched m) (K (yn c, 4)) (recvColCell (yn c))
        ∗ vPts scM c (scolV m c) ∗ vPts rcM (yn c) fn
        ∗ owes (c : Thread nD τ) (O + tallyAt (recvColCell (yn c)) () N) W
        ∗ dutyTok ER (sendColCell c) 0 false ∗ reached ER (sendColCell c) 0
        ∗ dutyTok ER (recvColCell (yn c)) 0 false ∗ reached ER (recvColCell (yn c)) 0)
      ⊢ iprop(((cred (tallyAt (sendColCell c) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma scM (.remote (Dev.tc n : Thread nD τ) rcM (.dma sendColA.sem) hsc) (.dma recvColA.sem) hsrc hdst hsem) k) Q) := by
  subst hn
  unfold vPts
  exact Rounds.wp_send_pointsTo 𝒱₀ ER (sched m) (c : Thread nD τ) none (κ₁ := K (c, 2)) (κ₂ := K (yn c, 4))
    (r₁ := 0) (r₂ := 0) (d₁ := false) (d₂ := false) (fd := fn)
    (by rw [duties_sendCol]; exact Finset.mem_singleton_self _) (by rw [duties_recvCol]; exact Finset.mem_singleton_self _)
    () () N rfl (amount_sendCol m c false) (amount_recvCol m (yn c) false) O rfl (W := W)
    (by rw [payload_sendCol]; exact BI.Entails.refl _)
    (by rw [payload_recvCol]; unfold recvColPay vPts; rw [landedCol_eq, rcolV, yn_yn])

end Cert.KernelIdeal.Halo

end
-- ==== Proof.KernelIdealBody.lean ====
/-
  One device's body, stepped once at a symbolic device: from the state the launch hands it to the state it leaves,
  the result buffer at `outAt`.

  The schedule's tables are restated at the cells a device pays and waits on, each payload as the buffer it hands
  over; the eight branches on the device's half of the mesh are taken both ways and joined, and which way each goes
  is decided, over the four devices, only where the joined result is compared with `outAt`.
-/
import proofs.«900186_g7700000000000187_dist_halo2d_stencil_xy_m1024_n1024_v7x_xy2x2_bf16_1_alg».proof.Defs
import proofs.«900186_g7700000000000187_dist_halo2d_stencil_xy_m1024_n1024_v7x_xy2x2_bf16_1_alg».proof.Proof.Gen.KernelIdeal
import proofs.«900186_g7700000000000187_dist_halo2d_stencil_xy_m1024_n1024_v7x_xy2x2_bf16_1_alg».proof.Proof.Gen.KernelIdeal.Skeleton
import proofs.«900186_g7700000000000187_dist_halo2d_stencil_xy_m1024_n1024_v7x_xy2x2_bf16_1_alg».proof.Proof.Gen.KernelIdeal.Launch
import proofs.«900186_g7700000000000187_dist_halo2d_stencil_xy_m1024_n1024_v7x_xy2x2_bf16_1_alg».proof.Proof.Gen.KernelIdeal.Points
import proofs.«900186_g7700000000000187_dist_halo2d_stencil_xy_m1024_n1024_v7x_xy2x2_bf16_1_alg».proof.Proof.KernelIdealProto
import proofs.«900186_g7700000000000187_dist_halo2d_stencil_xy_m1024_n1024_v7x_xy2x2_bf16_1_alg».proof.Proof.KernelIdealSend
import Idealize.ShloMosaic.Lib.Pipeline.Launch
import Idealize.ShloMosaic.Lib.Pipeline.Kit
import Idealize.ShloMosaic.Lib.Tactic

noncomputable section

namespace Cert.KernelIdeal.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

attribute [local sl_canon] dev1_eq dev2_eq dev3_eq dev4_eq

/-! ## The schedule's tables at the cells a device pays and waits on, each payload spelt as the buffer it hands over -/

theorem pay_barX_peer (c : Dev nD) : (sched (F := F) m).payload (barCell (xn c)) 0 false
    = iprop((∃ f, (rrM : Memref sig .tc .vmem S1x1024 .bf16).view.loc (c : Thread nD τ) ↦[(rrM : Memref sig .tc .vmem S1x1024 .bf16).view.set]{fullShare} f) ∗ reached ER (recvRowCell c) 0) := by
  rw [payload_bar_false]; unfold barPayX vPts; rw [xn_xn]
theorem pay_barY_peer (c : Dev nD) : (sched (F := F) m).payload (barCell (yn c)) 0 true
    = iprop((∃ f, (rcM : Memref sig .tc .vmem S1x1024 .bf16).view.loc (c : Thread nD τ) ↦[(rcM : Memref sig .tc .vmem S1x1024 .bf16).view.set]{fullShare} f) ∗ reached ER (recvColCell c) 0) := by
  rw [payload_bar_true]; unfold barPayY vPts; rw [yn_yn]

/-- What a device's own barrier round hands it: both neighbours' receive buffers, each with its cell's round reached. -/
theorem pay_bar_own (c : Dev nD) : bigSep (Finset.univ : Finset Bool) (fun d => (sched (F := F) m).payload (barCell c) 0 d)
    = iprop((∃ f, (rrM : Memref sig .tc .vmem S1x1024 .bf16).view.loc (xn c : Thread nD τ) ↦[(rrM : Memref sig .tc .vmem S1x1024 .bf16).view.set]{fullShare} f) ∗ reached ER (recvRowCell (xn c)) 0
        ∗ (∃ f, (rcM : Memref sig .tc .vmem S1x1024 .bf16).view.loc (yn c : Thread nD τ) ↦[(rcM : Memref sig .tc .vmem S1x1024 .bf16).view.set]{fullShare} f) ∗ reached ER (recvColCell (yn c)) 0) := by
  have h := rest_bar (F := F) m c
  rw [Finset.sdiff_empty, duties_bar] at h
  rw [h]; unfold barPayX barPayY vPts
  exact equiv_iff.mp ⟨Idealize.SL.BI.sep_assoc, Idealize.SL.BI.sep_assoc'⟩

theorem pay_sendRow_own (c : Dev nD) (d : Bool) : (sched (F := F) m).payload (sendRowCell c) 0 d
    = ((srM : Memref sig .tc .vmem S1x1024 .bf16).view.loc (c : Thread nD τ) ↦[(srM : Memref sig .tc .vmem S1x1024 .bf16).view.set]{fullShare} srowV m c) := by
  rw [payload_sendRow]; rfl
theorem pay_sendCol_own (c : Dev nD) (d : Bool) : (sched (F := F) m).payload (sendColCell c) 0 d
    = ((scM : Memref sig .tc .vmem S1x1024 .bf16).view.loc (c : Thread nD τ) ↦[(scM : Memref sig .tc .vmem S1x1024 .bf16).view.set]{fullShare} scolV m c) := by
  rw [payload_sendCol]; rfl
theorem pay_recvRow_own (c : Dev nD) (d : Bool) : (sched (F := F) m).payload (recvRowCell c) 0 d
    = ((rrM : Memref sig .tc .vmem S1x1024 .bf16).view.loc (c : Thread nD τ) ↦[(rrM : Memref sig .tc .vmem S1x1024 .bf16).view.set]{fullShare} rrowV m c) := by
  rw [payload_recvRow]; rfl
theorem pay_recvCol_own (c : Dev nD) (d : Bool) : (sched (F := F) m).payload (recvColCell c) 0 d
    = ((rcM : Memref sig .tc .vmem S1x1024 .bf16).view.loc (c : Thread nD τ) ↦[(rcM : Memref sig .tc .vmem S1x1024 .bf16).view.set]{fullShare} rcolV m c) := by
  rw [payload_recvCol]; rfl
/-- What the neighbours receive is what this device sends. -/
theorem rrowV_xn (c : Dev nD) : rrowV (F := F) m (xn c) = srowV m c := by unfold rrowV; rw [xn_xn]
theorem rcolV_yn (c : Dev nD) : rcolV (F := F) m (yn c) = scolV m c := by unfold rcolV; rw [yn_yn]

omit [FloatOps F] in
theorem hz2 : (![0, 0] : Fin 2 → Nat) = fun _ => 0 := funext fun a => by fin_cases a <;> rfl

omit [FloatOps F] in
/-- A store through the whole of an edge buffer leaves the stored row. -/
theorem store_sr (f w : VC (F := F)) : (srM : Memref sig .tc .vmem S1x1024 .bf16).view.writes (Elt F) f [⟨rV, w⟩] = w :=
  Memref.write_access_unit_zero_univ (Elt F) cc0_scratch1 (off := ![0, 0]) hz2 inb_S1x1024_S1x1024_0_0 f w
omit [FloatOps F] in
theorem store_sc (f w : VC (F := F)) : (scM : Memref sig .tc .vmem S1x1024 .bf16).view.writes (Elt F) f [⟨rV, w⟩] = w :=
  Memref.write_access_unit_zero_univ (Elt F) cc0_scratch2 (off := ![0, 0]) hz2 inb_S1x1024_S1x1024_0_0 f w

attribute [local sl_rounds] duties_bar duties_sendRow duties_sendCol duties_recvRow duties_recvCol
  amount_bar amount_sendRow amount_sendCol amount_recvRow amount_recvCol
  expect_bar expect_sendRow expect_sendCol expect_recvRow expect_recvCol
  pay_barX_peer pay_barY_peer pay_bar_own pay_sendRow_own pay_sendCol_own pay_recvRow_own pay_recvCol_own rrowV_xn rcolV_yn
  store_sr store_sc landedRow_eq landedCol_eq

omit [FloatOps F] in
/-- A returned unit bound to a continuation is the continuation. -/
theorem ret_bind_unit {E : Type → Type} {β : Type} (k : PUnit → Prog E β) : (Prog.ret PUnit.unit).bind k = k PUnit.unit := rfl

/-! ## The branch conditions, decided over the mesh -/

theorem condX0_iff : ∀ c : Dev nD, Scalar.cmpi .ne (Scalar.extui (Scalar.cmpi .eq (Scalar.remsi (Scalar.divsi (Dev.word c) 2#32) 2#32) 0#32)) 0#32 = 1#1 ↔ isX0 c = true := by decide +kernel
theorem condX1_iff : ∀ c : Dev nD, Scalar.cmpi .ne (Scalar.extui (Scalar.cmpi .eq (Scalar.remsi (Scalar.divsi (Dev.word c) 2#32) 2#32) 1#32)) 0#32 = 1#1 ↔ isX0 c = false := by decide +kernel
theorem condY0_iff : ∀ c : Dev nD, Scalar.cmpi .ne (Scalar.extui (Scalar.cmpi .eq (Scalar.remsi (Scalar.divsi (Dev.word c) 1#32) 2#32) 0#32)) 0#32 = 1#1 ↔ isY0 c = true := by decide +kernel
theorem condY1_iff : ∀ c : Dev nD, Scalar.cmpi .ne (Scalar.extui (Scalar.cmpi .eq (Scalar.remsi (Scalar.divsi (Dev.word c) 1#32) 2#32) 1#32)) 0#32 = 1#1 ↔ isY0 c = false := by decide +kernel

omit [FloatOps F] in
/-- A store through the whole of the result buffer, or of the block's copy, leaves what was stored. -/
theorem store_o (f w : OC (F := F)) : (oM : Memref sig .tc .vmem S1024x1024 .bf16).view.writes (Elt F) f [⟨rAll, w⟩] = w :=
  Memref.write_access_unit_zero_univ (Elt F) cc0_stg1_0 (off := ![0, 0]) hz2 inb_S1024x1024_S1024x1024_0_0 f w
omit [FloatOps F] in
theorem store_lb (f w : OC (F := F)) : (lbM : Memref sig .tc .vmem S1024x1024 .bf16).view.writes (Elt F) f [⟨rAll, w⟩] = w :=
  Memref.write_access_unit_zero_univ (Elt F) cc0_scratch0 (off := ![0, 0]) hz2 inb_S1024x1024_S1024x1024_0_0 f w

omit [FloatOps F] in
theorem sr_set : (srM : Memref sig .tc .vmem S1x1024 .bf16).view.set = Finset.univ := View.set_whole _
omit [FloatOps F] in
theorem sc_set : (scM : Memref sig .tc .vmem S1x1024 .bf16).view.set = Finset.univ := View.set_whole _
omit [FloatOps F] in
theorem rr_set : (rrM : Memref sig .tc .vmem S1x1024 .bf16).view.set = Finset.univ := View.set_whole _
omit [FloatOps F] in
theorem rc_set : (rcM : Memref sig .tc .vmem S1x1024 .bf16).view.set = Finset.univ := View.set_whole _

set_option maxRecDepth 8000 in
set_option maxHeartbeats 4000000 in
/-- One device's body from the state the launch hands it: every cell's invariant, the device's positions, tokens and
    credits, its seven buffers, and what it owes (the two copies, then its two units on the neighbours' barriers). It
    tells both neighbours it has entered, handing each the buffer that neighbour will copy into; stores its inner edge
    row, its inner edge column and the copy of its block; takes its own two units, which hand it the neighbours'
    buffers; copies the edge row and the edge column there; computes the stencil of its block; receives the
    neighbours' row and column; adds an eighth of them on its inner edge row and column and puts the input back on the
    whole array's outermost rows and columns, whichever half of the mesh it is in; takes both copies' sources back and
    closes its four transfer cells. -/
theorem sound_body (K : Dev nD × Fin 5 → ℕ) (c : Dev nD) (W : Waits sig Unit)
    (fo : Buf (Elt F) ((oM : Memref sig .tc .vmem S1024x1024 .bf16).view.loc (c : Thread nD τ)))
    (f0 : Buf (Elt F) ((lbM : Memref sig .tc .vmem S1024x1024 .bf16).view.loc (c : Thread nD τ)))
    (f1 : Buf (Elt F) ((srM : Memref sig .tc .vmem S1x1024 .bf16).view.loc (c : Thread nD τ)))
    (f2 : Buf (Elt F) ((scM : Memref sig .tc .vmem S1x1024 .bf16).view.loc (c : Thread nD τ)))
    (f3 : Buf (Elt F) ((rrM : Memref sig .tc .vmem S1x1024 .bf16).view.loc (c : Thread nD τ)))
    (f4 : Buf (Elt F) ((rcM : Memref sig .tc .vmem S1x1024 .bf16).view.loc (c : Thread nD τ))) :
    iprop(cellInv ER (sched m) (K (c, 0)) (barCell c) ∗ cellInv ER (sched m) (K (c, 1)) (sendRowCell c) ∗ cellInv ER (sched m) (K (c, 2)) (sendColCell c)
        ∗ cellInv ER (sched m) (K (c, 3)) (recvRowCell c) ∗ cellInv ER (sched m) (K (c, 4)) (recvColCell c)
        ∗ cellInv ER (sched m) (K (xn c, 0)) (barCell (xn c)) ∗ cellInv ER (sched m) (K (yn c, 0)) (barCell (yn c))
        ∗ cellInv ER (sched m) (K (xn c, 3)) (recvRowCell (xn c)) ∗ cellInv ER (sched m) (K (yn c, 4)) (recvColCell (yn c))
        ∗ atPos ER (barCell c) 0 ∅ 0 ∗ atPos ER (sendRowCell c) 0 ∅ 0 ∗ atPos ER (sendColCell c) 0 ∅ 0 ∗ atPos ER (recvRowCell c) 0 ∅ 0 ∗ atPos ER (recvColCell c) 0 ∅ 0
        ∗ reached ER (barCell (xn c)) 0 ∗ reached ER (barCell (yn c)) 0 ∗ reached ER (recvRowCell (xn c)) 0 ∗ reached ER (recvColCell (yn c)) 0
        ∗ reached ER (sendRowCell c) 0 ∗ reached ER (sendColCell c) 0 ∗ reached ER (recvRowCell c) 0 ∗ reached ER (recvColCell c) 0
        ∗ dutyTok ER (barCell (xn c)) 0 false ∗ dutyTok ER (barCell (yn c)) 0 true
        ∗ dutyTok ER (recvRowCell (xn c)) 0 false ∗ dutyTok ER (recvColCell (yn c)) 0 false
        ∗ dutyTok ER (sendRowCell c) 0 false ∗ dutyTok ER (sendColCell c) 0 false
        ∗ cred (tallyAt (barCell c) () 2) ∗ cred (tallyAt (recvRowCell c) () N) ∗ cred (tallyAt (recvColCell c) () N) ∗ levAts L lv
        ∗ ((lbM : Memref sig .tc .vmem S1024x1024 .bf16).view.loc (c : Thread nD τ) ↦{fullShare} f0)
        ∗ ((srM : Memref sig .tc .vmem S1x1024 .bf16).view.loc (c : Thread nD τ) ↦[(srM : Memref sig .tc .vmem S1x1024 .bf16).view.set]{fullShare} f1)
        ∗ ((scM : Memref sig .tc .vmem S1x1024 .bf16).view.loc (c : Thread nD τ) ↦[(scM : Memref sig .tc .vmem S1x1024 .bf16).view.set]{fullShare} f2)
        ∗ ((rrM : Memref sig .tc .vmem S1x1024 .bf16).view.loc (c : Thread nD τ) ↦[(rrM : Memref sig .tc .vmem S1x1024 .bf16).view.set]{fullShare} f3)
        ∗ ((rcM : Memref sig .tc .vmem S1x1024 .bf16).view.loc (c : Thread nD τ) ↦[(rcM : Memref sig .tc .vmem S1x1024 .bf16).view.set]{fullShare} f4)
        ∗ ((xM : Memref sig .tc .vmem S1024x1024 .f32).view.loc (c : Thread nD τ) ↦{fullShare} xstg m c)
        ∗ ((oM : Memref sig .tc .vmem S1024x1024 .bf16).view.loc (c : Thread nD τ) ↦{fullShare} fo)
        ∗ owes (c : Thread nD τ) (tallyAt (recvColCell (yn c)) () N + tallyAt (recvRowCell (xn c)) () N + tallyAt (barCell (yn c)) () 1 + tallyAt (barCell (xn c)) () 1) W)
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) cc0_scratch5 cc0_scratch6) (fun _ => bodyPost m c) := by
  iintro ⟨#HIb, #HIsr, #HIsc, #HIrr, #HIrc, #HIbx, #HIby, #HIrrx, #HIrcy, Hab, Hasr, Hasc, Harr, Harc, #Rbx, #Rby, #Rrrx, #Rrcy, #Rsr, #Rsc, #Rrr, #Rrc, Tbx, Tby, Trrx, Trcy, Tsr, Tsc, Hcb, Hcrr, Hcrc, #Hlev, Hs0, Hs1, Hs2, Hs3, Hs4, Hx, Hout, HO⟩
  sl_unfold [cc0_body]
  have hmw : (levAts L lv : sProp 𝕄) ⊢ MayWait (c : Thread nD τ) (.reg barS) () (tallyAt (recvColCell (yn c)) () N + tallyAt (recvRowCell (xn c)) () N) := mayWait_bar c
  set_option sl_exec.maxSteps 26 in sl_exec (disch := simp only [dev3_eq, dev4_eq])
  rw [store_sr, store_sc, store_lb]
  rw [show k0_pay8 c ((xM : Memref sig .tc .vmem S1024x1024 .f32).view.readAt (Elt F) rRowL.toLoadRect (xstg m c))
        ((xM : Memref sig .tc .vmem S1024x1024 .f32).view.readAt (Elt F) rRow0.toLoadRect (xstg m c)) = srowV m c from rfl]
  rw (config := { transparency := .default }) [show k0_pay10 (yBit c) (k0_pay9 ((xM : Memref sig .tc .vmem S1024x1024 .f32).view.readAt (Elt F) rColL.toLoadRect (xstg m c)))
        ((xM : Memref sig .tc .vmem S1024x1024 .f32).view.readAt (Elt F) rCol0.toLoadRect (xstg m c)) = scolV m c from rfl]
  iapply (wp_send_row m K c _ (dev3_eq c) Hab_pay1_v (tallyAt (recvColCell (yn c)) () N) _) $$ [Hs1 Hab_pay1 HO Tsr Trrx]
  · isplitr; · iexact HIsr
    isplitr; · iexact HIrrx
    isplitl [Hs1]; · unfold vPts; iexact Hs1
    isplitl [Hab_pay1]; · unfold vPts; iexact Hab_pay1
    isplitl [HO]; · iexact HO
    isplitl [Tsr]; · iexact Tsr
    isplitr; · iexact Rsr
    isplitl [Trrx]; · iexact Trrx
    iexact Rrrx
  iintro ⟨Hcsr, HO⟩
  iapply (wp_send_col m K c _ (dev4_eq c) Hab_pay3_v 0 _) $$ [Hs2 Hab_pay3 HO Tsc Trcy]
  · isplitr; · iexact HIsc
    isplitr; · iexact HIrcy
    isplitl [Hs2]; · unfold vPts; iexact Hs2
    isplitl [Hab_pay3]; · unfold vPts; iexact Hab_pay3
    isplitl [HO]; · rw [zero_add]; iexact HO
    isplitl [Tsc]; · iexact Tsc
    isplitr; · iexact Rsc
    isplitl [Trcy]; · iexact Trcy
    iexact Rrcy
  iintro ⟨Hcsc, HO⟩
  rw [ret_bind_unit]
  set_option sl_exec.stopBefore "v95" in sl_exec
  rw [store_o]
  sl_exec
  imod (cell_close ER (sched m) (g := sendRowCell c) (Set.mem_univ (K (c, 1))) (fun h => h) (R := 1) (fun r hr => duties_later m (sendRowCell c) r hr)) $$ [Hasr] with Hvsr
  · isplitr; · iexact HIsr
    iexact Hasr
  imod (cell_close ER (sched m) (g := sendColCell c) (Set.mem_univ (K (c, 2))) (fun h => h) (R := 1) (fun r hr => duties_later m (sendColCell c) r hr)) $$ [Hasc] with Hvsc
  · isplitr; · iexact HIsc
    iexact Hasc
  imod (cell_close ER (sched m) (g := recvRowCell c) (Set.mem_univ (K (c, 3))) (fun h => h) (R := 1) (fun r hr => duties_later m (recvRowCell c) r hr)) $$ [Harr] with Hvrr
  · isplitr; · iexact HIrr
    iexact Harr
  imod (cell_close ER (sched m) (g := recvColCell c) (Set.mem_univ (K (c, 4))) (fun h => h) (R := 1) (fun r hr => duties_later m (recvColCell c) r hr)) $$ [Harc] with Hvrc
  · isplitr; · iexact HIrc
    iexact Harc
  sl_step
  unfold bodyPost Φ₁
  rw [sr_set, sc_set, rr_set, rc_set]
  isplitl [Hs0 Hasr_pay1 Hasc_pay1 Harr_pay1 Harc_pay1 Hvsr Hvsc Hvrr Hvrc]
  · isplitl [Hs0 Hasr_pay1 Hasc_pay1 Harr_pay1 Harc_pay1]
    · isplitl [Hs0]; · iexists _; iexact Hs0
      isplitl [Hasr_pay1]; · iexists _; iexact Hasr_pay1
      isplitl [Hasc_pay1]; · iexists _; iexact Hasc_pay1
      isplitl [Harr_pay1]; · iexists _; iexact Harr_pay1
      iexists _; iexact Harc_pay1
    isplitl [Hvsr]; · iexact Hvsr
    isplitl [Hvsc]; · iexact Hvsc
    isplitl [Hvrr]; · iexact Hvrr
    iexact Hvrc
  isplitl [HO]
  · rw [show (dats (F := F) m 0 c).owesAt () t₀.succ
        = iprop(∃ W' : Waits sig Unit, ⌜(↑W' : Set (SemLoc sig × Unit)) ⊆ (dats (F := F) m 0 c).bound () t₀.succ⌝ ∗ owes (c : Thread nD τ) 0 W') from rfl]
    iexists _; isplitr
    swap; · iexact HO
    ipureintro; exact fun _ _ => Or.inl trivial
  isplitl [Hx]
  · iexists _; isplitr; · ipureintro; rfl
    iexact Hx
  iexists _
  isplitr
  swap; · iexact Hout
  ipureintro
  have a0 := condX0_iff c; have a1 := condX1_iff c; have b0 := condY0_iff c; have b1 := condY1_iff c
  rcases Bool.eq_false_or_eq_true (isX0 c) with hX | hX <;> rcases Bool.eq_false_or_eq_true (isY0 c) with hY | hY <;>
    rw [hX] at a0 a1 <;> rw [hY] at b0 b1
  all_goals
    first | (have h95 : sound_body.sl.v95 c = 1#1 := a0.mpr rfl) | (have h95 : ¬ sound_body.sl.v95 c = 1#1 := fun h => nomatch a0.mp h)
    first | (have h98 : sound_body.sl.v98 c = 1#1 := a1.mpr rfl) | (have h98 : ¬ sound_body.sl.v98 c = 1#1 := fun h => nomatch a1.mp h)
    first | (have h101 : sound_body.sl.v101 c = 1#1 := b0.mpr rfl) | (have h101 : ¬ sound_body.sl.v101 c = 1#1 := fun h => nomatch b0.mp h)
    first | (have h104 : sound_body.sl.v104 c = 1#1 := b1.mpr rfl) | (have h104 : ¬ sound_body.sl.v104 c = 1#1 := fun h => nomatch b1.mp h)
    simp only [h95, h98, h101, h104, ↓reduceDIte]
    revert h95 h98 h101 h104
    sl_unfold_run_names
    intro h95 h98 h101 h104
    simp only [h95, h98, h101, h104, ↓reduceDIte, View.readCov, View.writes_cons, View.writes_nil, Memref.view_whole]
    simp only [outAt, o9, o8, o7, o6, o5, o4, o3, o2, o1, lbV, hX, hY, ↓reduceIte, Bool.false_eq_true, Memref.view_whole]

set_option maxRecDepth 4000 in
/-- The library's body obligation on device `c`. -/
theorem body_obligation (c : Dev nD) : BodyObligation (dats (F := F) m 0 c) (defs₀ (F := F)) 𝒱₀ () Set.univ := fun t => by
  rw [fin_N t]
  rw [bigSep_W, bigSep_W]
  simp only [owns_whole_eq]
  show bodyPre' m c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      (Memref.whole cc0_scratch4) (Memref.isWhole_whole _) cc0_scratch5 cc0_scratch6) (fun _ => bodyPost m c)
  unfold bodyPre' Φ₀ start ghost invs
  iintro ⟨⟨⟨⟨%K, ⟨#HIb, #HIsr, #HIsc, #HIrr, #HIrc, #HIbx, #HIby, #HIrrx, #HIrcy⟩, Hab, Hasr, Hasc, Harr, Harc, #Rbx, #Rby, #Rrrx, #Rrcy, #Rsr, #Rsc, #Rrr, #Rrc, Tbx, Tby, Trrx, Trcy, Tsr, Tsc⟩, Hcb, Hcrr, Hcrc, #Hlev⟩, ⟨%f0, Hs0⟩, ⟨%f1, Hs1⟩, ⟨%f2, Hs2⟩, ⟨%f3, Hs3⟩, ⟨%f4, Hs4⟩⟩, ⟨%W, %hW, HO⟩, ⟨%dx, %fx, %hfx, Hx⟩, ⟨%dout, %fo, %hfo, Hout⟩⟩
  have hx : fx = xstg m c := by rw [hfx]; unfold Dat.before; rw [if_pos (fetch_0 t₀)]; rfl
  subst hx
  iapply (sound_body m K c W fo f0 f1 f2 f3 f4)
  isplitr; · iexact HIb
  isplitr; · iexact HIsr
  isplitr; · iexact HIsc
  isplitr; · iexact HIrr
  isplitr; · iexact HIrc
  isplitr; · iexact HIbx
  isplitr; · iexact HIby
  isplitr; · iexact HIrrx
  isplitr; · iexact HIrcy
  isplitl [Hab]; · iexact Hab
  isplitl [Hasr]; · iexact Hasr
  isplitl [Hasc]; · iexact Hasc
  isplitl [Harr]; · iexact Harr
  isplitl [Harc]; · iexact Harc
  isplitr; · iexact Rbx
  isplitr; · iexact Rby
  isplitr; · iexact Rrrx
  isplitr; · iexact Rrcy
  isplitr; · iexact Rsr
  isplitr; · iexact Rsc
  isplitr; · iexact Rrr
  isplitr; · iexact Rrc
  isplitl [Tbx]; · iexact Tbx
  isplitl [Tby]; · iexact Tby
  isplitl [Trrx]; · iexact Trrx
  isplitl [Trcy]; · iexact Trcy
  isplitl [Tsr]; · iexact Tsr
  isplitl [Tsc]; · iexact Tsc
  isplitl [Hcb]; · iexact Hcb
  isplitl [Hcrr]; · iexact Hcrr
  isplitl [Hcrc]; · iexact Hcrc
  isplitr; · iexact Hlev
  isplitl [Hs0]; · iexact Hs0
  isplitl [Hs1]; · rw [sr_set]; iexact Hs1
  isplitl [Hs2]; · rw [sc_set]; iexact Hs2
  isplitl [Hs3]; · rw [rr_set]; iexact Hs3
  isplitl [Hs4]; · rw [rc_set]; iexact Hs4
  isplitl [Hx]; · iexact Hx
  isplitl [Hout]; · iexact Hout
  iexact HO

/-- info: 'Cert.KernelIdeal.Halo.body_obligation' depends on axioms: [propext, Classical.choice, Quot.sound] -/
#guard_msgs in #print axioms body_obligation

end Cert.KernelIdeal.Halo

end
-- ==== Proof.KernelIdealLaunch.lean ====
/-
  The launch: every fair interleaving of the four devices' threads terminates, each device's result array ends at
  `outAt` and its argument array as it was.

  The exchange's ghost state is funded for all twenty cells (five per device) with six duty tokens per device; the
  tokens of a device's barrier and receive cells are dealt to the neighbours that pay them (the vertical neighbour pays
  the barrier's `false` duty and the row receive, the horizontal one the barrier's `true` duty and the column receive;
  both neighbour maps are involutions, so each dealing is a reindexing of the devices), the send tokens stay. What the
  devices owe at launch sums, cell by cell, to the credit each device waits with: two units on its barrier, one edge
  buffer's credit on each receive cell.
-/
import proofs.«900186_g7700000000000187_dist_halo2d_stencil_xy_m1024_n1024_v7x_xy2x2_bf16_1_alg».proof.Defs
import proofs.«900186_g7700000000000187_dist_halo2d_stencil_xy_m1024_n1024_v7x_xy2x2_bf16_1_alg».proof.Proof.Gen.KernelIdeal
import proofs.«900186_g7700000000000187_dist_halo2d_stencil_xy_m1024_n1024_v7x_xy2x2_bf16_1_alg».proof.Proof.Gen.KernelIdeal.Skeleton
import proofs.«900186_g7700000000000187_dist_halo2d_stencil_xy_m1024_n1024_v7x_xy2x2_bf16_1_alg».proof.Proof.Gen.KernelIdeal.Launch
import proofs.«900186_g7700000000000187_dist_halo2d_stencil_xy_m1024_n1024_v7x_xy2x2_bf16_1_alg».proof.Proof.Gen.KernelIdeal.Points
import proofs.«900186_g7700000000000187_dist_halo2d_stencil_xy_m1024_n1024_v7x_xy2x2_bf16_1_alg».proof.Proof.KernelIdealProto
import proofs.«900186_g7700000000000187_dist_halo2d_stencil_xy_m1024_n1024_v7x_xy2x2_bf16_1_alg».proof.Proof.KernelIdealBody
import Idealize.ShloMosaic.Lib.Pipeline.Launch
import Idealize.ShloMosaic.Lib.Pipeline.Kit
import Idealize.ShloMosaic.Lib.Tactic

noncomputable section

namespace Cert.KernelIdeal.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The cells and the duty tokens, as finite sets -/

theorem ownSemFacts : Pipeline.OwnSemFacts cfg0.spec osem := by decide

theorem share_eq (c : Dev nD) (w : Fin cfg0.W) : (dats (F := F) m 0 c).share w = fullShare := by unfold Dat.share; split <;> rfl

theorem kcell_injective : Function.Injective (kcell : Dev nD × Fin 5 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
def haloCells : Finset (GSem nD τ sig) := Finset.univ.map ⟨kcell, kcell_injective⟩

/-- The six duties minted per device, by cell and duty: its barrier's `false` and `true`, its two send cells' and its
    two receive cells' `false`. -/
abbrev tokKind : Fin 6 → SemLoc sig × Bool := fun
  | 0 => (.reg barS, false) | 1 => (.reg barS, true) | 2 => (.dma sendRowA.sem, false)
  | 3 => (.dma sendColA.sem, false) | 4 => (.dma recvRowA.sem, false) | 5 => (.dma recvColA.sem, false)
theorem tokKind_injective : Function.Injective tokKind := by decide
/-- A device's own cells' duty tokens as minted: (device, which duty), all of round 0. -/
abbrev tokOf (cj : Dev nD × Fin 6) : GSem nD τ sig × ℕ × Bool := (((cj.1 : Thread nD τ), (tokKind cj.2).1), 0, (tokKind cj.2).2)
theorem tokOf_injective : Function.Injective (tokOf : Dev nD × Fin 6 → GSem nD τ sig × ℕ × Bool) := by
  rintro ⟨c, j⟩ ⟨c', j'⟩ h
  have h1 : c = c' := congrArg (fun x : GSem nD τ sig × ℕ × Bool => x.1.1.1) h
  have h2 : tokKind j = tokKind j' :=
    Prod.ext (congrArg (fun x : GSem nD τ sig × ℕ × Bool => x.1.2) h) (congrArg (fun x : GSem nD τ sig × ℕ × Bool => x.2.2) h)
  rw [h1, tokKind_injective h2]
def haloToks : Finset (GSem nD τ sig × ℕ × Bool) := Finset.univ.map ⟨tokOf, tokOf_injective⟩

def u₀ : UU :=
  (initOf (Pipeline.cells cfgs cellOf_inj) (Pipeline.launchToks cfgs cellOf_inj), initOf haloCells haloToks)

/-- The duty tokens of device `c`'s own cells. -/
def toks (c : Dev nD) : sProp 𝕄 :=
  iprop(dutyTok ER (barCell c) 0 false ∗ dutyTok ER (barCell c) 0 true ∗ dutyTok ER (sendRowCell c) 0 false ∗ dutyTok ER (sendColCell c) 0 false
    ∗ dutyTok ER (recvRowCell c) 0 false ∗ dutyTok ER (recvColCell c) 0 false)

/-- What the launch element deals device `c`: its five cells' round states at counter zero, its positions and the
    reached-marks at round 0, its six tokens. -/
def G (c : Dev nD) : sProp 𝕄 :=
  iprop((bigSep Finset.univ fun k : Fin 5 => roundState ER (sched m) (kcell (c, k)) 0)
    ∗ (bigSep Finset.univ fun k : Fin 5 => iprop(atPos ER (kcell (c, k)) 0 ∅ 0 ∗ reached ER (kcell (c, k)) 0)) ∗ toks c)

/-- What the global step makes of it: the ghost state the body starts from, at some names. -/
def G' (c : Dev nD) : sProp 𝕄 := iprop(∃ K, ghost m K c)

omit [FloatOps F] in
theorem bigSep_fin5 (Φ : Fin 5 → sProp 𝕄) : bigSep Finset.univ Φ = iprop(Φ 0 ∗ Φ 1 ∗ Φ 2 ∗ Φ 3 ∗ Φ 4) := bigSep_univ_eq_bigSepL [0, 1, 2, 3, 4] (by decide) (by decide) Φ
omit [FloatOps F] in
theorem bigSep_fin6 (Φ : Fin 6 → sProp 𝕄) : bigSep Finset.univ Φ = iprop(Φ 0 ∗ Φ 1 ∗ Φ 2 ∗ Φ 3 ∗ Φ 4 ∗ Φ 5) := bigSep_univ_eq_bigSepL [0, 1, 2, 3, 4, 5] (by decide) (by decide) Φ

/-- Funding: the exchange's launch element is every device's `G`. -/
theorem fund_halo : BI.own (ER (initOf haloCells haloToks)) ⊢ (|==> bigSep Finset.univ (G m) : sProp 𝕄) := by
  have hX (Φ : GSem nD τ sig → sProp 𝕄) : bigSep haloCells Φ = bigSep Finset.univ fun c : Dev nD => bigSep Finset.univ fun k : Fin 5 => Φ (kcell (c, k)) := by
    unfold haloCells; rw [bigSep_map, bigSep_univ_prod]; rfl
  have hT : bigSep haloToks (fun x => (dutyTok ER x.1 x.2.1 x.2.2 : sProp 𝕄)) = bigSep Finset.univ fun c : Dev nD => toks c := by
    unfold haloToks; rw [bigSep_map, bigSep_univ_prod]
    exact bigSep_congr fun c _ => by unfold toks; rw [bigSep_fin6]; rfl
  iintro HX
  imod (Rounds.fund ER (sched m) haloCells haloToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The global step: every cell's invariant allocated, the tokens dealt to their payers -/

omit [FloatOps F] in
/-- The two send and the two receive semaphores are the kernel's own four; -/
theorem ownSems0_eq (c : Dev nD) : (Pipeline.ownSems0 (Ix := Unit) (Name := ℕ) (U := UU) (Lvl := ℕ) (Val := Elt F) (τ := τ) osem c : sProp 𝕄)
    = iprop(semVal (sendRowCell c) 0 ∗ semVal (sendColCell c) 0 ∗ semVal (recvRowCell c) 0 ∗ semVal (recvColCell c) 0) := by
  rw [Pipeline.ownSems0_eq_of_list c osem [0, 1, 2, 3] (by decide) (by decide)]; rfl
omit [FloatOps F] in
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 5 => semVal (kcell (c, k)) 0 : sProp 𝕄) := by
  rw [ownSems0_eq, unscopedSems0_eq, bigSep_fin5]
  iintro ⟨⟨H1, H2, H3, H4⟩, HB⟩
  isplitl [HB]; · iexact HB
  isplitl [H1]; · iexact H1
  isplitl [H2]; · iexact H2
  isplitl [H3]; · iexact H3
  iexact H4

/-- One device's five counters at zero and its five round states make its five cells' invariants. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 5 => semVal (kcell (c, k)) 0) ∗ bigSep Finset.univ fun k : Fin 5 => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The persistent part, shared by all devices: every cell's invariant at its name, every cell at round 0. -/
def records (K : Dev nD × Fin 5 → ℕ) : sProp 𝕄 :=
  iprop((bigSep Finset.univ fun ck : Dev nD × Fin 5 => cellInv ER (sched m) (K ck) (kcell ck))
    ∗ bigSep Finset.univ fun ck : Dev nD × Fin 5 => reached ER (kcell ck) 0)

instance records_persistent (K : Dev nD × Fin 5 → ℕ) : BI.Persistent (records m K) := by unfold records; infer_instance

theorem inv_at (K : Dev nD × Fin 5 → ℕ) (ck : Dev nD × Fin 5) :
    (bigSep Finset.univ fun ck : Dev nD × Fin 5 => (cellInv ER (sched m) (K ck) (kcell ck) : sProp 𝕄)) ⊢ cellInv ER (sched m) (K ck) (kcell ck) :=
  bigSep_elim (Finset.mem_univ ck)
omit [FloatOps F] in
theorem reached_at (ck : Dev nD × Fin 5) :
    (bigSep Finset.univ fun ck : Dev nD × Fin 5 => (reached ER (kcell ck) 0 : sProp 𝕄)) ⊢ reached ER (kcell ck) 0 :=
  bigSep_elim (Finset.mem_univ ck)

/-- What stays with device `c`: its positions, and the tokens of the duties IT pays. -/
def payToks (c : Dev nD) : sProp 𝕄 :=
  iprop(dutyTok ER (barCell (xn c)) 0 false ∗ dutyTok ER (barCell (yn c)) 0 true ∗ dutyTok ER (recvRowCell (xn c)) 0 false ∗ dutyTok ER (recvColCell (yn c)) 0 false
    ∗ dutyTok ER (sendRowCell c) 0 false ∗ dutyTok ER (sendColCell c) 0 false)
def linear (c : Dev nD) : sProp 𝕄 :=
  iprop((atPos ER (barCell c) 0 ∅ 0 ∗ atPos ER (sendRowCell c) 0 ∅ 0 ∗ atPos ER (sendColCell c) 0 ∅ 0 ∗ atPos ER (recvRowCell c) 0 ∅ 0 ∗ atPos ER (recvColCell c) 0 ∅ 0) ∗ payToks c)

theorem ghost_intro (K : Dev nD × Fin 5 → ℕ) (c : Dev nD) : iprop(records m K ∗ linear c) ⊢ G' m c := by
  unfold records linear payToks G' ghost invs
  iintro ⟨⟨#HI, #HR⟩, ⟨HaB, HaSR, HaSC, HaRR, HaRC⟩, HtBX, HtBY, HtRX, HtCY, HtSR, HtSC⟩
  iexists K
  isplitr
  · isplitr; · iapply (inv_at m K (c, 0)); iexact HI
    isplitr; · iapply (inv_at m K (c, 1)); iexact HI
    isplitr; · iapply (inv_at m K (c, 2)); iexact HI
    isplitr; · iapply (inv_at m K (c, 3)); iexact HI
    isplitr; · iapply (inv_at m K (c, 4)); iexact HI
    isplitr; · iapply (inv_at m K (xn c, 0)); iexact HI
    isplitr; · iapply (inv_at m K (yn c, 0)); iexact HI
    isplitr; · iapply (inv_at m K (xn c, 3)); iexact HI
    iapply (inv_at m K (yn c, 4)); iexact HI
  isplitl [HaB]; · iexact HaB
  isplitl [HaSR]; · iexact HaSR
  isplitl [HaSC]; · iexact HaSC
  isplitl [HaRR]; · iexact HaRR
  isplitl [HaRC]; · iexact HaRC
  isplitr; · iapply (reached_at (F := F) (xn c, 0)); iexact HR
  isplitr; · iapply (reached_at (F := F) (yn c, 0)); iexact HR
  isplitr; · iapply (reached_at (F := F) (xn c, 3)); iexact HR
  isplitr; · iapply (reached_at (F := F) (yn c, 4)); iexact HR
  isplitr; · iapply (reached_at (F := F) (c, 1)); iexact HR
  isplitr; · iapply (reached_at (F := F) (c, 2)); iexact HR
  isplitr; · iapply (reached_at (F := F) (c, 3)); iexact HR
  isplitr; · iapply (reached_at (F := F) (c, 4)); iexact HR
  isplitl [HtBX]; · iexact HtBX
  isplitl [HtBY]; · iexact HtBY
  isplitl [HtRX]; · iexact HtRX
  isplitl [HtCY]; · iexact HtCY
  isplitl [HtSR]; · iexact HtSR
  iexact HtSC

omit [FloatOps F] in
/-- The tokens dealt across the mesh: a barrier's `false` token and the row-receive token go to the vertical neighbour,
    the barrier's `true` token and the column-receive token to the horizontal one; each neighbour map is its own inverse,
    so summed over the devices this is a reindexing. The send tokens stay. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep', bigSep_sep', bigSep_sep', bigSep_sep', bigSep_sep',
    bigSep_univ_equiv xswap (fun c : Dev nD => (dutyTok ER (barCell c) 0 false : sProp 𝕄)),
    bigSep_univ_equiv yswap (fun c : Dev nD => (dutyTok ER (barCell c) 0 true : sProp 𝕄)),
    bigSep_univ_equiv xswap (fun c : Dev nD => (dutyTok ER (recvRowCell c) 0 false : sProp 𝕄)),
    bigSep_univ_equiv yswap (fun c : Dev nD => (dutyTok ER (recvColCell c) 0 false : sProp 𝕄))]
  iintro ⟨H1, H2, H3, H4, H5, H6⟩
  isplitl [H1]; · iexact H1
  isplitl [H2]; · iexact H2
  isplitl [H5]; · iexact H5
  isplitl [H6]; · iexact H6
  isplitl [H3]; · iexact H3
  iexact H4

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 5 => iprop(∃ κ : ℕ, cellInv ER (sched m) κ (kcell ck))),
    bigSep_congr (s := Finset.univ) (fun (c : Dev nD) _ => bigSep_sep' Finset.univ (fun k : Fin 5 => (atPos ER (kcell (c, k)) 0 ∅ 0 : sProp 𝕄)) (fun k => reached ER (kcell (c, k)) 0)),
    bigSep_sep', ← bigSep_univ_prod (fun ck : Dev nD × Fin 5 => (reached ER (kcell ck) 0 : sProp 𝕄))]
  iintro ⟨HI, ⟨Hat, #HR⟩, Htok⟩
  ihave HK := (BI.bigSep_exists_pi Finset.univ (fun (ck : Dev nD × Fin 5) (κ : ℕ) => (cellInv ER (sched m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 5 => (atPos ER (kcell (c, k)) 0 ∅ 0 : sProp 𝕄)) payToks).symm).trans
      (bigSep_mono fun c _ => show _ ⊢ linear c from Entails.of_eq (by unfold linear; rw [bigSep_fin5])))
    isplitl [Hat]; · iexact Hat
    iexact Htk

/-- The global step: own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit

Device `d` owes the column-receive cell of `yn d` and the row-receive cell of `xn d` one edge buffer's credit each, and the
barrier cells of `yn d` and of `xn d` one unit each. Both neighbour maps are involutions, so each of the four dues,
summed over the devices, is one credit token on every device's own cell; the two barrier units make the two the
barrier wait takes. -/

omit [FloatOps F] in
theorem creds (c : Dev nD) :
    (Pipeline.launchCred O₀ c : sProp 𝕄)
      ⊢ iprop(cred (tallyAt (barCell c) () 2) ∗ cred (tallyAt (recvRowCell c) () N) ∗ cred (tallyAt (recvColCell c) () N)) := by
  have hO : (O₀ : Dev nD → CellTallies nD τ sig Unit)
      = fun d => ((tallyAt (recvColCell (yn d)) () N + tallyAt (recvRowCell (xn d)) () N) + tallyAt (barCell (yn d)) () 1) + tallyAt (barCell (xn d)) () 1 := rfl
  rw [hO, Pipeline.launchCred_add, Pipeline.launchCred_add, Pipeline.launchCred_add]
  iintro ⟨⟨⟨HC, HR⟩, HY⟩, HX⟩
  ihave HC' := (Pipeline.launchCred_tallyAt (SemLoc.dma recvColA.sem) yn yn yn_yn yn_yn () N c) $$ HC
  ihave HR' := (Pipeline.launchCred_tallyAt (SemLoc.dma recvRowA.sem) xn xn xn_xn xn_xn () N c) $$ HR
  ihave HY' := (Pipeline.launchCred_tallyAt (SemLoc.reg barS) yn yn yn_yn yn_yn () 1 c) $$ HY
  ihave HX' := (Pipeline.launchCred_tallyAt (SemLoc.reg barS) xn xn xn_xn xn_xn () 1 c) $$ HX
  isplitl [HY' HX']
  · iapply (show iprop(cred (tallyAt (barCell c) () 1) ∗ cred (tallyAt (barCell c) () 1)) ⊢ (cred (tallyAt (barCell c) () 2) : sProp 𝕄) from
      (cred_add _ _).2.trans (Entails.of_eq (congrArg cred (tallyAt_add (barCell c) () 1 1))))
    isplitl [HY'] <;> iassumption
  isplitl [HR']; · iexact HR'
  iexact HC'

/-! ## The theorem's side conditions -/

theorem start_intro (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H2, HR, HC⟩
  imodintro
  unfold start G'
  isplitl
  · isplitl [HG]; · iexact HG
    isplitl [H2]; · iexact H2
    isplitl [HR]; · iexact HR
    isplitl [HC]; · iexact HC
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, H0, H1, H2, H3, H4⟩
  isplitl [Hs]; · iexact Hs
  isplitl [H0]; · iexact H0
  isplitl [H1]; · iexact H1
  isplitl [H2]; · iexact H2
  isplitl [H3]; · iexact H3
  iexact H4

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ c from rfl, scopedRest0_eq, ownSems0_eq]
  unfold Φ₁
  iintro ⟨Hr, Hz⟩
  isplitr; · iempintro
  isplitl [Hz]; · iexact Hz
  iexact Hr

/-- The staging cells are neither receive cell: a wait on one is below everything a device may still owe. -/
theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The arrays at exit -/

/-- The argument array is an input window's: never written back. -/
theorem final_in (c : Dev nD) : (dats (F := F) m 0 c).arrAt (0 : Fin 2) cfg0.N = m ((c : Thread nD τ).loc main_arg0) :=
  (dats (F := F) m 0 c).arrAt_in (0 : Fin 2) rfl _

/-- The result array is written back once, at the one grid point, whole: the block is the array (offsets zero, the
    array's own sizes), so what the write-back leaves is what the body left in the staging buffer. -/
theorem final_out (c : Dev nD) : (dats (F := F) m 0 c).arrAt (1 : Fin 2) cfg0.N = outAt m c := by
  have hz : (fun a => win0_1.index t₀ a * main_v1.ty.shape.size a) = fun _ => 0 := funext fun a => by fin_cases a <;> decide
  have hread (X : main_v1.ty.Contents (Elt F)) : ((cfg0.win (1 : Fin 2)).blk t₀).view.read (Elt F) X = X :=
    Memref.read_access_unit_zero (Elt F) main_v1 hz (fun a => by rw [congrFun hz a]; simp) X
  have h := (dats (F := F) m 0 c).arrAt_succ (1 : Fin 2) t₀
  rw [flush0_1 t₀, if_pos rfl] at h
  calc (dats (F := F) m 0 c).arrAt (1 : Fin 2) cfg0.N
      = ((cfg0.win (1 : Fin 2)).blk t₀).view.write (Elt F) ((dats (F := F) m 0 c).arrAt (1 : Fin 2) t₀) ((dats (F := F) m 0 c).flushed (1 : Fin 2) t₀) Finset.univ := h
    _ = ((cfg0.win (1 : Fin 2)).blk t₀).view.read (Elt F)
          (((cfg0.win (1 : Fin 2)).blk t₀).view.write (Elt F) ((dats (F := F) m 0 c).arrAt (1 : Fin 2) t₀) ((dats (F := F) m 0 c).flushed (1 : Fin 2) t₀) Finset.univ) := (hread _).symm
    _ = (dats (F := F) m 0 c).flushed (1 : Fin 2) t₀ := View.read_write_univ _ _
    _ = outAt m c := rfl

/-! ## The run -/

set_option maxRecDepth 8000 in
/-- At the compiled mesh, from any memory with zero counters: @main terminates on every fair schedule, nothing
    faults, each device's result array ends at `outAt m c` and its argument array unchanged. -/
theorem run_main (ρ : Dev nD → PrngReg) :
    θ_run defs (onTc (τ := τ) (main (F := F))) ⟨m, fun _ => 0, ρ⟩ (fun r => ∀ c : Dev nD,
      r.2.mem ((c.tc : Thread nD τ).loc main_v1) = outAt m c
      ∧ r.2.mem ((c.tc : Thread nD τ).loc main_arg0) = m ((c.tc : Thread nD τ).loc main_arg0)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_halo m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun s h c => ⟨((h c).1 (1 : Fin 2)).trans (final_out m c), ((h c).1 (0 : Fin 2)).trans (final_in m c)⟩)

/-- info: 'Cert.KernelIdeal.Halo.run_main' depends on axioms: [propext, Classical.choice, Quot.sound] -/
#guard_msgs in #print axioms run_main

end Cert.KernelIdeal.Halo

end
-- ==== Proof.ValueKernel.lean ====
/-
  The kernel's result on one device, read index by index at the exact instance: the stencil of the device's own
  block completed by its neighbours' edge row and edge column, the whole array's border kept.
-/
import proofs.«900186_g7700000000000187_dist_halo2d_stencil_xy_m1024_n1024_v7x_xy2x2_bf16_1_alg».proof.Defs
import proofs.«900186_g7700000000000187_dist_halo2d_stencil_xy_m1024_n1024_v7x_xy2x2_bf16_1_alg».proof.Proof.Gen.KernelIdeal
import proofs.«900186_g7700000000000187_dist_halo2d_stencil_xy_m1024_n1024_v7x_xy2x2_bf16_1_alg».proof.Proof.Gen.KernelIdeal.Skeleton
import proofs.«900186_g7700000000000187_dist_halo2d_stencil_xy_m1024_n1024_v7x_xy2x2_bf16_1_alg».proof.Proof.Gen.KernelIdeal.Launch
import proofs.«900186_g7700000000000187_dist_halo2d_stencil_xy_m1024_n1024_v7x_xy2x2_bf16_1_alg».proof.Proof.Gen.KernelIdeal.Points
import proofs.«900186_g7700000000000187_dist_halo2d_stencil_xy_m1024_n1024_v7x_xy2x2_bf16_1_alg».proof.Proof.KernelIdealProto
import proofs.«900186_g7700000000000187_dist_halo2d_stencil_xy_m1024_n1024_v7x_xy2x2_bf16_1_alg».proof.Proof.Spec
import Idealize.ShloMosaic.Lib.Pipeline.Launch
import Idealize.ShloMosaic.Lib.Pipeline.Kit
import Idealize.ShloMosaic.Lib.Tactic
import Idealize.ShloMosaic.PureOps.Ideal
import Idealize.ShloMosaic.Lib.ValueIdx
import Idealize.ShloMosaic.Lib.ValueLayout
import Idealize.ShloMosaic.Lib.Pipeline.Value

noncomputable section

namespace Cert.KernelIdeal.HaloValue

open Cert.KernelIdeal Cert.KernelIdeal.Gen Cert.KernelIdeal.Halo Cert.Stencil
open Idealize.ShloMosaic Idealize.ShloMosaic.TcCoe Idealize.SL.Sem Idealize.ShloMosaic.ValueIdx

variable (m : (ℓ : Loc nD τ sig) → Buf (Elt Ideal) ℓ)

/-- Device `c`'s input block, as a function of the index. -/
def xblk (c : Dev nD) : SB.Idx → EReal := m ((c.tc : Thread nD τ).loc main_arg0)

/-! ## Layout operations of rank two read at an index given by its two coordinates -/

/-- An update of a slice read at `(p, q)`: inside the slice's span the update at the coordinates less the
    offsets, elsewhere the operand. -/
theorem updateSlice_ix2 {α : Type} {n0 n1 m0 m1 : Nat} (x : (⟨2, ![n0, n1]⟩ : Shape).Idx → α) (upd : (⟨2, ![m0, m1]⟩ : Shape).Idx → α)
    (o0 o1 : Nat) (h : (⟨2, ![n0, n1]⟩ : Shape).Slices ![o0, o1] ⟨2, ![m0, m1]⟩) (p : Fin n0) (q : Fin n1) :
    updateSlice x upd ![o0, o1] h (ix2 p q)
      = if hin : (o0 ≤ p.val ∧ p.val < o0 + m0) ∧ (o1 ≤ q.val ∧ q.val < o1 + m1) then
          upd (ix2 (⟨p.val - o0, by omega⟩ : Fin m0) (⟨q.val - o1, by omega⟩ : Fin m1))
        else x (ix2 p q) := by
  unfold updateSlice
  by_cases hin : (o0 ≤ p.val ∧ p.val < o0 + m0) ∧ (o1 ≤ q.val ∧ q.val < o1 + m1)
  · rw [dif_pos hin, dif_pos (fun a => by match a with | ⟨0, _⟩ => exact hin.1 | ⟨1, _⟩ => exact hin.2)]
    exact congrArg upd (Shape.idx_ext₂ rfl rfl)
  · rw [dif_neg hin, dif_neg (fun hall => hin ⟨hall 0, hall 1⟩)]

/-- A `[n, 1]` array cast to `[n]` reads, at `i`, the operand at `(i, 0)`. -/
theorem shapeCast_a1_a_apply {α : Type} {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- An `[n]` array cast to `[n, 1]` reads, at `(i, u)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-! ## Loads and stores of a buffer held whole, read at an index -/

/-- A load of the result buffer through a unit-stride rectangle reads, at a local index, the contents at the index the
    offsets carry it to. -/
theorem rdO_apply {F : FTy → Type} [FloatOps F] (f : OC (F := F)) {off size : Fin 2 → Nat} (inb : ∀ a, off a + size a ≤ S1024x1024.size a)
    (x : (Rect.unit (s := S1024x1024) off size inb).shape.Idx) (k0 k1 : Fin 1024)
    (h0 : k0.val = off 0 + (x 0).val) (h1 : k1.val = off 1 + (x 1).val) :
    rdO f (Rect.unit (s := S1024x1024) off size inb) x = f (ix2 k0 k1) := by
  show f ((Rect.unit (s := S1024x1024) off size inb).toLoadRect.idx x) = f (ix2 k0 k1)
  exact congrArg f (Shape.idx_ext₂ (by show off 0 + 1 * (x 0).val = k0.val; omega) (by show off 1 + 1 * (x 1).val = k1.val; omega))

/-- The same for the buffer that keeps the block. -/
theorem rdL_apply {F : FTy → Type} [FloatOps F] (f : OC (F := F)) {off size : Fin 2 → Nat} (inb : ∀ a, off a + size a ≤ S1024x1024.size a)
    (x : (Rect.unit (s := S1024x1024) off size inb).shape.Idx) (k0 k1 : Fin 1024)
    (h0 : k0.val = off 0 + (x 0).val) (h1 : k1.val = off 1 + (x 1).val) :
    rdL f (Rect.unit (s := S1024x1024) off size inb) x = f (ix2 k0 k1) := by
  show f ((Rect.unit (s := S1024x1024) off size inb).toLoadRect.idx x) = f (ix2 k0 k1)
  exact congrArg f (Shape.idx_ext₂ (by show off 0 + 1 * (x 0).val = k0.val; omega) (by show off 1 + 1 * (x 1).val = k1.val; omega))

/-- The same for the staged input block. -/
theorem rdX_apply {F : FTy → Type} [FloatOps F] (f : XC (F := F)) {off size : Fin 2 → Nat} (inb : ∀ a, off a + size a ≤ S1024x1024.size a)
    (x : (Rect.unit (s := S1024x1024) off size inb).shape.Idx) (k0 k1 : Fin 1024)
    (h0 : k0.val = off 0 + (x 0).val) (h1 : k1.val = off 1 + (x 1).val) :
    (xM).view.readAt (Elt F) (Rect.unit (s := S1024x1024) off size inb).toLoadRect f x = f (ix2 k0 k1) := by
  show f ((Rect.unit (s := S1024x1024) off size inb).toLoadRect.idx x) = f (ix2 k0 k1)
  exact congrArg f (Shape.idx_ext₂ (by show off 0 + 1 * (x 0).val = k0.val; omega) (by show off 1 + 1 * (x 1).val = k1.val; omega))

/-- A store into the result buffer through a unit-stride rectangle is the update of that slice. -/
theorem stO_eq {F : FTy → Type} [FloatOps F] (f : OC (F := F)) {off size : Fin 2 → Nat} (inb : ∀ a, off a + size a ≤ S1024x1024.size a)
    (w : (Rect.unit (s := S1024x1024) off size inb).shape.Idx → Elt F .bf16) :
    stO f (Rect.unit (s := S1024x1024) off size inb) w = updateSlice (s := S1024x1024) (u := ⟨2, size⟩) f w off ⟨rfl, inb⟩ :=
  View.write_whole_slice_unit cc0_stg1_0 off size inb f w

/-- One row stored at the last row through the last two rows: the last row is the stored row, every other entry kept. -/
theorem stRowBot_apply {F : FTy → Type} [FloatOps F] (f : OC (F := F)) (w : S1x1024.Idx → Elt F .bf16) (p q : Fin 1024) :
    stO f rBot2 (updateSlice (rdO f rBot2) w ![1, 0] slices_S2x1024_S1x1024_1_0) (ix2 p q)
      = if p.val = 1023 then w (ix2 (0 : Fin 1) q) else f (ix2 p q) := by
  refine (congrFun (stO_eq f _ _) _).trans ?_
  refine (updateSlice_ix2 f _ 1022 0 _ p q).trans ?_
  by_cases hp : p.val = 1023
  · rw [dif_pos ⟨⟨by omega, by omega⟩, ⟨by omega, by omega⟩⟩, if_pos hp]
    refine (updateSlice_ix2 _ w 1 0 _ _ _).trans ?_
    rw [dif_pos ⟨⟨by show 1 ≤ p.val - 1022; omega, by show p.val - 1022 < 1 + 1; omega⟩, ⟨by omega, by show q.val - 0 < 0 + 1024; omega⟩⟩]
    exact congrArg w (Shape.idx_ext₂ (by show p.val - 1022 - 1 = 0; omega) (by show q.val - 0 - 0 = q.val; omega))
  · rw [if_neg hp]
    by_cases hp2 : p.val = 1022
    · rw [dif_pos ⟨⟨by omega, by omega⟩, ⟨by omega, by omega⟩⟩]
      refine (updateSlice_ix2 _ w 1 0 _ _ _).trans ?_
      rw [dif_neg (fun h => by have := h.1.1; change 1 ≤ p.val - 1022 at this; omega)]
      exact rdO_apply f _ _ p q (by show p.val = 1022 + (p.val - 1022); omega) (by show q.val = 0 + (q.val - 0); omega)
    · rw [dif_neg (fun h => by have := h.1; omega)]

/-- One row stored at the first row through the first two rows. -/
theorem stRowTop_apply {F : FTy → Type} [FloatOps F] (f : OC (F := F)) (w : S1x1024.Idx → Elt F .bf16) (p q : Fin 1024) :
    stO f rTop2 (updateSlice (rdO f rTop2) w ![0, 0] slices_S2x1024_S1x1024_0_0) (ix2 p q)
      = if p.val = 0 then w (ix2 (0 : Fin 1) q) else f (ix2 p q) := by
  refine (congrFun (stO_eq f _ _) _).trans ?_
  refine (updateSlice_ix2 f _ 0 0 _ p q).trans ?_
  by_cases hp : p.val = 0
  · rw [dif_pos ⟨⟨by omega, by omega⟩, ⟨by omega, by omega⟩⟩, if_pos hp]
    refine (updateSlice_ix2 _ w 0 0 _ _ _).trans ?_
    rw [dif_pos ⟨⟨by omega, by show p.val - 0 < 0 + 1; omega⟩, ⟨by omega, by show q.val - 0 < 0 + 1024; omega⟩⟩]
    exact congrArg w (Shape.idx_ext₂ (by show p.val - 0 - 0 = 0; omega) (by show q.val - 0 - 0 = q.val; omega))
  · rw [if_neg hp]
    by_cases hp2 : p.val = 1
    · rw [dif_pos ⟨⟨by omega, by omega⟩, ⟨by omega, by omega⟩⟩]
      refine (updateSlice_ix2 _ w 0 0 _ _ _).trans ?_
      rw [dif_neg (fun h => by have := h.1.2; change p.val - 0 < 0 + 1 at this; omega)]
      exact rdO_apply f _ _ p q (by show p.val = 0 + (p.val - 0); omega) (by show q.val = 0 + (q.val - 0); omega)
    · rw [dif_neg (fun h => by have := h.1; omega)]

/-- One column stored at the last column. -/
theorem stColL_apply {F : FTy → Type} [FloatOps F] (f : OC (F := F)) (w : S1024x1.Idx → Elt F .bf16) (p q : Fin 1024) :
    stO f rColL w (ix2 p q) = if q.val = 1023 then w (ix2 p (0 : Fin 1)) else f (ix2 p q) := by
  refine (congrFun (stO_eq f _ _) _).trans ?_
  refine (updateSlice_ix2 f _ 0 1023 _ p q).trans ?_
  by_cases hq : q.val = 1023
  · rw [dif_pos ⟨⟨by omega, by omega⟩, ⟨by omega, by omega⟩⟩, if_pos hq]
    exact congrArg w (Shape.idx_ext₂ (by show p.val - 0 = p.val; omega) (by show q.val - 1023 = 0; omega))
  · rw [if_neg hq, dif_neg (fun h => by have := h.2; omega)]

/-- One column stored at the first column. -/
theorem stCol0_apply {F : FTy → Type} [FloatOps F] (f : OC (F := F)) (w : S1024x1.Idx → Elt F .bf16) (p q : Fin 1024) :
    stO f rCol0 w (ix2 p q) = if q.val = 0 then w (ix2 p (0 : Fin 1)) else f (ix2 p q) := by
  refine (congrFun (stO_eq f _ _) _).trans ?_
  refine (updateSlice_ix2 f _ 0 0 _ p q).trans ?_
  by_cases hq : q.val = 0
  · rw [dif_pos ⟨⟨by omega, by omega⟩, ⟨by omega, by omega⟩⟩, if_pos hq]
    exact congrArg w (Shape.idx_ext₂ (by show p.val - 0 = p.val; omega) (by show q.val - 0 = 0; omega))
  · rw [if_neg hq, dif_neg (fun h => by have := h.2; omega)]

/-! ## The constants the kernel spells, as extended reals -/

theorem ofBits_half : (Scalar.ofBits .bf16 0x3F00#16 : Ideal .bf16) = half := by
  show Ideal.ofBits .bf16 0x3F00#16 = half
  unfold half
  simp [Ideal.ofBits, Ideal.ieee, -EReal.coe_mul]; norm_num

theorem ofBits_eighth : (Scalar.ofBits .bf16 0x3E00#16 : Ideal .bf16) = eighth := by
  show Ideal.ofBits .bf16 0x3E00#16 = eighth
  unfold eighth
  simp [Ideal.ofBits, Ideal.ieee, -EReal.coe_mul]; norm_num

theorem ofBits_zero : (Scalar.ofBits .bf16 0x0000#16 : Ideal .bf16) = (0 : EReal) := by
  show Ideal.ofBits .bf16 0x0000#16 = 0
  simp [Ideal.ofBits, Ideal.ieee]

/-! ## The payloads at an index -/

/-- A row plus an eighth of a row (the payload of the store at the last row). -/
theorem pay13_apply (a b : Vec Ideal S1x1024 .bf16) (u : Fin 1) (q : Fin 1024) :
    (k0_pay13 a b (ix2 u q) : EReal) = a (ix2 (0 : Fin 1) q) + eighth * b (ix2 (0 : Fin 1) q) := by
  simp only [k0_pay13]
  rw [shapeCast_a_1a_apply, addf_apply, mulf_apply, broadcast_apply, shapeCast_1a_a_apply, shapeCast_1a_a_apply, ofBits_eighth]

/-- A row plus an eighth of a row (the payload of the store at the first row). -/
theorem pay1_apply (a b : Vec Ideal S1x1024 .bf16) (u : Fin 1) (q : Fin 1024) :
    (k0_pay1 a b (ix2 u q) : EReal) = a (ix2 (0 : Fin 1) q) + eighth * b (ix2 (0 : Fin 1) q) := by
  simp only [k0_pay1]
  rw [shapeCast_a_1a_apply, addf_apply, mulf_apply, broadcast_apply, shapeCast_1a_a_apply, shapeCast_1a_a_apply, ofBits_eighth]

/-- A column plus an eighth of the received column, which arrives as a row. -/
theorem pay2_apply (a : Vec Ideal S1024x1 .bf16) (b : Vec Ideal S1x1024 .bf16) (p : Fin 1024) (u : Fin 1) :
    (k0_pay2 a b (ix2 p u) : EReal) = a (ix2 p (0 : Fin 1)) + eighth * b (ix2 (0 : Fin 1) p) := by
  simp only [k0_pay2]
  rw [shapeCast_a_a1_apply, addf_apply, mulf_apply, broadcast_apply, shapeCast_a1_a_apply, shapeCast_1a_a_apply, ofBits_eighth]

theorem pay3_apply (a : Vec Ideal S1024x1 .bf16) (b : Vec Ideal S1x1024 .bf16) (p : Fin 1024) (u : Fin 1) :
    (k0_pay3 a b (ix2 p u) : EReal) = a (ix2 p (0 : Fin 1)) + eighth * b (ix2 (0 : Fin 1) p) := by
  simp only [k0_pay3]
  rw [shapeCast_a_a1_apply, addf_apply, mulf_apply, broadcast_apply, shapeCast_a1_a_apply, shapeCast_1a_a_apply, ofBits_eighth]

/-- A row put back as it is. -/
theorem pay4_apply {F : FTy → Type} [FloatOps F] (a : Vec F S1x1024 .bf16) (u : Fin 1) (q : Fin 1024) :
    k0_pay4 a (ix2 u q) = a (ix2 (0 : Fin 1) q) := by
  simp only [k0_pay4]
  rw [shapeCast_a_1a_apply, shapeCast_1a_a_apply]

theorem pay5_apply {F : FTy → Type} [FloatOps F] (a : Vec F S1x1024 .bf16) (u : Fin 1) (q : Fin 1024) :
    k0_pay5 a (ix2 u q) = a (ix2 (0 : Fin 1) q) := by
  simp only [k0_pay5]
  rw [shapeCast_a_1a_apply, shapeCast_1a_a_apply]

/-- A column put back as it is. -/
theorem pay6_apply {F : FTy → Type} [FloatOps F] (a : Vec F S1024x1 .bf16) (p : Fin 1024) (u : Fin 1) :
    k0_pay6 a (ix2 p u) = a (ix2 p (0 : Fin 1)) := by
  simp only [k0_pay6]
  rw [shapeCast_a_a1_apply, shapeCast_a1_a_apply]

theorem pay7_apply {F : FTy → Type} [FloatOps F] (a : Vec F S1024x1 .bf16) (p : Fin 1024) (u : Fin 1) :
    k0_pay7 a (ix2 p u) = a (ix2 p (0 : Fin 1)) := by
  simp only [k0_pay7]
  rw [shapeCast_a_a1_apply, shapeCast_a1_a_apply]

/-! ## The four shifted copies of a block, a zero row or column let in -/

/-- A row of `z` above the block's first 1023 rows: the entry above, `z` on the first row. -/
theorem shiftDown_apply {α : Type} (z : α) (X : S1024x1024.Idx → α) (h1 : S1024x1024.Slices ![0, 0] S1023x1024)
    (h2 : Shape.Concatenates [S1x1024, S1023x1024] S1024x1024 0) (p q : Fin 1024) :
    concatenate S1024x1024 0 [⟨S1x1024, broadcast S1x1024 z⟩, ⟨S1023x1024, extractStridedSlice S1023x1024 ![0, 0] X h1⟩] h2 (ix2 p q)
      = if h : p.val = 0 then z else X (ix2 (⟨p.val - 1, by omega⟩ : Fin 1024) q) := by
  by_cases h : p.val = 0
  · rw [dif_pos h]
    exact concatenate_pair_apply_left 0 _ _ h2 (ix2 p q) rfl (ix2 (0 : Fin 1) q)
      (fun b => by match b with | ⟨0, _⟩ => exact h.symm | ⟨1, _⟩ => rfl)
  · rw [dif_neg h]
    refine (concatenate_pair_apply_right 0 _ _ h2 (ix2 p q) rfl rfl (ix2 (⟨p.val - 1, by omega⟩ : Fin 1023) q)
      (fun b hb => by match b with | ⟨0, _⟩ => exact absurd rfl hb | ⟨1, _⟩ => rfl) (by show p.val - 1 + 1 = p.val; omega)).trans ?_
    exact slice2_axis0_apply 0 X h1 _ q _ (by show p.val - 1 = 0 + (p.val - 1); omega)

/-- The block's last 1023 rows above a row of `z`: the entry below, `z` on the last row. -/
theorem shiftUp_apply {α : Type} (z : α) (X : S1024x1024.Idx → α) (h1 : S1024x1024.Slices ![1, 0] S1023x1024)
    (h2 : Shape.Concatenates [S1023x1024, S1x1024] S1024x1024 0) (p q : Fin 1024) :
    concatenate S1024x1024 0 [⟨S1023x1024, extractStridedSlice S1023x1024 ![1, 0] X h1⟩, ⟨S1x1024, broadcast S1x1024 z⟩] h2 (ix2 p q)
      = if h : p.val = 1023 then z else X (ix2 (⟨p.val + 1, by omega⟩ : Fin 1024) q) := by
  by_cases h : p.val = 1023
  · rw [dif_pos h]
    exact concatenate_pair_apply_right 0 _ _ h2 (ix2 p q) rfl rfl (ix2 (0 : Fin 1) q)
      (fun b hb => by match b with | ⟨0, _⟩ => exact absurd rfl hb | ⟨1, _⟩ => rfl) (by show 0 + 1023 = p.val; omega)
  · rw [dif_neg h]
    refine (concatenate_pair_apply_left 0 _ _ h2 (ix2 p q) rfl (ix2 (⟨p.val, by omega⟩ : Fin 1023) q)
      (fun b => by match b with | ⟨0, _⟩ => rfl | ⟨1, _⟩ => rfl)).trans ?_
    exact slice2_axis0_apply 1 X h1 _ q _ (by show p.val + 1 = 1 + p.val; omega)

/-- A column of `z` left of the block's first 1023 columns: the entry to the left, `z` on the first column. -/
theorem shiftRight_apply {α : Type} (z : α) (X : S1024x1024.Idx → α) (h1 : S1024x1024.Slices ![0, 0] S1024x1023)
    (h2 : Shape.Concatenates [S1024x1, S1024x1023] S1024x1024 1) (p q : Fin 1024) :
    concatenate S1024x1024 1 [⟨S1024x1, broadcast S1024x1 z⟩, ⟨S1024x1023, extractStridedSlice S1024x1023 ![0, 0] X h1⟩] h2 (ix2 p q)
      = if h : q.val = 0 then z else X (ix2 p (⟨q.val - 1, by omega⟩ : Fin 1024)) := by
  by_cases h : q.val = 0
  · rw [dif_pos h]
    exact concatenate_pair_apply_left 1 _ _ h2 (ix2 p q) rfl (ix2 p (0 : Fin 1))
      (fun b => by match b with | ⟨0, _⟩ => rfl | ⟨1, _⟩ => exact h.symm)
  · rw [dif_neg h]
    refine (concatenate_pair_apply_right 1 _ _ h2 (ix2 p q) rfl rfl (ix2 p (⟨q.val - 1, by omega⟩ : Fin 1023))
      (fun b hb => by match b with | ⟨0, _⟩ => rfl | ⟨1, _⟩ => exact absurd rfl hb) (by show q.val - 1 + 1 = q.val; omega)).trans ?_
    exact slice2_axis1_apply 0 X h1 p _ _ (by show q.val - 1 = 0 + (q.val - 1); omega)

/-- The block's last 1023 columns left of a column of `z`: the entry to the right, `z` on the last column. -/
theorem shiftLeft_apply {α : Type} (z : α) (X : S1024x1024.Idx → α) (h1 : S1024x1024.Slices ![0, 1] S1024x1023)
    (h2 : Shape.Concatenates [S1024x1023, S1024x1] S1024x1024 1) (p q : Fin 1024) :
    concatenate S1024x1024 1 [⟨S1024x1023, extractStridedSlice S1024x1023 ![0, 1] X h1⟩, ⟨S1024x1, broadcast S1024x1 z⟩] h2 (ix2 p q)
      = if h : q.val = 1023 then z else X (ix2 p (⟨q.val + 1, by omega⟩ : Fin 1024)) := by
  by_cases h : q.val = 1023
  · rw [dif_pos h]
    exact concatenate_pair_apply_right 1 _ _ h2 (ix2 p q) rfl rfl (ix2 p (0 : Fin 1))
      (fun b hb => by match b with | ⟨0, _⟩ => rfl | ⟨1, _⟩ => exact absurd rfl hb) (by show 0 + 1023 = q.val; omega)
  · rw [dif_neg h]
    refine (concatenate_pair_apply_left 1 _ _ h2 (ix2 p q) rfl (ix2 p (⟨q.val, by omega⟩ : Fin 1023))
      (fun b => by match b with | ⟨0, _⟩ => rfl | ⟨1, _⟩ => rfl)).trans ?_
    exact slice2_axis1_apply 1 X h1 p _ _ (by show q.val + 1 = 1 + q.val; omega)

/-- The stencil inside the block, at an index: the payload of the first store is `base`. -/
theorem pay12_apply (X : Vec Ideal S1024x1024 .bf16) (p q : Fin 1024) :
    (k0_pay12 X (Scalar.ofBits .bf16 0x0000#16) (ix2 p q) : EReal) = base X (ix2 p q) := by
  simp only [k0_pay12]
  rw [addf_apply, mulf_apply, mulf_apply, addf_apply, addf_apply, addf_apply, broadcast_apply, broadcast_apply,
    shiftDown_apply, shiftUp_apply, shiftRight_apply, shiftLeft_apply, ofBits_half, ofBits_eighth, ofBits_zero]
  rfl

/-! ## The device's two bits -/

theorem xBit_of_true (c : Dev nD) (h : isX0 c = true) :
    Scalar.cmpi .eq (Scalar.remsi (Scalar.divsi (Dev.word c) 2#32) 2#32) 0#32 = 1#1 := by revert c; decide
theorem xBit_of_false (c : Dev nD) (h : isX0 c = false) :
    Scalar.cmpi .eq (Scalar.remsi (Scalar.divsi (Dev.word c) 2#32) 2#32) 0#32 = 0#1 := by revert c; decide
theorem yBit_of_true (c : Dev nD) (h : isY0 c = true) : yBit c = 1#1 := by revert c; decide
theorem yBit_of_false (c : Dev nD) (h : isY0 c = false) : yBit c = 0#1 := by revert c; decide

/-! ## What is sent, and the copy of the block -/

/-- The edge row's payload: the first operand on a device of the upper half, else the second. -/
theorem pay8_apply (c : Dev nD) (a b : Vec Ideal S1x1024 .f32) (u : Fin 1) (q : Fin 1024) :
    (k0_pay8 c a b (ix2 u q) : EReal) = if isX0 c then a (ix2 (0 : Fin 1) q) else b (ix2 (0 : Fin 1) q) := by
  simp only [k0_pay8]
  rw [shapeCast_a_1a_apply, truncf_apply]
  cases hx : isX0 c
  · rw [xBit_of_false c hx, select_zero, shapeCast_1a_a_apply]; rfl
  · rw [xBit_of_true c hx, select_one, shapeCast_1a_a_apply]; rfl

/-- The edge column's payload, sent as a row. -/
theorem pay10_apply (bit : BitVec 1) (a : Vec Ideal S1024x1 .f32) (b : Vec Ideal S1024x1 .f32) (u : Fin 1) (q : Fin 1024) :
    (k0_pay10 bit (k0_pay9 a) b (ix2 u q) : EReal) = Scalar.select bit (a (ix2 q (0 : Fin 1))) (b (ix2 q (0 : Fin 1))) := by
  simp only [k0_pay10, k0_pay9]
  rw [shapeCast_a_1a_apply, truncf_apply]
  by_cases hb : bit = 1#1
  · rw [hb, select_one, select_one, shapeCast_a1_a_apply]
  · rw [eq_zero_of_ne_one hb, select_zero, select_zero, shapeCast_a1_a_apply]

/-- The copy of the block in the result's format is the block. -/
theorem pay11_eq (X : Vec Ideal S1024x1024 .f32) : (k0_pay11 X : S1024x1024.Idx → EReal) = X := by
  simp only [k0_pay11]
  rw [shapeCast_self, shapeCast_self]
  rfl

/-- The staged block is the block: the window is the whole array. -/
theorem xstg_eq (m : (ℓ : Loc nD τ sig) → Buf (Elt Ideal) ℓ) (c : Dev nD) : (xstg (F := Ideal) m c : SB.Idx → EReal) = xblk m c := by
  unfold xstg xblk
  exact Memref.read_access_unit_zero (Elt Ideal) main_arg0 (off := fun a => win0_0.index t0_0 a * win0_0.size a)
    (funext fun a => Nat.zero_mul _) _ _

/-- The copy of the block kept for the border. -/
theorem lbV_eq (m : (ℓ : Loc nD τ sig) → Buf (Elt Ideal) ℓ) (c : Dev nD) : (lbV (F := Ideal) m c : SB.Idx → EReal) = xblk m c := by
  unfold lbV
  rw [pay11_eq]
  exact (Memref.readAt_unit_zero (Elt Ideal) cc0_stg0_0 (off := ![0, 0])
    (funext fun a => by match a with | ⟨0, _⟩ => rfl | ⟨1, _⟩ => rfl) _ _).trans (xstg_eq m c)

/-- The row a device sends is its inner edge row. -/
theorem srowV_apply (m : (ℓ : Loc nD τ sig) → Buf (Elt Ideal) ℓ) (c : Dev nD) (u : Fin 1) (q : Fin 1024) :
    (srowV (F := Ideal) m c (ix2 u q) : EReal) = edgeRow (isX0 c) (xblk m c) q := by
  unfold srowV
  rw [pay8_apply,
    rdX_apply (xstg m c) inb_S1024x1024_S1x1024_1023_0 (ix2 (0 : Fin 1) q) ⟨1023, by omega⟩ q rfl (Nat.zero_add _).symm,
    rdX_apply (xstg m c) inb_S1024x1024_S1x1024_0_0 (ix2 (0 : Fin 1) q) ⟨0, by omega⟩ q rfl (Nat.zero_add _).symm,
    xstg_eq]
  unfold edgeRow
  cases isX0 c
  · rfl
  · rfl

/-- The column a device sends (as a row) is its inner edge column. -/
theorem scolV_apply (m : (ℓ : Loc nD τ sig) → Buf (Elt Ideal) ℓ) (c : Dev nD) (u : Fin 1) (q : Fin 1024) :
    (scolV (F := Ideal) m c (ix2 u q) : EReal) = edgeCol (isY0 c) (xblk m c) q := by
  unfold scolV
  rw [pay10_apply,
    rdX_apply (xstg m c) inb_S1024x1024_S1024x1_0_1023 (ix2 q (0 : Fin 1)) q ⟨1023, by omega⟩ (Nat.zero_add _).symm rfl,
    rdX_apply (xstg m c) inb_S1024x1024_S1024x1_0_0 (ix2 q (0 : Fin 1)) q ⟨0, by omega⟩ (Nat.zero_add _).symm rfl,
    xstg_eq]
  unfold edgeCol
  cases hy : isY0 c
  · rw [yBit_of_false c hy, select_zero]; rfl
  · rw [yBit_of_true c hy, select_one]; rfl

/-- The received row, as loaded: the vertical neighbour's inner edge row. -/
theorem rrLd_apply (m : (ℓ : Loc nD τ sig) → Buf (Elt Ideal) ℓ) (c : Dev nD) (u : Fin 1) (q : Fin 1024) :
    (rrLd (F := Ideal) m c (ix2 u q) : EReal) = edgeRow (isX0 (xn c)) (xblk m (xn c)) q := by
  have e : rrLd (F := Ideal) m c = srowV m (xn c) :=
    Memref.readAt_unit_zero (Elt Ideal) cc0_scratch3 (off := ![0, 0])
      (funext fun a => by match a with | ⟨0, _⟩ => rfl | ⟨1, _⟩ => rfl) _ _
  rw [e]; exact srowV_apply m (xn c) u q

/-- The received column, as loaded: the horizontal neighbour's inner edge column. -/
theorem rcLd_apply (m : (ℓ : Loc nD τ sig) → Buf (Elt Ideal) ℓ) (c : Dev nD) (u : Fin 1) (q : Fin 1024) :
    (rcLd (F := Ideal) m c (ix2 u q) : EReal) = edgeCol (isY0 (yn c)) (xblk m (yn c)) q := by
  have e : rcLd (F := Ideal) m c = scolV m (yn c) :=
    Memref.readAt_unit_zero (Elt Ideal) cc0_scratch4 (off := ![0, 0])
      (funext fun a => by match a with | ⟨0, _⟩ => rfl | ⟨1, _⟩ => rfl) _ _
  rw [e]; exact scolV_apply m (yn c) u q

/-- The first store: the stencil inside the block. -/
theorem o1_apply (m : (ℓ : Loc nD τ sig) → Buf (Elt Ideal) ℓ) (c : Dev nD) (p q : Fin 1024) :
    (o1 (F := Ideal) m c (ix2 p q) : EReal) = base (xblk m c) (ix2 p q) := by
  unfold o1
  have e : (lbM).view.readAt (Elt Ideal) rAll.toLoadRect (lbV (F := Ideal) m c) = xblk m c :=
    (Memref.readAt_unit_zero (Elt Ideal) cc0_scratch0 (off := ![0, 0])
      (funext fun a => by match a with | ⟨0, _⟩ => rfl | ⟨1, _⟩ => rfl) _ _).trans (lbV_eq m c)
  rw [e]
  exact pay12_apply _ p q

/-- The row and the column a device receives: the vertical neighbour's inner edge row, the horizontal neighbour's
    inner edge column. -/
abbrev gotRow (m : (ℓ : Loc nD τ sig) → Buf (Elt Ideal) ℓ) (c : Dev nD) : Fin 1024 → EReal := edgeRow (isX0 (xn c)) (xblk m (xn c))
abbrev gotCol (m : (ℓ : Loc nD τ sig) → Buf (Elt Ideal) ℓ) (c : Dev nD) : Fin 1024 → EReal := edgeCol (isY0 (yn c)) (xblk m (yn c))

/-- The result buffer's contents read as extended reals. -/
abbrev asEReal (f : OC (F := Ideal)) : SB.Idx → EReal := f

/-- A device of the upper half adds an eighth of the received row on its last row. -/
theorem o2_apply (m : (ℓ : Loc nD τ sig) → Buf (Elt Ideal) ℓ) (c : Dev nD) (p q : Fin 1024) :
    asEReal (o2 (F := Ideal) m c) (ix2 p q)
      = if isX0 c = true ∧ p.val = 1023 then asEReal (o1 (F := Ideal) m c) (ix2 p q) + eighth * gotRow m c q else asEReal (o1 (F := Ideal) m c) (ix2 p q) := by
  show (o2 (F := Ideal) m c (ix2 p q) : EReal) = _
  unfold o2
  cases hx : isX0 c
  · rw [if_neg Bool.false_ne_true, if_neg (fun h => Bool.false_ne_true h.1)]
  · rw [if_pos rfl, stRowBot_apply]
    by_cases hp : p.val = 1023
    · rw [if_pos hp, if_pos ⟨rfl, hp⟩, pay13_apply,
        rdO_apply (o1 (F := Ideal) m c) inb_S1024x1024_S1x1024_1023_0 (ix2 (0 : Fin 1) q) p q (by show p.val = 1023 + 0; omega) (Nat.zero_add _).symm,
        rrLd_apply]
    · rw [if_neg hp, if_neg (fun h => hp h.2)]

/-- A device of the lower half adds it on its first row. -/
theorem o3_apply (m : (ℓ : Loc nD τ sig) → Buf (Elt Ideal) ℓ) (c : Dev nD) (p q : Fin 1024) :
    asEReal (o3 (F := Ideal) m c) (ix2 p q)
      = if isX0 c = false ∧ p.val = 0 then asEReal (o2 (F := Ideal) m c) (ix2 p q) + eighth * gotRow m c q else asEReal (o2 (F := Ideal) m c) (ix2 p q) := by
  show (o3 (F := Ideal) m c (ix2 p q) : EReal) = _
  unfold o3
  cases hx : isX0 c
  · rw [if_neg Bool.false_ne_true, stRowTop_apply]
    by_cases hp : p.val = 0
    · rw [if_pos hp, if_pos ⟨rfl, hp⟩, pay1_apply,
        rdO_apply (o2 (F := Ideal) m c) inb_S1024x1024_S1x1024_0_0 (ix2 (0 : Fin 1) q) p q (by show p.val = 0 + 0; omega) (Nat.zero_add _).symm,
        rrLd_apply]
    · rw [if_neg hp, if_neg (fun h => hp h.2)]
  · rw [if_pos rfl, if_neg (fun h => Bool.false_ne_true h.1.symm)]

/-- A device of the left half adds an eighth of the received column on its last column. -/
theorem o4_apply (m : (ℓ : Loc nD τ sig) → Buf (Elt Ideal) ℓ) (c : Dev nD) (p q : Fin 1024) :
    asEReal (o4 (F := Ideal) m c) (ix2 p q)
      = if isY0 c = true ∧ q.val = 1023 then asEReal (o3 (F := Ideal) m c) (ix2 p q) + eighth * gotCol m c p else asEReal (o3 (F := Ideal) m c) (ix2 p q) := by
  show (o4 (F := Ideal) m c (ix2 p q) : EReal) = _
  unfold o4
  cases hy : isY0 c
  · rw [if_neg Bool.false_ne_true, if_neg (fun h => Bool.false_ne_true h.1)]
  · rw [if_pos rfl, stColL_apply]
    by_cases hq : q.val = 1023
    · rw [if_pos hq, if_pos ⟨rfl, hq⟩, pay2_apply,
        rdO_apply (o3 (F := Ideal) m c) inb_S1024x1024_S1024x1_0_1023 (ix2 p (0 : Fin 1)) p q (Nat.zero_add _).symm (by show q.val = 1023 + 0; omega),
        rcLd_apply]
    · rw [if_neg hq, if_neg (fun h => hq h.2)]

/-- A device of the right half adds it on its first column. -/
theorem o5_apply (m : (ℓ : Loc nD τ sig) → Buf (Elt Ideal) ℓ) (c : Dev nD) (p q : Fin 1024) :
    asEReal (o5 (F := Ideal) m c) (ix2 p q)
      = if isY0 c = false ∧ q.val = 0 then asEReal (o4 (F := Ideal) m c) (ix2 p q) + eighth * gotCol m c p else asEReal (o4 (F := Ideal) m c) (ix2 p q) := by
  show (o5 (F := Ideal) m c (ix2 p q) : EReal) = _
  unfold o5
  cases hy : isY0 c
  · rw [if_neg Bool.false_ne_true, stCol0_apply]
    by_cases hq : q.val = 0
    · rw [if_pos hq, if_pos ⟨rfl, hq⟩, pay3_apply,
        rdO_apply (o4 (F := Ideal) m c) inb_S1024x1024_S1024x1_0_0 (ix2 p (0 : Fin 1)) p q (Nat.zero_add _).symm (by show q.val = 0 + 0; omega),
        rcLd_apply]
    · rw [if_neg hq, if_neg (fun h => hq h.2)]
  · rw [if_pos rfl, if_neg (fun h => Bool.false_ne_true h.1.symm)]

/-- A device of the upper half puts the input back on its first row. -/
theorem o6_apply (m : (ℓ : Loc nD τ sig) → Buf (Elt Ideal) ℓ) (c : Dev nD) (p q : Fin 1024) :
    asEReal (o6 (F := Ideal) m c) (ix2 p q)
      = if isX0 c = true ∧ p.val = 0 then xblk m c (ix2 p q) else asEReal (o5 (F := Ideal) m c) (ix2 p q) := by
  show (o6 (F := Ideal) m c (ix2 p q) : EReal) = _
  unfold o6
  cases hx : isX0 c
  · rw [if_neg Bool.false_ne_true, if_neg (fun h => Bool.false_ne_true h.1)]
  · rw [if_pos rfl, stRowTop_apply]
    by_cases hp : p.val = 0
    · rw [if_pos hp, if_pos ⟨rfl, hp⟩, pay4_apply,
        rdL_apply (lbV (F := Ideal) m c) inb_S1024x1024_S1x1024_0_0 (ix2 (0 : Fin 1) q) p q (by show p.val = 0 + 0; omega) (Nat.zero_add _).symm,
        lbV_eq]
    · rw [if_neg hp, if_neg (fun h => hp h.2)]

/-- A device of the lower half puts it back on its last row. -/
theorem o7_apply (m : (ℓ : Loc nD τ sig) → Buf (Elt Ideal) ℓ) (c : Dev nD) (p q : Fin 1024) :
    asEReal (o7 (F := Ideal) m c) (ix2 p q)
      = if isX0 c = false ∧ p.val = 1023 then xblk m c (ix2 p q) else asEReal (o6 (F := Ideal) m c) (ix2 p q) := by
  show (o7 (F := Ideal) m c (ix2 p q) : EReal) = _
  unfold o7
  cases hx : isX0 c
  · rw [if_neg Bool.false_ne_true, stRowBot_apply]
    by_cases hp : p.val = 1023
    · rw [if_pos hp, if_pos ⟨rfl, hp⟩, pay5_apply,
        rdL_apply (lbV (F := Ideal) m c) inb_S1024x1024_S1x1024_1023_0 (ix2 (0 : Fin 1) q) p q (by show p.val = 1023 + 0; omega) (Nat.zero_add _).symm,
        lbV_eq]
    · rw [if_neg hp, if_neg (fun h => hp h.2)]
  · rw [if_pos rfl, if_neg (fun h => Bool.false_ne_true h.1.symm)]

/-- A device of the left half puts it back on its first column. -/
theorem o8_apply (m : (ℓ : Loc nD τ sig) → Buf (Elt Ideal) ℓ) (c : Dev nD) (p q : Fin 1024) :
    asEReal (o8 (F := Ideal) m c) (ix2 p q)
      = if isY0 c = true ∧ q.val = 0 then xblk m c (ix2 p q) else asEReal (o7 (F := Ideal) m c) (ix2 p q) := by
  show (o8 (F := Ideal) m c (ix2 p q) : EReal) = _
  unfold o8
  cases hy : isY0 c
  · rw [if_neg Bool.false_ne_true, if_neg (fun h => Bool.false_ne_true h.1)]
  · rw [if_pos rfl, stCol0_apply]
    by_cases hq : q.val = 0
    · rw [if_pos hq, if_pos ⟨rfl, hq⟩, pay6_apply,
        rdL_apply (lbV (F := Ideal) m c) inb_S1024x1024_S1024x1_0_0 (ix2 p (0 : Fin 1)) p q (Nat.zero_add _).symm (by show q.val = 0 + 0; omega),
        lbV_eq]
    · rw [if_neg hq, if_neg (fun h => hq h.2)]

/-- A device of the right half puts it back on its last column. -/
theorem o9_apply (m : (ℓ : Loc nD τ sig) → Buf (Elt Ideal) ℓ) (c : Dev nD) (p q : Fin 1024) :
    asEReal (o9 (F := Ideal) m c) (ix2 p q)
      = if isY0 c = false ∧ q.val = 1023 then xblk m c (ix2 p q) else asEReal (o8 (F := Ideal) m c) (ix2 p q) := by
  show (o9 (F := Ideal) m c (ix2 p q) : EReal) = _
  unfold o9
  cases hy : isY0 c
  · rw [if_neg Bool.false_ne_true, stColL_apply]
    by_cases hq : q.val = 1023
    · rw [if_pos hq, if_pos ⟨rfl, hq⟩, pay7_apply,
        rdL_apply (lbV (F := Ideal) m c) inb_S1024x1024_S1024x1_0_1023 (ix2 p (0 : Fin 1)) p q (Nat.zero_add _).symm (by show q.val = 1023 + 0; omega),
        lbV_eq]
    · rw [if_neg hq, if_neg (fun h => hq h.2)]
  · rw [if_pos rfl, if_neg (fun h => Bool.false_ne_true h.1.symm)]

/-- One device's result `localSt` at `(p, q)`, its coordinates read off. -/
theorem localSt_ix2 (x0 y0 : Bool) (B : SB.Idx → EReal) (R C : Fin 1024 → EReal) (p q : Fin 1024) :
    localSt x0 y0 B R C (ix2 p q)
      = if p.val = outerRow x0 ∨ q.val = outerCol y0 then B (ix2 p q)
        else if q.val = innerCol y0 then
          (if p.val = innerRow x0 then base B (ix2 p q) + eighth * R q else base B (ix2 p q)) + eighth * C p
        else (if p.val = innerRow x0 then base B (ix2 p q) + eighth * R q else base B (ix2 p q)) := rfl

/-- The result buffer's final contents are `localSt` of the device's block, the vertical neighbour's inner edge row
    and the horizontal neighbour's inner edge column. -/
theorem outAt_eq (m : (ℓ : Loc nD τ sig) → Buf (Elt Ideal) ℓ) (c : Dev nD) :
    (outAt (F := Ideal) m c : SB.Idx → EReal)
      = localSt (isX0 c) (isY0 c) (xblk m c) (edgeRow (isX0 (xn c)) (xblk m (xn c))) (edgeCol (isY0 (yn c)) (xblk m (yn c))) := by
  funext i
  obtain ⟨p, q, rfl⟩ : ∃ p q : Fin 1024, i = ix2 p q := ⟨i 0, i 1, eq_ix2 i⟩
  rw [localSt_ix2]
  show asEReal (o9 (F := Ideal) m c) (ix2 p q) = _
  rw [o9_apply, o8_apply, o7_apply, o6_apply, o5_apply, o4_apply, o3_apply, o2_apply]
  show _ = if p.val = outerRow (isX0 c) ∨ q.val = outerCol (isY0 c) then xblk m c (ix2 p q)
        else if q.val = innerCol (isY0 c) then
          (if p.val = innerRow (isX0 c) then base (xblk m c) (ix2 p q) + eighth * gotRow m c q else base (xblk m c) (ix2 p q)) + eighth * gotCol m c p
        else (if p.val = innerRow (isX0 c) then base (xblk m c) (ix2 p q) + eighth * gotRow m c q else base (xblk m c) (ix2 p q))
  have e1 : asEReal (o1 (F := Ideal) m c) (ix2 p q) = base (xblk m c) (ix2 p q) := o1_apply m c p q
  rw [e1]
  generalize base (xblk m c) (ix2 p q) = b0
  generalize xblk m c (ix2 p q) = x0
  generalize gotRow m c q = r0
  generalize gotCol m c p = c0
  cases isX0 c <;> cases isY0 c <;>
    simp only [innerRow, innerCol, outerRow, outerCol, Bool.false_eq_true, Bool.true_eq_false, false_and, true_and, and_true,
      if_false, if_true, ↓reduceIte] <;>
    split_ifs <;> first | rfl | (exfalso; omega)

/-- info: 'Cert.KernelIdeal.HaloValue.outAt_eq' depends on axioms: [propext, Classical.choice, Quot.sound] -/
#guard_msgs in #print axioms outAt_eq

end Cert.KernelIdeal.HaloValue

end
-- ==== Proof.ValueStencil.lean ====
/-
  The join of the two sides, pure: over a whole array of finite entries, what a device computes from its block and its
  neighbours' edges (`localSt`) is that device's block of the whole-array stencil. The law that joins them is
  1/8 * (a + b + c + d) = 1/8 * a + 1/8 * b + 1/8 * c + 1/8 * d, which holds for reals (not at infinities).
-/
import proofs.«900186_g7700000000000187_dist_halo2d_stencil_xy_m1024_n1024_v7x_xy2x2_bf16_1_alg».proof.Proof.Spec

noncomputable section

namespace Cert.Stencil

open Idealize.ShloMosaic Idealize.ShloMosaic.ValueIdx

/-! ## The whole array read at natural coordinates -/

/-- The whole array read at a pair of natural coordinates, zero outside the array. -/
def vsAt (W : SW.Idx → EReal) (m n : ℕ) : EReal :=
  if h : m < 2048 ∧ n < 2048 then W (ix2 (⟨m, h.1⟩ : Fin 2048) (⟨n, h.2⟩ : Fin 2048)) else 0

/-- Inside the array the reading is the entry. -/
theorem vsAt_of_lt (W : SW.Idx → EReal) {m n : ℕ} (hm : m < 2048) (hn : n < 2048) :
    vsAt W m n = W (ix2 (⟨m, hm⟩ : Fin 2048) (⟨n, hn⟩ : Fin 2048)) := dif_pos ⟨hm, hn⟩

/-- Every entry is the reading at its coordinates. -/
theorem vsAt_idx (W : SW.Idx → EReal) (j : SW.Idx) : W j = vsAt W (j 0).val (j 1).val := by
  rw [vsAt_of_lt W (idx2_lt0 j) (idx2_lt1 j)]
  exact congrArg W (eq_ix2 j)

/-- Device `c`'s block entry `(p, q)` is the whole array's entry `(1024 * (c / 2) + p, 1024 * (c % 2) + q)`. -/
theorem blk_vsAt (c : Fin 4) (W : SW.Idx → EReal) (i : SB.Idx) :
    blk c W i = vsAt W (c.val / 2 * 1024 + (i 0).val) (c.val % 2 * 1024 + (i 1).val) := by
  unfold blk
  rw [Layout.blockN_apply, vsAt_idx W]
  congr 1 <;> (fin_cases c <;> rfl)

/-- Outside the array the reading is zero. -/
theorem vsAt_of_not (W : SW.Idx → EReal) {m n : ℕ} (h : ¬(m < 2048 ∧ n < 2048)) : vsAt W m n = 0 := dif_neg h

/-- The stencil of the whole array, read at natural coordinates. -/
theorem stencil_vsAt (W : SW.Idx → EReal) (m n : ℕ) :
    vsAt (stencil W) m n =
      if 1 ≤ m ∧ m ≤ 2046 ∧ 1 ≤ n ∧ n ≤ 2046 then
        half * vsAt W m n + eighth * vsAt W (m - 1) n + eighth * vsAt W (m + 1) n
          + eighth * vsAt W m (n - 1) + eighth * vsAt W m (n + 1)
      else vsAt W m n := by
  by_cases hc : 1 ≤ m ∧ m ≤ 2046 ∧ 1 ≤ n ∧ n ≤ 2046
  · rw [if_pos hc]
    have hm : m < 2048 := by omega
    have hn : n < 2048 := by omega
    rw [vsAt_of_lt _ hm hn, vsAt_of_lt W hm hn, vsAt_of_lt W (m := m - 1) (by omega) hn,
      vsAt_of_lt W (m := m + 1) (by omega) hn, vsAt_of_lt W (n := n - 1) hm (by omega),
      vsAt_of_lt W (n := n + 1) hm (by omega)]
    unfold stencil
    exact dif_pos hc
  · rw [if_neg hc]
    by_cases hb : m < 2048 ∧ n < 2048
    · rw [vsAt_of_lt _ hb.1 hb.2, vsAt_of_lt W hb.1 hb.2]
      unfold stencil
      exact dif_neg hc
    · rw [vsAt_of_not _ hb, vsAt_of_not W hb]

/-! ## A block's pieces, read in the whole array -/

theorem upOf_blk (c : Fin 4) (W : SW.Idx → EReal) (i : SB.Idx) :
    upOf (blk c W) i =
      if (i 0).val = 0 then 0 else vsAt W (c.val / 2 * 1024 + (i 0).val - 1) (c.val % 2 * 1024 + (i 1).val) := by
  unfold upOf
  by_cases h : (i 0).val = 0
  · rw [dif_pos h, if_pos h]
  · rw [dif_neg h, if_neg h, blk_vsAt]
    have e : c.val / 2 * 1024 + ((i 0).val - 1) = c.val / 2 * 1024 + (i 0).val - 1 := by omega
    exact congrArg (fun t => vsAt W t (c.val % 2 * 1024 + (i 1).val)) e

theorem downOf_blk (c : Fin 4) (W : SW.Idx → EReal) (i : SB.Idx) :
    downOf (blk c W) i =
      if (i 0).val = 1023 then 0 else vsAt W (c.val / 2 * 1024 + (i 0).val + 1) (c.val % 2 * 1024 + (i 1).val) := by
  unfold downOf
  by_cases h : (i 0).val = 1023
  · rw [dif_pos h, if_pos h]
  · rw [dif_neg h, if_neg h, blk_vsAt]
    rfl

theorem leftOf_blk (c : Fin 4) (W : SW.Idx → EReal) (i : SB.Idx) :
    leftOf (blk c W) i =
      if (i 1).val = 0 then 0 else vsAt W (c.val / 2 * 1024 + (i 0).val) (c.val % 2 * 1024 + (i 1).val - 1) := by
  unfold leftOf
  by_cases h : (i 1).val = 0
  · rw [dif_pos h, if_pos h]
  · rw [dif_neg h, if_neg h, blk_vsAt]
    have e : c.val % 2 * 1024 + ((i 1).val - 1) = c.val % 2 * 1024 + (i 1).val - 1 := by omega
    exact congrArg (fun t => vsAt W (c.val / 2 * 1024 + (i 0).val) t) e

theorem rightOf_blk (c : Fin 4) (W : SW.Idx → EReal) (i : SB.Idx) :
    rightOf (blk c W) i =
      if (i 1).val = 1023 then 0 else vsAt W (c.val / 2 * 1024 + (i 0).val) (c.val % 2 * 1024 + (i 1).val + 1) := by
  unfold rightOf
  by_cases h : (i 1).val = 1023
  · rw [dif_pos h, if_pos h]
  · rw [dif_neg h, if_neg h, blk_vsAt]
    rfl

theorem edgeRow_blk (x : Bool) (c : Fin 4) (W : SW.Idx → EReal) (i : SB.Idx) :
    edgeRow x (blk c W) (i 1) = vsAt W (c.val / 2 * 1024 + innerRow x) (c.val % 2 * 1024 + (i 1).val) := by
  unfold edgeRow
  rw [blk_vsAt]

theorem edgeCol_blk (y : Bool) (c : Fin 4) (W : SW.Idx → EReal) (i : SB.Idx) :
    edgeCol y (blk c W) (i 0) = vsAt W (c.val / 2 * 1024 + (i 0).val) (c.val % 2 * 1024 + innerCol y) := by
  unfold edgeCol
  rw [blk_vsAt]

/-! ## The mesh's tables -/

/-- A device's row half, whether that is the upper one, and the same two for its vertical neighbour. -/
theorem mesh_rows (c : Fin 4) :
    (c.val / 2 = 0 ∧ x0F c = true ∧ (xnF c).val / 2 = 1 ∧ x0F (xnF c) = false) ∨
      (c.val / 2 = 1 ∧ x0F c = false ∧ (xnF c).val / 2 = 0 ∧ x0F (xnF c) = true) := by
  revert c; decide

/-- A device's column half, whether that is the left one, and the same two for its horizontal neighbour. -/
theorem mesh_cols (c : Fin 4) :
    (c.val % 2 = 0 ∧ y0F c = true ∧ (ynF c).val % 2 = 1 ∧ y0F (ynF c) = false) ∨
      (c.val % 2 = 1 ∧ y0F c = false ∧ (ynF c).val % 2 = 0 ∧ y0F (ynF c) = true) := by
  revert c; decide

/-- The vertical neighbour is in the same column half, the horizontal neighbour in the same row half. -/
theorem xnF_col (c : Fin 4) : (xnF c).val % 2 = c.val % 2 := by revert c; decide
theorem ynF_row (c : Fin 4) : (ynF c).val / 2 = c.val / 2 := by revert c; decide

theorem innerRow_true : innerRow true = 1023 := rfl
theorem innerRow_false : innerRow false = 0 := rfl
theorem innerCol_true : innerCol true = 1023 := rfl
theorem innerCol_false : innerCol false = 0 := rfl
theorem outerRow_true : outerRow true = 0 := rfl
theorem outerRow_false : outerRow false = 1023 := rfl
theorem outerCol_true : outerCol true = 0 := rfl
theorem outerCol_false : outerCol false = 1023 := rfl

/-! ## The two theorems -/

/-- If every device's block of `W` has real entries, every entry of `W` is real: the four blocks cover the array. -/
theorem real_of_blocks (W : SW.Idx → EReal) (h : ∀ (c : Fin 4) (i : SB.Idx), ∃ r : ℝ, blk c W i = (r : EReal)) :
    ∀ j : SW.Idx, ∃ r : ℝ, W j = (r : EReal) := by
  intro j
  have h0 : (j 0).val < 2048 := idx2_lt0 j
  have h1 : (j 1).val < 2048 := idx2_lt1 j
  obtain ⟨r, hr⟩ := h (⟨2 * ((j 0).val / 1024) + (j 1).val / 1024, by omega⟩ : Fin 4)
    (ix2 (⟨(j 0).val % 1024, by omega⟩ : Fin 1024) (⟨(j 1).val % 1024, by omega⟩ : Fin 1024))
  refine ⟨r, ?_⟩
  rw [← hr, blk_vsAt, vsAt_idx W j]
  congr 1
  · show (j 0).val = (2 * ((j 0).val / 1024) + (j 1).val / 1024) / 2 * 1024 + (j 0).val % 1024
    omega
  · show (j 1).val = (2 * ((j 0).val / 1024) + (j 1).val / 1024) % 2 * 1024 + (j 1).val % 1024
    omega

/-- A device's result is its block of the stencil of the whole array. -/
theorem localSt_block (W : SW.Idx → EReal) (hW : ∀ j : SW.Idx, ∃ r : ℝ, W j = (r : EReal)) (c : Fin 4) :
    localSt (x0F c) (y0F c) (blk c W) (edgeRow (x0F (xnF c)) (blk (xnF c) W)) (edgeCol (y0F (ynF c)) (blk (ynF c) W))
      = blk c (stencil W) := by
  funext i
  have hreal : ∀ m n, ∃ r : ℝ, vsAt W m n = (r : EReal) := by
    intro m n
    by_cases hb : m < 2048 ∧ n < 2048
    · rw [vsAt_of_lt W hb.1 hb.2]; exact hW _
    · exact ⟨0, by rw [vsAt_of_not W hb]; rfl⟩
  choose g hg using hreal
  have hp : (i 0).val < 1024 := idx2_lt0 i
  have hq : (i 1).val < 1024 := idx2_lt1 i
  rw [blk_vsAt, stencil_vsAt]
  unfold localSt withCol withRow base
  simp only [upOf_blk, downOf_blk, leftOf_blk, rightOf_blk, edgeRow_blk, edgeCol_blk, blk_vsAt, hg]
  generalize (i 0).val = P at *
  generalize (i 1).val = Q at *
  have hr := mesh_rows c
  have hc := mesh_cols c
  rw [xnF_col c, ynF_row c]
  generalize (xnF c).val / 2 = a' at *
  generalize (ynF c).val % 2 = b' at *
  generalize x0F (xnF c) = x0' at *
  generalize y0F (ynF c) = y0' at *
  generalize x0F c = x0 at *
  generalize y0F c = y0 at *
  generalize c.val / 2 = a at *
  generalize c.val % 2 = b at *
  rcases hr with ⟨rfl, rfl, rfl, rfl⟩ | ⟨rfl, rfl, rfl, rfl⟩ <;>
    rcases hc with ⟨rfl, rfl, rfl, rfl⟩ | ⟨rfl, rfl, rfl, rfl⟩
  all_goals
    simp only [innerRow_true, innerRow_false, innerCol_true, innerCol_false, outerRow_true, outerRow_false,
      outerCol_true, outerCol_false, zero_mul, one_mul, zero_add]
    rcases (by omega : P = 0 ∨ P = 1023 ∨ (1 ≤ P ∧ P ≤ 1022)) with rfl | rfl | hP <;>
      rcases (by omega : Q = 0 ∨ Q = 1023 ∨ (1 ≤ Q ∧ Q ≤ 1022)) with rfl | rfl | hQ <;>
        simp (disch := omega) only [if_pos, if_neg, if_true, if_false, true_or, or_true]
    all_goals
      simp only [Nat.reduceAdd, Nat.reduceSub, add_zero, zero_add, half, eighth]
      norm_cast <;> ring

/-- info: 'Cert.Stencil.real_of_blocks' depends on axioms: [propext, Classical.choice, Quot.sound] -/
#guard_msgs in #print axioms real_of_blocks

/-- info: 'Cert.Stencil.localSt_block' depends on axioms: [propext, Classical.choice, Quot.sound] -/
#guard_msgs in #print axioms localSt_block

end Cert.Stencil

end
-- ==== Proof.ValueRef.lean ====
/-
  The reference, read index by index at the exact instance: its result is the five-point stencil of its argument.
  Its last operation writes the 2046 x 2046 array of stencil values into the copy of the input at offset (1, 1), so the
  outermost rows and columns keep the input; both weights are exact dyadic constants; the final change of format is
  the identity on extended reals.
-/
import proofs.«900186_g7700000000000187_dist_halo2d_stencil_xy_m1024_n1024_v7x_xy2x2_bf16_1_alg».proof.Proof.Gen.ReferenceIdeal.Run
import proofs.«900186_g7700000000000187_dist_halo2d_stencil_xy_m1024_n1024_v7x_xy2x2_bf16_1_alg».proof.Proof.Gen.ReferenceIdeal.Read
import proofs.«900186_g7700000000000187_dist_halo2d_stencil_xy_m1024_n1024_v7x_xy2x2_bf16_1_alg».proof.Proof.Spec
import Idealize.ShloMosaic.PureOps.Ideal
import Idealize.ShloMosaic.Lib.ValueIdx
import Idealize.ShloMosaic.Lib.Pipeline.Value

noncomputable section

namespace Cert.ReferenceIdeal.RefValue

open Cert.ReferenceIdeal Cert.ReferenceIdeal.Gen Cert.Stencil
open Idealize.ShloMosaic Idealize.ShloMosaic.TcCoe Idealize.SL.Sem Idealize.ShloMosaic.ValueIdx

/-- A left fold of steps read at one index: if no step of the list lands on the index, the fold leaves the index's
    value as it was. -/
theorem foldl_read_miss {β ι α : Type} (step : (ι → α) → β → (ι → α)) (P : β → Prop) (i' : ι)
    (hmiss : ∀ r n, ¬ P n → step r n i' = r i') :
    ∀ (l : List β) (x : ι → α), (∀ n ∈ l, ¬ P n) → l.foldl step x i' = x i' := by
  intro l
  induction l with
  | nil => intro x _; rfl
  | cons a t ih =>
    intro x h
    rw [List.foldl_cons, ih _ (fun n hn => h n (List.mem_cons_of_mem _ hn)), hmiss _ _ (h a List.mem_cons_self)]

/-- If some step of the list lands on the index, and every step that does writes the value `c`, the fold's value at
    the index is `c`. -/
theorem foldl_read_hit {β ι α : Type} (step : (ι → α) → β → (ι → α)) (P : β → Prop) (v : β → α) (i' : ι)
    (hhit : ∀ r n, P n → step r n i' = v n) (hmiss : ∀ r n, ¬ P n → step r n i' = r i') (c : α) :
    ∀ (l : List β) (x : ι → α), (∀ n ∈ l, P n → v n = c) → (∃ n ∈ l, P n) → l.foldl step x i' = c := by
  intro l
  induction l with
  | nil => intro x _ h; obtain ⟨n, hn, _⟩ := h; cases hn
  | cons a t ih =>
    intro x hv hex
    rw [List.foldl_cons]
    by_cases ht : ∃ n ∈ t, P n
    · exact ih _ (fun n hn => hv n (List.mem_cons_of_mem _ hn)) ht
    · have hnone : ∀ n ∈ t, ¬ P n := fun n hn hp => ht ⟨n, hn, hp⟩
      rw [foldl_read_miss step P i' hmiss t _ hnone]
      obtain ⟨n, hn, hp⟩ := hex
      rcases List.mem_cons.1 hn with rfl | hn'
      · rw [hhit _ _ hp]; exact hv n List.mem_cons_self hp
      · exact absurd hp (hnone n hn')

/-- A scatter whose body returns the update, read at an index on which exactly one update index lands: the update
    there. -/
theorem scatter_set_apply_hit {α : Type} {w : Nat} {s si u : Shape} (d : ScatterDims s si u) (x : s.Idx → α)
    (idx : IVec si w) (upd : u.Idx → α) (i : s.Idx) (j0 : u.Idx) (hj : d.resultIdx? j0 idx = some i)
    (huniq : ∀ j, d.resultIdx? j idx = some i → j = j0) :
    Host.scatter d (fun _ b => b) x idx upd i = upd j0 := by
  unfold Host.scatter
  refine foldl_read_hit _ (fun n => d.resultIdx? (u.rowMajor.symm n) idx = some i)
      (fun n => upd (u.rowMajor.symm n)) i ?_ ?_ _ _ x ?_ ?_
  · intro r n hp
    have hp' : d.resultIdx? (u.rowMajor.symm n) idx = some i := hp
    dsimp only
    rw [hp']
    exact if_pos rfl
  · intro r n hp
    have hp' : ¬ d.resultIdx? (u.rowMajor.symm n) idx = some i := hp
    dsimp only
    cases hk : d.resultIdx? (u.rowMajor.symm n) idx with
    | none => rfl
    | some k => exact if_neg (fun e => hp' (hk.trans (by rw [e])))
  · intro n _ hp
    show upd _ = upd _
    rw [huniq _ hp]
  · refine ⟨u.rowMajor j0, List.mem_finRange _, ?_⟩
    show d.resultIdx? (u.rowMajor.symm (u.rowMajor j0)) idx = some i
    rw [Equiv.symm_apply_apply]; exact hj

/-- The same read at an index on which no update index lands: the operand there. -/
theorem scatter_set_apply_miss {α : Type} {w : Nat} {s si u : Shape} (d : ScatterDims s si u) (x : s.Idx → α)
    (idx : IVec si w) (upd : u.Idx → α) (i : s.Idx) (hno : ∀ j, d.resultIdx? j idx ≠ some i) :
    Host.scatter d (fun _ b => b) x idx upd i = x i := by
  unfold Host.scatter
  refine foldl_read_miss _ (fun n => d.resultIdx? (u.rowMajor.symm n) idx = some i) i ?_ _ x ?_
  · intro r n hp
    have hp' : ¬ d.resultIdx? (u.rowMajor.symm n) idx = some i := hp
    dsimp only
    cases hk : d.resultIdx? (u.rowMajor.symm n) idx with
    | none => rfl
    | some k => exact if_neg (fun e => hp' (hk.trans (by rw [e])))
  · intro n _
    exact hno _

/-- The reference's scatter: update window axes `[0, 1]`, no inserted axis, the index vector's two components the
    starts on operand axes `0` and `1`. -/
abbrev scatD := scatter_S2048x2048_S2_S2046x2046_01_n_01_0

/-- The start index's component `c` is read at position `c` of the index vector, whatever the update index. -/
private theorem siIdx_eq (j : S2046x2046.Idx) (c : Fin scatD.scatterDimsToOperandDims.length) :
    scatD.siIdx j c = ix1 (⟨c.val, c.isLt⟩ : Fin 2) := by
  funext b
  match b with
  | ⟨0, _⟩ => rfl

/-- With both components `1`, the window starts at `1` on each operand axis. -/
private theorem start_eq (idx : IVec S2 32) (h0 : idx (ix1 0) = 1#32) (h1 : idx (ix1 1) = 1#32) (j : S2046x2046.Idx) :
    ∀ a : Fin 2, scatD.start j idx a = 1 := by
  rw [Fin.forall_fin_two]
  unfold ScatterDims.start
  constructor
  · rw [dif_pos (by decide), siIdx_eq]
    show (idx (ix1 0)).toInt = 1
    rw [h0]; rfl
  · rw [dif_pos (by decide), siIdx_eq]
    show (idx (ix1 1)).toInt = 1
    rw [h1]; rfl

/-- The window coordinate on an operand axis is the update index's coordinate on that axis. -/
private theorem window_eq (j : S2046x2046.Idx) : ∀ a : Fin 2, scatD.window j a = (j a).val := by
  rw [Fin.forall_fin_two]
  unfold ScatterDims.window
  exact ⟨rfl, rfl⟩

/-- Where update index `j` lands: one further on each axis. -/
private theorem resultIdx_eq (idx : IVec S2 32) (h0 : idx (ix1 0) = 1#32) (h1 : idx (ix1 1) = 1#32) (j : S2046x2046.Idx) :
    scatD.resultIdx? j idx = some (ix2 (⟨(j 0).val + 1, by have := idx2_lt0 j; omega⟩ : Fin 2048) (⟨(j 1).val + 1, by have := idx2_lt1 j; omega⟩ : Fin 2048)) := by
  unfold ScatterDims.resultIdx?
  have hb : ∀ a : Fin 2, 0 ≤ scatD.start j idx a + scatD.window j a ∧ scatD.start j idx a + (scatD.window j a : Int) < (S2048x2048.size a : Int) := by
    rw [Fin.forall_fin_two]
    rw [start_eq idx h0 h1, start_eq idx h0 h1, window_eq, window_eq]
    have := idx2_lt0 j; have := idx2_lt1 j
    refine ⟨?_, ?_⟩
    · show _ ∧ _ < ((2048 : Nat) : Int); omega
    · show _ ∧ _ < ((2048 : Nat) : Int); omega
  rw [dif_pos hb]
  congr 1
  funext a
  refine Fin.ext ?_
  show (scatD.start j idx a + (scatD.window j a : Int)).toNat = _
  rw [start_eq idx h0 h1, window_eq]
  revert a
  rw [Fin.forall_fin_two]
  refine ⟨?_, ?_⟩
  · show _ = (j 0).val + 1; omega
  · show _ = (j 1).val + 1; omega

/-- What landing on `i` says of the update index: `i` is one further on each axis. -/
private theorem coords_of_resultIdx (idx : IVec S2 32) (h0 : idx (ix1 0) = 1#32) (h1 : idx (ix1 1) = 1#32) (j : S2046x2046.Idx)
    (i : S2048x2048.Idx) (hp : scatD.resultIdx? j idx = some i) :
    (j 0).val + 1 = (i 0).val ∧ (j 1).val + 1 = (i 1).val := by
  rw [resultIdx_eq idx h0 h1 j] at hp
  have e := Option.some.inj hp
  exact ⟨congrArg (fun k : S2048x2048.Idx => (k 0).val) e, congrArg (fun k : S2048x2048.Idx => (k 1).val) e⟩

/-- THE SCATTER READ AT AN INDEX. With both components of the start index `1`, the full update window lands at offset
    `(1, 1)`: at `(r, q)` with `1 ≤ r ≤ 2046` and `1 ≤ q ≤ 2046` the result is the update at `(r - 1, q - 1)`, and on
    the outermost rows and columns it is the operand. -/
theorem scatter_apply {α : Type} (x : S2048x2048.Idx → α) (idx : IVec S2 32) (h0 : idx (ix1 0) = 1#32) (h1 : idx (ix1 1) = 1#32)
    (upd : S2046x2046.Idx → α) (i : S2048x2048.Idx) :
    Host.scatter scatD (fun _ b => b) x idx upd i =
      if h : 1 ≤ (i 0).val ∧ (i 0).val ≤ 2046 ∧ 1 ≤ (i 1).val ∧ (i 1).val ≤ 2046 then
        upd (ix2 (⟨(i 0).val - 1, by omega⟩ : Fin 2046) (⟨(i 1).val - 1, by omega⟩ : Fin 2046))
      else x i := by
  by_cases h : 1 ≤ (i 0).val ∧ (i 0).val ≤ 2046 ∧ 1 ≤ (i 1).val ∧ (i 1).val ≤ 2046
  · rw [dif_pos h]
    refine scatter_set_apply_hit scatD x idx upd i _ ?_ ?_
    · rw [resultIdx_eq idx h0 h1]
      congr 1
      funext a
      refine Fin.ext ?_
      revert a
      rw [Fin.forall_fin_two]
      refine ⟨?_, ?_⟩
      · show (i 0).val - 1 + 1 = (i 0).val; omega
      · show (i 1).val - 1 + 1 = (i 1).val; omega
    · intro j hp
      have hc := coords_of_resultIdx idx h0 h1 j i hp
      funext a
      refine Fin.ext ?_
      revert a
      rw [Fin.forall_fin_two]
      refine ⟨?_, ?_⟩
      · show (j 0).val = (i 0).val - 1; omega
      · show (j 1).val = (i 1).val - 1; omega
  · rw [dif_neg h]
    refine scatter_set_apply_miss scatD x idx upd i ?_
    intro j hp
    have hc := coords_of_resultIdx idx h0 h1 j i hp
    have := idx2_lt0 j; have := idx2_lt1 j
    exact h (by omega)

/-- The pattern `0x3F000000` denotes `1/2`. -/
theorem ofBits_half : Ideal.ofBits .f32 0x3F000000#32 = half := by
  unfold half
  simp [Ideal.ofBits, Ideal.ieee, -EReal.coe_mul]; norm_num

/-- The pattern `0x3E000000` denotes `1/8`. -/
theorem ofBits_eighth : Ideal.ofBits .f32 0x3E000000#32 = eighth := by
  unfold eighth
  simp [Ideal.ofBits, Ideal.ieee, -EReal.coe_mul]; norm_num

/-- The start index: both components are `1`. -/
private theorem v21_at0 : (Read.val_main_v21 (F := Ideal) : IVec S2 32) (ix1 0) = 1#32 := by
  unfold Read.val_main_v21
  rw [concatenate_pair_apply_left (0 : Fin S2.rank) _ _ concatenates_S1_S1_S2_d0 (ix1 0) rfl (ix1 0) (fun b => by
    match b with | ⟨0, _⟩ => rfl)]
  rw [Read.val_main_v19_apply, Read.val_main_c_apply]

/-- The same for the second component. -/
private theorem v21_at1 : (Read.val_main_v21 (F := Ideal) : IVec S2 32) (ix1 1) = 1#32 := by
  unfold Read.val_main_v21
  rw [concatenate_pair_apply_right (0 : Fin S2.rank) _ _ concatenates_S1_S1_S2_d0 (ix1 1) rfl rfl (ix1 0)
    (fun b hb => by match b with | ⟨0, _⟩ => exact absurd rfl hb) rfl]
  rw [Read.val_main_v20_apply, Read.val_main_c_4_apply]

/-- Two rank-2 indices with the same coordinates are equal. -/
private theorem idx2_ext {n0 n1 : Nat} (a b : (⟨2, ![n0, n1]⟩ : Shape).Idx) (h0 : (a 0).val = (b 0).val) (h1 : (a 1).val = (b 1).val) :
    a = b := by
  rw [eq_ix2 a, eq_ix2 b]
  congr 1 <;> exact Fin.ext (by assumption)

/-- The reference's last stage, as a function of its argument, is the stencil. -/
theorem val_eq_stencil (W : (⟨S2048x2048, .f32⟩ : BufTy).Contents (Elt Ideal)) :
    (Cert.ReferenceIdeal.Read.val_main_v23 (F := Ideal) W : SW.Idx → EReal) = stencil W := by
  funext i
  rw [Read.val_main_v23_apply, Ideal.truncf_def]
  unfold Read.val_main_v22
  rw [scatter_apply W _ v21_at0 v21_at1]
  unfold stencil
  by_cases h : 1 ≤ (i 0).val ∧ (i 0).val ≤ 2046 ∧ 1 ≤ (i 1).val ∧ (i 1).val ≤ 2046
  · rw [dif_pos h, dif_pos h]
    rw [Read.val_main_v18_apply, Read.val_main_v14_apply, Read.val_main_v10_apply, Read.val_main_v6_apply,
      Read.val_main_v2_apply, Read.val_main_v5_apply, Read.val_main_v9_apply, Read.val_main_v13_apply,
      Read.val_main_v17_apply,
      Read.val_main_v1_apply, Read.val_main_v4_apply, Read.val_main_v8_apply, Read.val_main_v12_apply,
      Read.val_main_v16_apply,
      Read.val_main_cst_apply, Read.val_main_cst_0_apply, Read.val_main_cst_1_apply, Read.val_main_cst_2_apply,
      Read.val_main_cst_3_apply,
      Read.val_main_v0_apply, Read.val_main_v3_apply, Read.val_main_v7_apply, Read.val_main_v11_apply,
      Read.val_main_v15_apply]
    simp only [Ideal.ofBits_def, Ideal.addf_def, Ideal.mulf_def, ofBits_half, ofBits_eighth]
    have e0 : Read.idx_main_v0 (ix2 (⟨(i 0).val - 1, by omega⟩ : Fin 2046) (⟨(i 1).val - 1, by omega⟩ : Fin 2046)) = i :=
      idx2_ext _ _ (by show 1 + ((i 0).val - 1) = (i 0).val; omega) (by show 1 + ((i 1).val - 1) = (i 1).val; omega)
    have e3 : Read.idx_main_v3 (ix2 (⟨(i 0).val - 1, by omega⟩ : Fin 2046) (⟨(i 1).val - 1, by omega⟩ : Fin 2046))
        = ix2 (⟨(i 0).val - 1, by have := idx2_lt0 i; omega⟩ : Fin 2048) (i 1) :=
      idx2_ext _ _ (by show (i 0).val - 1 = (i 0).val - 1; rfl) (by show 1 + ((i 1).val - 1) = (i 1).val; omega)
    have e7 : Read.idx_main_v7 (ix2 (⟨(i 0).val - 1, by omega⟩ : Fin 2046) (⟨(i 1).val - 1, by omega⟩ : Fin 2046))
        = ix2 (⟨(i 0).val + 1, by omega⟩ : Fin 2048) (i 1) :=
      idx2_ext _ _ (by show 2 + ((i 0).val - 1) = (i 0).val + 1; omega) (by show 1 + ((i 1).val - 1) = (i 1).val; omega)
    have e11 : Read.idx_main_v11 (ix2 (⟨(i 0).val - 1, by omega⟩ : Fin 2046) (⟨(i 1).val - 1, by omega⟩ : Fin 2046))
        = ix2 (i 0) (⟨(i 1).val - 1, by have := idx2_lt1 i; omega⟩ : Fin 2048) :=
      idx2_ext _ _ (by show 1 + ((i 0).val - 1) = (i 0).val; omega) (by show (i 1).val - 1 = (i 1).val - 1; rfl)
    have e15 : Read.idx_main_v15 (ix2 (⟨(i 0).val - 1, by omega⟩ : Fin 2046) (⟨(i 1).val - 1, by omega⟩ : Fin 2046))
        = ix2 (i 0) (⟨(i 1).val + 1, by omega⟩ : Fin 2048) :=
      idx2_ext _ _ (by show 1 + ((i 0).val - 1) = (i 0).val; omega) (by show 2 + ((i 1).val - 1) = (i 1).val + 1; omega)
    rw [e0, e3, e7, e11, e15]
    rfl
  · rw [dif_neg h, dif_neg h]

/-- The reference's run: it terminates, its result is the stencil of its argument, its argument is unchanged. -/
theorem run (m' : (ℓ : Loc nD τ sig) → Buf (Elt Ideal) ℓ) (ρ' : Dev nD → PrngReg) :
    θ_run defs (onTc (τ := τ) (main (F := Ideal))) ⟨m', fun _ => 0, ρ'⟩ (fun r =>
      (r.2.mem (((0 : Dev nD).tc : Thread nD τ).loc main_v23) : SW.Idx → EReal) = stencil (m' (((0 : Dev nD).tc : Thread nD τ).loc main_arg0))
      ∧ r.2.mem (((0 : Dev nD).tc : Thread nD τ).loc main_arg0) = m' (((0 : Dev nD).tc : Thread nD τ).loc main_arg0)) :=
  (θ_run defs _ _).mono
    (fun _ h => ⟨((h 0).1.trans (Read.val_main_v23_eq _)).trans (val_eq_stencil _), (h 0).2⟩)
    (Cert.ReferenceIdeal.Value.run (F := Ideal) m' ρ')

/-- info: 'Cert.ReferenceIdeal.RefValue.run' depends on axioms: [propext, Classical.choice, Quot.sound] -/
#guard_msgs in #print axioms run

end Cert.ReferenceIdeal.RefValue

end
-- ==== Proof.Finite.lean ====
/-
  The precondition, decoded: every entry of every device's input block is a real number (neither infinity), because
  the precondition says each |x| is below +infinity.
-/
import proofs.«900186_g7700000000000187_dist_halo2d_stencil_xy_m1024_n1024_v7x_xy2x2_bf16_1_alg».proof.Defs
import proofs.«900186_g7700000000000187_dist_halo2d_stencil_xy_m1024_n1024_v7x_xy2x2_bf16_1_alg».proof.Proof.Gen.KernelIdeal
import proofs.«900186_g7700000000000187_dist_halo2d_stencil_xy_m1024_n1024_v7x_xy2x2_bf16_1_alg».proof.Proof.Gen.Pre_finite_inputs_Kernel
import proofs.«900186_g7700000000000187_dist_halo2d_stencil_xy_m1024_n1024_v7x_xy2x2_bf16_1_alg».proof.Proof.Spec
import Idealize.ShloMosaic.PureOps.Ideal
import Idealize.ShloMosaic.Lib.ValueIdx
import Idealize.ShloMosaic.Lib.ReduceAll

noncomputable section

namespace Cert.KernelIdeal.HaloFinite

open Cert.KernelIdeal Cert.KernelIdeal.Gen Cert.Stencil
open Idealize.ShloMosaic Idealize.ShloMosaic.TcCoe Idealize.SL.Sem Idealize.ShloMosaic.ValueIdx

/-- The result of a reduction over every axis has exactly one index. -/
instance subsingleton_scalarIdx : Subsingleton Cert.Pre_finite_inputs_Kernel.S_.Idx :=
  ⟨fun a b => funext fun d => d.elim0⟩

/-- The bit pattern `0x7F800000` denotes `+∞`. -/
theorem inf_pattern : Ideal.ofBits .f32 0x7F800000#32 = (⊤ : EReal) := by
  simp [Ideal.ofBits, Ideal.ieee]

/-- An extended real whose absolute value `max x (-x)` lies below `+∞` is a real number. -/
theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- A block on which the predicate "every `|x|` is below `+∞`" is all ones has only real entries. -/
theorem real_of_fn (B : SB.Idx → EReal)
    (h : Cert.Pre_finite_inputs_Kernel.fn (F := Ideal) B = fun _ => 1#1) (i : SB.Idx) :
    ∃ r : ℝ, B i = (r : EReal) := by
  -- the predicate read at the one index of its result
  have h0 := congrFun h ValueIdx.ix0
  dsimp only [Cert.Pre_finite_inputs_Kernel.fn] at h0
  -- the conjunction over all entries is 1, so the comparison at entry `i` is 1
  have h1 := Host.reduce_andi_all _ _ _ _ _ h0 i
  -- the comparison at entry `i` is `|B i| < +∞` on the extended reals
  have h2 : Ideal.cmp .olt (max (B i) (-(B i))) (Ideal.ofBits .f32 0x7F800000#32) = 1#1 := h1
  rw [inf_pattern] at h2
  unfold Ideal.cmp at h2
  refine real_of_abs_lt_top _ ?_
  by_contra hn
  simp [hn] at h2

/-- Under the kernel's precondition every entry of device `c`'s input block is real. -/
theorem real_of_pre (m : (ℓ : Loc nD τ sig) → Buf (Elt Ideal) ℓ) (hpre : Cert.Pre_KernelIdeal m) (c : Dev nD) (i : SB.Idx) :
    ∃ r : ℝ, (m ((c.tc : Thread nD τ).loc main_arg0) : SB.Idx → EReal) i = (r : EReal) :=
  real_of_fn _ (hpre c) i

/-- info: 'Cert.KernelIdeal.HaloFinite.real_of_pre' depends on axioms: [propext, Classical.choice, Quot.sound] -/
#guard_msgs in #print axioms real_of_pre

end Cert.KernelIdeal.HaloFinite

end
-- ==== Proof.lean ====
/-
  The certificate of the 2 x 2 halo-exchange stencil: on four devices, each holding a 1024 x 1024 block of a 2048 x 2048
  array, the kernel computes the five-point stencil  1/2 * centre + 1/8 * (north + south + west + east)  of its own
  block, receives its vertical neighbour's inner edge row and its horizontal neighbour's inner edge column to
  complete the stencil across the two cuts, and keeps the whole array's outermost rows and columns. The reference
  computes the same stencil on one device over the whole array.

  Frames: every fair interleaving of the four devices' threads terminates (the barrier handshake lies below the two
  receive waits, so no device waits on something it still owes) and the arguments end unchanged; the reference is a
  straight line of host operations. No operation of the kernel was rewritten for the exact reading, so there is
  nothing to preserve. Equivalence: at the exact instance each device's result is `localSt` of its block and its
  neighbours' edges; over finite inputs (the precondition) that is its block of the whole-array stencil, by
  distributing 1/8 over the sum of the four neighbours; and the reference's result is that stencil.
-/
import proofs.«900186_g7700000000000187_dist_halo2d_stencil_xy_m1024_n1024_v7x_xy2x2_bf16_1_alg».proof.Defs
import proofs.«900186_g7700000000000187_dist_halo2d_stencil_xy_m1024_n1024_v7x_xy2x2_bf16_1_alg».proof.Proof.Gen.Kernel
import proofs.«900186_g7700000000000187_dist_halo2d_stencil_xy_m1024_n1024_v7x_xy2x2_bf16_1_alg».proof.Proof.Gen.KernelIdeal
import proofs.«900186_g7700000000000187_dist_halo2d_stencil_xy_m1024_n1024_v7x_xy2x2_bf16_1_alg».proof.Proof.Gen.ReferenceIdeal
import proofs.«900186_g7700000000000187_dist_halo2d_stencil_xy_m1024_n1024_v7x_xy2x2_bf16_1_alg».proof.Proof.Gen.Pre_finite_inputs_Kernel
import proofs.«900186_g7700000000000187_dist_halo2d_stencil_xy_m1024_n1024_v7x_xy2x2_bf16_1_alg».proof.Proof.Gen.Pre_finite_inputs_ReferenceIdeal
import proofs.«900186_g7700000000000187_dist_halo2d_stencil_xy_m1024_n1024_v7x_xy2x2_bf16_1_alg».proof.Proof.Gen.ReferenceIdeal.Run
import proofs.«900186_g7700000000000187_dist_halo2d_stencil_xy_m1024_n1024_v7x_xy2x2_bf16_1_alg».proof.Proof.Gen.ReferenceIdeal.Read
import proofs.«900186_g7700000000000187_dist_halo2d_stencil_xy_m1024_n1024_v7x_xy2x2_bf16_1_alg».proof.Proof.Spec
import proofs.«900186_g7700000000000187_dist_halo2d_stencil_xy_m1024_n1024_v7x_xy2x2_bf16_1_alg».proof.Proof.KernelLaunch
import proofs.«900186_g7700000000000187_dist_halo2d_stencil_xy_m1024_n1024_v7x_xy2x2_bf16_1_alg».proof.Proof.KernelIdealLaunch
import proofs.«900186_g7700000000000187_dist_halo2d_stencil_xy_m1024_n1024_v7x_xy2x2_bf16_1_alg».proof.Proof.ValueKernel
import proofs.«900186_g7700000000000187_dist_halo2d_stencil_xy_m1024_n1024_v7x_xy2x2_bf16_1_alg».proof.Proof.ValueStencil
import proofs.«900186_g7700000000000187_dist_halo2d_stencil_xy_m1024_n1024_v7x_xy2x2_bf16_1_alg».proof.Proof.ValueRef
import proofs.«900186_g7700000000000187_dist_halo2d_stencil_xy_m1024_n1024_v7x_xy2x2_bf16_1_alg».proof.Proof.Finite
import Idealize.ShloMosaic.Adequacy
import Idealize.ShloMosaic.Init

noncomputable section

namespace Cert.Proof

open Idealize.ShloMosaic Idealize.ShloMosaic.TcCoe Idealize.SL.Sem Cert.Stencil

/-- The word-level kernel runs and leaves its argument: its run with the result dropped. -/
theorem frame_k : Cert.frame_Kernel (hKernel := Cert.Kernel.Gen.facts) (hPre_finite_inputs_Kernel := Cert.Pre_finite_inputs_Kernel.Gen.facts) :=
  fun m ρ _ => (θ_run (Cert.Kernel.defs (F := Bits)) _ _).mono (fun _ h c => (h c).2) (Cert.Kernel.Halo.run_main (F := Bits) m ρ)

/-- The idealized kernel likewise. -/
theorem frame_ki : Cert.frame_KernelIdeal (hKernelIdeal := Cert.KernelIdeal.Gen.facts) (hPre_finite_inputs_Kernel := Cert.Pre_finite_inputs_Kernel.Gen.facts) :=
  fun m ρ _ => (θ_run (Cert.KernelIdeal.defs (F := Ideal)) _ _).mono (fun _ h c => (h c).2) (Cert.KernelIdeal.Halo.run_main (F := Ideal) m ρ)

/-- The reference runs on its one device and leaves its argument. -/
theorem frame_ri : Cert.frame_ReferenceIdeal (hReferenceIdeal := Cert.ReferenceIdeal.Gen.facts) (hPre_finite_inputs_ReferenceIdeal := Cert.Pre_finite_inputs_ReferenceIdeal.Gen.facts) :=
  fun m ρ _ => (θ_run (Cert.ReferenceIdeal.defs (F := Ideal)) _ _).mono
    (fun _ h c => by have hc : c = 0 := Subsingleton.elim _ _; subst hc; exact h.2)
    (Cert.ReferenceIdeal.RefValue.run m ρ)

/-- Each device's result is its block of the stencil of the whole array the blocks are cut from. -/
theorem algebraic : Cert.algebraic_KernelIdeal_ReferenceIdeal (hKernelIdeal := Cert.KernelIdeal.Gen.facts) (hReferenceIdeal := Cert.ReferenceIdeal.Gen.facts)
    (hPre_finite_inputs_Kernel := Cert.Pre_finite_inputs_Kernel.Gen.facts) := by
  intro m ρ m' ρ' hpre hagree
  -- the whole array, and that each device's input block is its block of it
  have hb : ∀ d : Dev Cert.KernelIdeal.nD, Cert.KernelIdeal.HaloValue.xblk m d
      = blk d (m' (((0 : Dev Cert.ReferenceIdeal.nD).tc : Thread Cert.ReferenceIdeal.nD Cert.ReferenceIdeal.τ).loc Cert.ReferenceIdeal.main_arg0)) :=
    fun d => hagree d
  -- finiteness of the whole array from the finiteness of the four blocks
  have hW := real_of_blocks _ (fun d i => by rw [← hb d]; exact Cert.KernelIdeal.HaloFinite.real_of_pre m hpre d i)
  refine ⟨stencil (m' (((0 : Dev Cert.ReferenceIdeal.nD).tc : Thread Cert.ReferenceIdeal.nD Cert.ReferenceIdeal.τ).loc Cert.ReferenceIdeal.main_arg0)), ?_, ?_⟩
  · refine (θ_run (Cert.KernelIdeal.defs (F := Ideal)) _ _).mono (fun _ h c => ⟨(h c).1.trans ?_, (h c).2⟩)
      (Cert.KernelIdeal.Halo.run_main (F := Ideal) m ρ)
    refine (Cert.KernelIdeal.HaloValue.outAt_eq m c).trans ?_
    rw [hb c, hb (Cert.KernelIdeal.Halo.xn c), hb (Cert.KernelIdeal.Halo.yn c)]
    exact localSt_block _ hW c
  · exact Cert.ReferenceIdeal.RefValue.run m' ρ'

theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts, frame_k, frame_ki, frame_ri, trivial, algebraic⟩

end Cert.Proof

end
